-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x20x512x512 : Shape := ⟨4, ![16, 20, 512, 512]⟩
abbrev S16x1x512x512 : Shape := ⟨4, ![16, 1, 512, 512]⟩
abbrev S_ : Shape := ⟨0, ![]⟩

class Facts : Prop where
  bcast_S_S16x20x512x512 : S_.BroadcastsInDim S16x20x512x512 (![] : Fin 0 → Fin S16x20x512x512.rank)
  reducesTo_S16x20x512x512_S_d0_1_2_3 : S16x20x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn_part1 {F : FTy → Type} [FloatOps F] (main_v13 : IVec S_ 1) (main_v16 : IVec S16x1x512x512 1) : IVec S_ 1 :=
  let main_c_5 : IVec S_ 1 := constantI S_ 1 1#1
  let main_v17 : IVec S_ 1 := (fun x v => Host.reduce IntOp.andi x v reducesTo_S16x1x512x512_S_d0_1_2_3 h_S_) main_v16 main_c_5
  let main_v18 : IVec S_ 1 := andi main_v13 main_v17
  main_v18

def fn {F : FTy → Type} [FloatOps F] (main_arg0 : FVec F S16x20x512x512 .f32) (main_arg1 : FVec F S16x1x512x512 .f32) (main_arg2 : FVec F S16x1x512x512 .f32) (main_arg3 : FVec F S16x1x512x512 .f32) : IVec S_ 1 :=
  let main_v0 : FVec F S16x20x512x512 .f32 := Host.absf main_arg0
  let main_cst : FVec F S_ .f32 := constant S_ .f32 0x7F800000#32
  let main_v1 : FVec F S16x20x512x512 .f32 := broadcastInDim S16x20x512x512 ![] bcast_S_S16x20x512x512 main_cst
  let main_v2 : IVec S16x20x512x512 1 := cmpf .olt main_v0 main_v1
  let main_c : IVec S_ 1 := constantI S_ 1 1#1
  let main_v3 : IVec S_ 1 := (fun x v => Host.reduce IntOp.andi x v reducesTo_S16x20x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x1x512x512 .f32 := Host.absf main_arg2
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_c_3 : IVec S_ 1 := constantI S_ 1 1#1
  let main_v12 : IVec S_ 1 := (fun x v => Host.reduce IntOp.andi x v reducesTo_S16x1x512x512_S_d0_1_2_3 h_S_) main_v11 main_c_3
  let main_v13 : IVec S_ 1 := andi main_v8 main_v12
  let main_v14 : FVec F S16x1x512x512 .f32 := Host.absf main_arg3
  let main_cst_4 : FVec F S_ .f32 := constant S_ .f32 0x7F800000#32
  let main_v15 : FVec F S16x1x512x512 .f32 := broadcastInDim S16x1x512x512 ![] bcast_S_S16x1x512x512 main_cst_4
  let main_v16 : IVec S16x1x512x512 1 := cmpf .olt main_v14 main_v15
  fn_part1 (F := F) main_v13 main_v16
-- ==== Kernel.lean ====
abbrev S16x20x512x512 : Shape := ⟨4, ![16, 20, 512, 512]⟩
abbrev S16x1x512x512 : Shape := ⟨4, ![16, 1, 512, 512]⟩
abbrev S1x2x512x512 : Shape := ⟨4, ![1, 2, 512, 512]⟩
abbrev S1x1x512x512 : Shape := ⟨4, ![1, 1, 512, 512]⟩

abbrev nBuf : Space → Nat
  | .hbm => 5
  | .vmem => 10
  | .smem => 0
  | _ => 0

abbrev bufTy : (tb : Table) → Fin (tcTables nBuf tb) → BufTy
  | .hbm, ⟨0, _⟩ => ⟨S16x20x512x512, .f32⟩
  | .hbm, ⟨1, _⟩ => ⟨S16x1x512x512, .f32⟩
  | .hbm, ⟨2, _⟩ => ⟨S16x1x512x512, .f32⟩
  | .hbm, ⟨3, _⟩ => ⟨S16x1x512x512, .f32⟩
  | .hbm, ⟨4, _⟩ => ⟨S16x20x512x512, .f32⟩
  | .local _ .vmem, ⟨0, _⟩ => ⟨S1x2x512x512, .f32⟩
  | .local _ .vmem, ⟨1, _⟩ => ⟨S1x2x512x512, .f32⟩
  | .local _ .vmem, ⟨2, _⟩ => ⟨S1x2x512x512, .f32⟩
  | .local _ .vmem, ⟨3, _⟩ => ⟨S1x2x512x512, .f32⟩
  | .local _ .vmem, ⟨4, _⟩ => ⟨S1x2x512x512, .f32⟩
  | .local _ .vmem, ⟨5, _⟩ => ⟨S1x2x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x1x512x512, .f32⟩
  | .local _ .vmem, ⟨9, _⟩ => ⟨S1x1x512x512, .f32⟩
  | _, _ => ⟨S16x20x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2x512x512_S1x2x512x512_0_0_0_0 : ∀ a, (![0, 0, 0, 0] : Fin 4 → Nat) a + S1x2x512x512.size a ≤ S1x2x512x512.size a
  h_S1x2x512x512 : 0 < S1x2x512x512.numel
  slices_S1x2x512x512_o0_0_0_0_S1x1x512x512 : S1x2x512x512.Slices ![0, 0, 0, 0] S1x1x512x512
  slices_S1x2x512x512_o0_1_0_0_S1x1x512x512 : S1x2x512x512.Slices ![0, 1, 0, 0] S1x1x512x512
  rotates_S1x2x512x512_d2 : S1x2x512x512.Rotates 2 none
  rotates_S1x1x512x512_d3 : S1x1x512x512.Rotates 3 none
  natLt_1_32 : 1 < 32
  rotates_S1x1x512x512_d2 : S1x1x512x512.Rotates 2 none
  broadcasts_S1x1x512x512_S1x2x512x512 : S1x1x512x512.Broadcasts S1x2x512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S1x1x512x512 : S1x1x512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512x512.size a ≤ S16x20x512x512.size a
  hwx0_0 : ∀ i : grid0.Coords, EltTy.bits .f32 = 32 ∨ (Rect.block (s := S16x20x512x512) S1x2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512x512.size a ≤ S16x20x512x512.size a
  hwx0_1 : ∀ i : grid0.Coords, EltTy.bits .f32 = 32 ∨ (Rect.block (s := S16x20x512x512) S1x2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x512x512.size a ≤ S16x20x512x512.size a
  hwx0_2 : ∀ i : grid0.Coords, EltTy.bits .f32 = 32 ∨ (Rect.block (s := S16x20x512x512) S1x2x512x512.size (cc0_transform_2 i) (hinb0_2 i)).WholeWords (EltTy.packing .f32)

variable [Facts₀]

abbrev win0_0 : Pipeline.Window sig grid0 :=
  Pipeline.Window.ofSpec (Memref.whole main_arg0) S1x2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x20x512x512 : Shape := ⟨4, ![16, 20, 512, 512]⟩
abbrev S16x1x512x512 : Shape := ⟨4, ![16, 1, 512, 512]⟩
abbrev S_ : Shape := ⟨0, ![]⟩
abbrev S16x1x512x1 : Shape := ⟨4, ![16, 1, 512, 1]⟩
abbrev S16x1x512x511 : Shape := ⟨4, ![16, 1, 512, 511]⟩
abbrev S16x1x1x512 : Shape := ⟨4, ![16, 1, 1, 512]⟩
abbrev S16x1x511x512 : Shape := ⟨4, ![16, 1, 511, 512]⟩
abbrev S16x20x1x512 : Shape := ⟨4, ![16, 20, 1, 512]⟩
abbrev S16x20x511x512 : Shape := ⟨4, ![16, 20, 511, 512]⟩

abbrev nBuf : Space → Nat
  | .hbm => 114
  | .vmem => 0
  | .smem => 0
  | _ => 0

abbrev bufTy : (tb : Table) → Fin (tcTables nBuf tb) → BufTy
  | .hbm, ⟨0, _⟩ => ⟨S16x20x512x512, .f32⟩
  | .hbm, ⟨1, _⟩ => ⟨S16x1x512x512, .f32⟩
  | .hbm, ⟨2, _⟩ => ⟨S16x1x512x512, .f32⟩
  | .hbm, ⟨3, _⟩ => ⟨S16x1x512x512, .f32⟩
  | .hbm, ⟨4, _⟩ => ⟨S16x1x512x512, .f32⟩
  | .hbm, ⟨5, _⟩ => ⟨S16x1x512x512, .f32⟩
  | .hbm, ⟨6, _⟩ => ⟨S_, .f32⟩
  | .hbm, ⟨7, _⟩ => ⟨S16x1x512x512, .f32⟩
  | .hbm, ⟨8, _⟩ => ⟨S16x1x512x512, .i1⟩
  | .hbm, ⟨9, _⟩ => ⟨S16x1x512x1, .f32⟩
  | .hbm, ⟨10, _⟩ => ⟨S16x1x512x511, .f32⟩
  | .hbm, ⟨11, _⟩ => ⟨S16x1x512x512, .f32⟩
  | .hbm, ⟨12, _⟩ => ⟨S16x1x1x512, .f32⟩
  | .hbm, ⟨13, _⟩ => ⟨S16x1x511x512, .f32⟩
  | .hbm, ⟨14, _⟩ => ⟨S16x1x512x512, .f32⟩
  | .hbm, ⟨15, _⟩ => ⟨S16x1x512x1, .f32⟩
  | .hbm, ⟨16, _⟩ => ⟨S16x1x512x511, .f32⟩
  | .hbm, ⟨17, _⟩ => ⟨S16x1x512x512, .f32⟩
  | .hbm, ⟨18, _⟩ => ⟨S16x1x512x512, .f32⟩
  | .hbm, ⟨19, _⟩ => ⟨S_, .f32⟩
  | .hbm, ⟨20, _⟩ => ⟨S16x1x512x512, .f32⟩
  | .hbm, ⟨21, _⟩ => ⟨S16x1x512x512, .i1⟩
  | .hbm, ⟨22, _⟩ => ⟨S16x1x512x512, .i1⟩
  | .hbm, ⟨23, _⟩ => ⟨S16x1x512x512, .f32⟩
  | .hbm, ⟨24, _⟩ => ⟨S_, .f32⟩
  | .hbm, ⟨25, _⟩ => ⟨S16x1x512x512, .f32⟩
  | .hbm, ⟨26, _⟩ => ⟨S16x1x512x512, .i1⟩
  | .hbm, ⟨27, _⟩ => ⟨S16x1x512x512, .i1⟩
  | .hbm, ⟨28, _⟩ => ⟨S16x1x512x512, .f32⟩
  | .hbm, ⟨29, _⟩ => ⟨S_, .f32⟩
  | .hbm, ⟨30, _⟩ => ⟨S16x1x512x512, .f32⟩
  | .hbm, ⟨31, _⟩ => ⟨S16x1x512x512, .i1⟩
  | .hbm, ⟨32, _⟩ => ⟨S16x1x512x512, .i1⟩
  | .hbm, ⟨33, _⟩ => ⟨S16x1x511x512, .i1⟩
  | .hbm, ⟨34, _⟩ => ⟨S16x1x1x512, .i1⟩
  | .hbm, ⟨35, _⟩ => ⟨S16x1x512x512, .i1⟩
  | .hbm, ⟨36, _⟩ => ⟨S16x20x1x512, .f32⟩
  | .hbm, ⟨37, _⟩ => ⟨S16x20x511x512, .f32⟩
  | .hbm, ⟨38, _⟩ => ⟨S16x20x512x512, .f32⟩
  | .hbm, ⟨39, _⟩ => ⟨S16x20x511x512, .f32⟩
  | .hbm, ⟨40, _⟩ => ⟨S16x20x1x512, .f32⟩
  | .hbm, ⟨41, _⟩ => ⟨S16x20x512x512, .f32⟩
  | .hbm, ⟨42, _⟩ => ⟨S16x1x512x512, .f32⟩
  | .hbm, ⟨43, _⟩ => ⟨S16x1x512x512, .f32⟩
  | .hbm, ⟨44, _⟩ => ⟨S_, .f32⟩
  | .hbm, ⟨45, _⟩ => ⟨S16x1x512x512, .f32⟩
  | .hbm, ⟨46, _⟩ => ⟨S16x1x512x512, .f32⟩
  | .hbm, ⟨47, _⟩ => ⟨S_, .f32⟩
  | .hbm, ⟨48, _⟩ => ⟨S16x1x512x512, .f32⟩
  | .hbm, ⟨49, _⟩ => ⟨S16x1x512x512, .f32⟩
  | .hbm, ⟨50, _⟩ => ⟨S16x1x512x512, .f32⟩
  | .hbm, ⟨51, _⟩ => ⟨S16x20x512x512, .f32⟩
  | .hbm, ⟨52, _⟩ => ⟨S16x20x512x512, .f32⟩
  | .hbm, ⟨53, _⟩ => ⟨S16x20x512x512, .f32⟩
  | .hbm, ⟨54, _⟩ => ⟨S16x20x512x512, .f32⟩
  | .hbm, ⟨55, _⟩ => ⟨S16x20x512x512, .f32⟩
  | .hbm, ⟨56, _⟩ => ⟨S16x20x512x512, .f32⟩
  | .hbm, ⟨57, _⟩ => ⟨S16x20x512x512, .f32⟩
  | .hbm, ⟨58, _⟩ => ⟨S16x20x512x512, .f32⟩
  | .hbm, ⟨59, _⟩ => ⟨S16x1x512x512, .f32⟩
  | .hbm, ⟨60, _⟩ => ⟨S16x1x512x512, .f32⟩
  | .hbm, ⟨61, _⟩ => ⟨S_, .f32⟩
  | .hbm, ⟨62, _⟩ => ⟨S16x1x512x512, .f32⟩
  | .hbm, ⟨63, _⟩ => ⟨S16x1x512x512, .i1⟩
  | .hbm, ⟨64, _⟩ => ⟨S16x1x512x511, .f32⟩
  | .hbm, ⟨65, _⟩ => ⟨S16x1x512x1, .f32⟩
  | .hbm, ⟨66, _⟩ => ⟨S16x1x512x512, .f32⟩
  | .hbm, ⟨67, _⟩ => ⟨S16x1x1x512, .f32⟩
  | .hbm, ⟨68, _⟩ => ⟨S16x1x511x512, .f32⟩
  | .hbm, ⟨69, _⟩ => ⟨S16x1x512x512, .f32⟩
  | .hbm, ⟨70, _⟩ => ⟨S16x1x512x511, .f32⟩
  | .hbm, ⟨71, _⟩ => ⟨S16x1x512x1, .f32⟩
  | .hbm, ⟨72, _⟩ => ⟨S16x1x512x512, .f32⟩
  | .hbm, ⟨73, _⟩ => ⟨S16x1x512x512, .f32⟩
  | .hbm, ⟨74, _⟩ => ⟨S_, .f32⟩
  | .hbm, ⟨75, _⟩ => ⟨S16x1x512x512, .f32⟩
  | .hbm, ⟨76, _⟩ => ⟨S16x1x512x512, .i1⟩
  | .hbm, ⟨77, _⟩ => ⟨S16x1x512x512, .i1⟩
  | .hbm, ⟨78, _⟩ => ⟨S16x1x512x512, .f32⟩
  | .hbm, ⟨79, _⟩ => ⟨S_, .f32⟩
  | .hbm, ⟨80, _⟩ => ⟨S16x1x512x512, .f32⟩
  | .hbm, ⟨81, _⟩ => ⟨S16x1x512x512, .i1⟩
  | .hbm, ⟨82, _⟩ => ⟨S16x1x512x512, .i1⟩
  | .hbm, ⟨83, _⟩ => ⟨S16x1x512x512, .f32⟩
  | .hbm, ⟨84, _⟩ => ⟨S_, .f32⟩
  | .hbm, ⟨85, _⟩ => ⟨S16x1x512x512, .f32⟩
  | .hbm, ⟨86, _⟩ => ⟨S16x1x512x512, .i1⟩
  | .hbm, ⟨87, _⟩ => ⟨S16x1x512x512, .i1⟩
  | .hbm, ⟨88, _⟩ => ⟨S16x1x511x512, .i1⟩
  | .hbm, ⟨89, _⟩ => ⟨S16x1x1x512, .i1⟩
  | .hbm, ⟨90, _⟩ => ⟨S16x1x512x512, .i1⟩
  | .hbm, ⟨91, _⟩ => ⟨S16x20x1x512, .f32⟩
  | .hbm, ⟨92, _⟩ => ⟨S16x20x511x512, .f32⟩
  | .hbm, ⟨93, _⟩ => ⟨S16x20x512x512, .f32⟩
  | .hbm, ⟨94, _⟩ => ⟨S16x20x511x512, .f32⟩
  | .hbm, ⟨95, _⟩ => ⟨S16x20x1x512, .f32⟩
  | .hbm, ⟨96, _⟩ => ⟨S16x20x512x512, .f32⟩
  | .hbm, ⟨97, _⟩ => ⟨S16x1x512x512, .f32⟩
  | .hbm, ⟨98, _⟩ => ⟨S16x1x512x512, .f32⟩
  | .hbm, ⟨99, _⟩ => ⟨S_, .f32⟩
  | .hbm, ⟨100, _⟩ => ⟨S16x1x512x512, .f32⟩
  | .hbm, ⟨101, _⟩ => ⟨S16x1x512x512, .f32⟩
  | .hbm, ⟨102, _⟩ => ⟨S_, .f32⟩
  | .hbm, ⟨103, _⟩ => ⟨S16x1x512x512, .f32⟩
  | .hbm, ⟨104, _⟩ => ⟨S16x1x512x512, .f32⟩
  | .hbm, ⟨105, _⟩ => ⟨S16x1x512x512, .f32⟩
  | .hbm, ⟨106, _⟩ => ⟨S16x20x512x512, .f32⟩
  | .hbm, ⟨107, _⟩ => ⟨S16x20x512x512, .f32⟩
  | .hbm, ⟨108, _⟩ => ⟨S16x20x512x512, .f32⟩
  | .hbm, ⟨109, _⟩ => ⟨S16x20x512x512, .f32⟩
  | .hbm, ⟨110, _⟩ => ⟨S16x20x512x512, .f32⟩
  | .hbm, ⟨111, _⟩ => ⟨S16x20x512x512, .f32⟩
  | .hbm, ⟨112, _⟩ => ⟨S16x20x512x512, .f32⟩
  | .hbm, ⟨113, _⟩ => ⟨S16x20x512x512, .f32⟩
  | _, _ => ⟨S16x20x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_call2_v0 : Ref sig .tc := ⟨.hbm, 15, rfl⟩
abbrev main_call2_v1 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call3_v0 : Ref sig .tc := ⟨.hbm, 33, rfl⟩
abbrev main_call3_v1 : Ref sig .tc := ⟨.hbm, 34, rfl⟩
abbrev main_v19 : Ref sig .tc := ⟨.hbm, 35, rfl⟩
abbrev main_call4_v0 : Ref sig .tc := ⟨.hbm, 36, rfl⟩
abbrev main_call4_v1 : Ref sig .tc := ⟨.hbm, 37, rfl⟩
abbrev main_v20 : Ref sig .tc := ⟨.hbm, 38, rfl⟩
abbrev main_call5_v0 : Ref sig .tc := ⟨.hbm, 39, rfl⟩
abbrev main_call5_v1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_call6_v0 : Ref sig .tc := ⟨.hbm, 64, rfl⟩
abbrev main_call6_v1 : Ref sig .tc := ⟨.hbm, 65, rfl⟩
abbrev main_v41 : Ref sig .tc := ⟨.hbm, 66, rfl⟩
abbrev main_call7_v0 : Ref sig .tc := ⟨.hbm, 67, rfl⟩
abbrev main_call7_v1 : Ref sig .tc := ⟨.hbm, 68, rfl⟩
abbrev main_v42 : Ref sig .tc := ⟨.hbm, 69, rfl⟩
abbrev main_call8_v0 : Ref sig .tc := ⟨.hbm, 70, rfl⟩
abbrev main_call8_v1 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call9_v0 : Ref sig .tc := ⟨.hbm, 88, rfl⟩
abbrev main_call9_v1 : Ref sig .tc := ⟨.hbm, 89, rfl⟩
abbrev main_v56 : Ref sig .tc := ⟨.hbm, 90, rfl⟩
abbrev main_call10_v0 : Ref sig .tc := ⟨.hbm, 91, rfl⟩
abbrev main_call10_v1 : Ref sig .tc := ⟨.hbm, 92, rfl⟩
abbrev main_v57 : Ref sig .tc := ⟨.hbm, 93, rfl⟩
abbrev main_call11_v0 : Ref sig .tc := ⟨.hbm, 94, rfl⟩
abbrev main_call11_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_v62 : Ref sig .tc := ⟨.hbm, 101, rfl⟩
abbrev main_cst_10 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  slices_S16x20x512x512_S16x1x512x512_0_1_0_0 : S16x20x512x512.Slices ![0, 1, 0, 0] S16x1x512x512
  slices_S16x20x512x512_S16x1x512x512_0_0_0_0 : S16x20x512x512.Slices ![0, 0, 0, 0] S16x1x512x512
  bcast_S_S16x1x512x512 : S_.BroadcastsInDim S16x1x512x512 (![] : Fin 0 → Fin S16x1x512x512.rank)
  slices_S16x1x512x512_S16x1x512x1_0_0_0_511 : S16x1x512x512.Slices ![0, 0, 0, 511] S16x1x512x1
  slices_S16x1x512x512_S16x1x512x511_0_0_0_0 : S16x1x512x512.Slices ![0, 0, 0, 0] S16x1x512x511
  concatenates_S16x1x512x1_S16x1x512x511_S16x1x512x512_d3 : Shape.Concatenates [S16x1x512x1, S16x1x512x511] S16x1x512x512 3
  slices_S16x1x512x512_S16x1x1x512_0_0_511_0 : S16x1x512x512.Slices ![0, 0, 511, 0] S16x1x1x512
  slices_S16x1x512x512_S16x1x511x512_0_0_0_0 : S16x1x512x512.Slices ![0, 0, 0, 0] S16x1x511x512
  concatenates_S16x1x1x512_S16x1x511x512_S16x1x512x512_d2 : Shape.Concatenates [S16x1x1x512, S16x1x511x512] S16x1x512x512 2
  slices_S16x1x512x512_S16x1x511x512_0_0_1_0 : S16x1x512x512.Slices ![0, 0, 1, 0] S16x1x511x512
  slices_S16x1x512x512_S16x1x1x512_0_0_0_0 : S16x1x512x512.Slices ![0, 0, 0, 0] S16x1x1x512
  concatenates_S16x1x511x512_S16x1x1x512_S16x1x512x512_d2 : Shape.Concatenates [S16x1x511x512, S16x1x1x512] S16x1x512x512 2
  slices_S16x20x512x512_S16x20x1x512_0_0_511_0 : S16x20x512x512.Slices ![0, 0, 511, 0] S16x20x1x512
  slices_S16x20x512x512_S16x20x511x512_0_0_0_0 : S16x20x512x512.Slices ![0, 0, 0, 0] S16x20x511x512
  concatenates_S16x20x1x512_S16x20x511x512_S16x20x512x512_d2 : Shape.Concatenates [S16x20x1x512, S16x20x511x512] S16x20x512x512 2
  slices_S16x20x512x512_S16x20x511x512_0_0_1_0 : S16x20x512x512.Slices ![0, 0, 1, 0] S16x20x511x512
  slices_S16x20x512x512_S16x20x1x512_0_0_0_0 : S16x20x512x512.Slices ![0, 0, 0, 0] S16x20x1x512
  concatenates_S16x20x511x512_S16x20x1x512_S16x20x512x512_d2 : Shape.Concatenates [S16x20x511x512, S16x20x1x512] S16x20x512x512 2
  bcast_S16x1x512x512_S16x20x512x512_0_1_2_3 : S16x1x512x512.BroadcastsInDim S16x20x512x512 (![0, 1, 2, 3] : Fin 4 → Fin S16x20x512x512.rank)
  slices_S16x1x512x512_S16x1x512x511_0_0_0_1 : S16x1x512x512.Slices ![0, 0, 0, 1] S16x1x512x511
  slices_S16x1x512x512_S16x1x512x1_0_0_0_0 : S16x1x512x512.Slices ![0, 0, 0, 0] S16x1x512x1
  concatenates_S16x1x512x511_S16x1x512x1_S16x1x512x512_d3 : Shape.Concatenates [S16x1x512x511, S16x1x512x1] S16x1x512x512 3

variable [Facts₀]

class Facts : Prop extends Facts₀ where

variable [Facts]
-- ==== Proof.Kernel.Body.lean ====
/-
  The kernel's body at one grid point, run once for each of its two control cases.

  At the first point of a batch (the second grid coordinate is 0) the body reads the batch's planes 0 and 1, computes
  the two steps' switch planes and their downward shifts and parks the four in its scratch buffers; at every point it
  then reads the four scratch planes and its pair of world planes and stores the pair after both steps. Both runs
  are stated over the body's own terms (`parked0` ... `parked3`, `pairAfter`), so nothing of the arithmetic is
  transcribed here.
-/
import proofs.«122162_j30296699306445_1_alg».proof.Proof.Gen.Kernel.Launch
import proofs.«122162_j30296699306445_1_alg».proof.Proof.Gen.Kernel.Skeleton
import proofs.«122162_j30296699306445_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four scratch buffers, whole. -/
abbrev scr0 : Memref sig .tc .vmem S1x1x512x512 .f32 := Memref.whole cc0_scratch0
abbrev scr1 : Memref sig .tc .vmem S1x1x512x512 .f32 := Memref.whole cc0_scratch1
abbrev scr2 : Memref sig .tc .vmem S1x1x512x512 .f32 := Memref.whole cc0_scratch2
abbrev scr3 : Memref sig .tc .vmem S1x1x512x512 .f32 := Memref.whole cc0_scratch3

/-- The body's branch condition: the point is the first of its batch. -/
abbrev firstOfBatch (i : grid0.Coords) : Prop :=
  Scalar.cmpi .ne (Scalar.extui (Scalar.cmpi .eq (BitVec.ofNat 32 (i 1).val) 0#32)) 0#32 = 1#1

/-- It holds at the points whose number is a multiple of 10. -/
theorem firstOfBatch_iff : ∀ t : Fin cfg0.N, firstOfBatch (grid0.coords t) ↔ t.val % 10 = 0 :=
  (by decide +kernel : ∀ t : Fin grid0.N, firstOfBatch (grid0.coords t) ↔ t.val % 10 = 0)

/-- What the first point of a batch parks in the four scratch buffers, from the batch's planes 0 and 1:
    the first step's switches, their shift by one row, the second step's switches, their shift by one row. -/
def parked0 (pair : Vec F S1x2x512x512 .f32) : Vec F S1x1x512x512 .f32 := k0_pay10 (k0_pay3 pair)
def parked1 (pair : Vec F S1x2x512x512 .f32) : Vec F S1x1x512x512 .f32 := k0_pay11 (k0_pay4 pair)
def parked2 (pair : Vec F S1x2x512x512 .f32) : Vec F S1x1x512x512 .f32 := k0_pay12 (k0_pay6 pair) (k0_pay7 pair) (k0_pay8 pair)
def parked3 (pair : Vec F S1x2x512x512 .f32) : Vec F S1x1x512x512 .f32 := k0_pay13 (k0_pay6 pair) (k0_pay7 pair) (k0_pay8 pair)

/-- What a point stores: its pair of world planes `x` after both steps, under the four scratch planes. -/
def pairAfter (s0 s1 s2 s3 : Vec F S1x1x512x512 .f32) (x : Vec F S1x2x512x512 .f32) : Vec F S1x2x512x512 .f32 :=
  k0_pay1 s2 s3 (k0_pay14 s0 s1 x) (k0_pay15 s0 s1 x) (k0_pay16 s0 s1 x) (k0_pay17 s2) (Scalar.ofBits .f32 0x3F800000#32)

/-- The zero offsets, spelt as a constant function. -/
private theorem hz4 : (![0, 0, 0, 0] : Fin 4 → Nat) = fun _ => 0 := funext fun a => by fin_cases a <;> rfl

/-- The whole block of a one-plane buffer, as the rectangle the body loads and stores through. -/
private abbrev R1 : Rect S1x1x512x512 := Rect.unit (s := S1x1x512x512) ![0, 0, 0, 0] S1x1x512x512.size inb_S1x1x512x512_S1x1x512x512_0_0_0_0

/-- The whole block of a two-plane buffer, likewise. -/
private abbrev R2 : Rect S1x2x512x512 := Rect.unit (s := S1x2x512x512) ![0, 0, 0, 0] S1x2x512x512.size inb_S1x2x512x512_S1x2x512x512_0_0_0_0

/-- A load of the whole block of a whole one-plane buffer whose contents read `X` reads `X`. -/
private theorem readAt_whole1 {m : Memref sig .tc .vmem S1x1x512x512 .f32} (h : m.IsWhole) (X : Vec F S1x1x512x512 .f32) :
    View.readAt (Elt F) m.view R1.toLoadRect (h.unread X) = X :=
  (congrArg (fun Y => View.ld Y R1) (h.read_unread X)).trans
    (View.ld_unit_zero (S := S1x1x512x512) hz4 inb_S1x1x512x512_S1x1x512x512_0_0_0_0 X)

/-- A load of the whole block of a whole two-plane buffer whose contents read `X` reads `X`. -/
private theorem readAt_whole2 {m : Memref sig .tc .vmem S1x2x512x512 .f32} (h : m.IsWhole) (X : Vec F S1x2x512x512 .f32) :
    View.readAt (Elt F) m.view R2.toLoadRect (h.unread X) = X :=
  (congrArg (fun Y => View.ld Y R2) (h.read_unread X)).trans
    (View.ld_unit_zero (S := S1x2x512x512) hz4 inb_S1x2x512x512_S1x2x512x512_0_0_0_0 X)

/-- One store of `w` through the whole block of a one-plane buffer leaves it reading `w`, whatever it held. -/
private theorem read_store_whole1 (v : View sig .tc .vmem S1x1x512x512 .f32) (f : v.ty.Contents (Elt F)) (w : Vec F S1x1x512x512 .f32) :
    v.read (Elt F) (v.writes (Elt F) f [(⟨R1, w⟩ : View.Piece (Elt F) S1x1x512x512 .f32)]) = w :=
  (View.read_writes_eq_canon v f [(⟨R1, w⟩ : View.Piece (Elt F) S1x1x512x512 .f32)] (fun y =>
      ⟨⟨R1, w⟩, List.mem_singleton_self _, View.mem_set_unit_zero (S := S1x1x512x512) hz4 inb_S1x1x512x512_S1x1x512x512_0_0_0_0 y⟩)).trans
    (View.canon_unit_zero (S := S1x1x512x512) hz4 inb_S1x1x512x512_S1x1x512x512_0_0_0_0 w)

/-- One store of `w` through the whole block of a two-plane buffer leaves it reading `w`, whatever it held. -/
private theorem read_store_whole2 (v : View sig .tc .vmem S1x2x512x512 .f32) (f : v.ty.Contents (Elt F)) (w : Vec F S1x2x512x512 .f32) :
    v.read (Elt F) (v.writes (Elt F) f [(⟨R2, w⟩ : View.Piece (Elt F) S1x2x512x512 .f32)]) = w :=
  (View.read_writes_eq_canon v f [(⟨R2, w⟩ : View.Piece (Elt F) S1x2x512x512 .f32)] (fun y =>
      ⟨⟨R2, w⟩, List.mem_singleton_self _, View.mem_set_unit_zero (S := S1x2x512x512) hz4 inb_S1x2x512x512_S1x2x512x512_0_0_0_0 y⟩)).trans
    (View.canon_unit_zero (S := S1x2x512x512) hz4 inb_S1x2x512x512_S1x2x512x512_0_0_0_0 w)

/-- The body at the first point of a batch: the input buffers keep their contents, the scratch buffers end at the
    parked planes of the batch's pair `pr`, the output buffer at the point's pair `x` after both steps. -/
theorem run_first (c : Dev nD) (i : grid0.Coords)
    (arg2 : Memref sig .tc .vmem S1x2x512x512 .f32) (harg2 : arg2.IsWhole)
    (arg3 : Memref sig .tc .vmem S1x2x512x512 .f32) (harg3 : arg3.IsWhole)
    (arg4 : Memref sig .tc .vmem S1x2x512x512 .f32) (harg4 : arg4.IsWhole)
    (hc : firstOfBatch i) (x pr : Vec F S1x2x512x512 .f32) :
      ∀ (E : Set ℕ) (K : PUnit → sProp 𝕄),
        iprop(owns (c : Thread nD τ) arg2 fullShare x ∗ owns (c : Thread nD τ) arg3 fullShare pr
            ∗ (∃ d, owns (c : Thread nD τ) arg4 fullShare d)
            ∗ (∃ d, owns (c : Thread nD τ) scr0 fullShare d) ∗ (∃ d, owns (c : Thread nD τ) scr1 fullShare d)
            ∗ (∃ d, owns (c : Thread nD τ) scr2 fullShare d) ∗ (∃ d, owns (c : Thread nD τ) scr3 fullShare d)
            ∗ (iprop(owns (c : Thread nD τ) arg2 fullShare x ∗ owns (c : Thread nD τ) arg3 fullShare pr
                ∗ owns (c : Thread nD τ) arg4 fullShare (pairAfter (parked0 pr) (parked1 pr) (parked2 pr) (parked3 pr) x)
                ∗ owns (c : Thread nD τ) scr0 fullShare (parked0 pr) ∗ owns (c : Thread nD τ) scr1 fullShare (parked1 pr)
                ∗ owns (c : Thread nD τ) scr2 fullShare (parked2 pr) ∗ owns (c : Thread nD τ) scr3 fullShare (parked3 pr)) -∗ K ⟨⟩))
          ⊢ wp frame (wpE (defs₀ (F := F)) Variants.none c none) E
              (cc0__lemming_kernel i arg2 harg2 arg3 harg3 arg4 harg4 scr0 (Memref.isWhole_whole _) scr1 (Memref.isWhole_whole _) scr2 (Memref.isWhole_whole _) scr3 (Memref.isWhole_whole _)) K := by
  intro E K
  simp only [cc0__lemming_kernel_eq_skeleton]; unfold cc0__lemming_kernel_skel
  simp only [k0_part2_eq_skeleton]; unfold k0_part2_skel
  simp only [k0_part1_eq_skeleton]; unfold k0_part1_skel
  unfold owns
  iintro ⟨⟨%f2, %hf2, H2⟩, ⟨%f3, %hf3, H3⟩, ⟨%d4, %f4, %hf4, H4⟩, ⟨%e0, %g0, %hg0, S0⟩, ⟨%e1, %g1, %hg1, S1⟩, ⟨%e2, %g2, %hg2, S2⟩, ⟨%e3, %g3, %hg3, S3⟩, Hk⟩
  obtain rfl := harg2.eq_unread hf2
  obtain rfl := harg3.eq_unread hf3
  obtain rfl := harg4.eq_unread hf4
  obtain rfl := (Memref.isWhole_whole cc0_scratch0).eq_unread hg0
  obtain rfl := (Memref.isWhole_whole cc0_scratch1).eq_unread hg1
  obtain rfl := (Memref.isWhole_whole cc0_scratch2).eq_unread hg2
  obtain rfl := (Memref.isWhole_whole cc0_scratch3).eq_unread hg3
  sl_exec (disch := first | exact hc)
  sl_step
  -- what the scratch planes read back as, after the four parking stores
  have h3 : run_first.sl.v3 c arg3 harg3 pr = parked0 pr := by
    unfold run_first.sl.v3 run_first.sl.S0_1
    refine (View.readCov_unit_zero (S := S1x1x512x512) _ hz4 inb_S1x1x512x512_S1x1x512x512_0_0_0_0 _).trans ?_
    rw [readAt_whole2 harg3 pr]; rfl
  have h4 : run_first.sl.v4 c arg3 harg3 pr = parked1 pr := by
    unfold run_first.sl.v4 run_first.sl.S1_1
    refine (View.readCov_unit_zero (S := S1x1x512x512) _ hz4 inb_S1x1x512x512_S1x1x512x512_0_0_0_0 _).trans ?_
    rw [readAt_whole2 harg3 pr]; rfl
  have h5 : run_first.sl.v5 c arg3 harg3 pr = parked2 pr := by
    unfold run_first.sl.v5 run_first.sl.S2_1
    refine (View.readCov_unit_zero (S := S1x1x512x512) _ hz4 inb_S1x1x512x512_S1x1x512x512_0_0_0_0 _).trans ?_
    rw [readAt_whole2 harg3 pr]; rfl
  have h6 : run_first.sl.v6 c arg3 harg3 pr = parked3 pr := by
    unfold run_first.sl.v6 run_first.sl.S3_1
    refine (View.readCov_unit_zero (S := S1x1x512x512) _ hz4 inb_S1x1x512x512_S1x1x512x512_0_0_0_0 _).trans ?_
    rw [readAt_whole2 harg3 pr]; rfl
  have h7 : run_first.sl.v7 c arg2 harg2 x = x := by
    unfold run_first.sl.v7
    exact readAt_whole2 harg2 x
  iapply Hk
  isplitl [H2]
  · iexists _; isplitr; · ipureintro; exact hf2
    iexact H2
  isplitl [H3]
  · iexists _; isplitr; · ipureintro; exact hf3
    iexact H3
  isplitl [H4]
  · iexists _; isplitr
    swap
    · iexact H4
    ipureintro
    refine (read_store_whole2 _ _ _).trans ?_
    rw [h3, h4, h5, h6, h7]
    rfl
  isplitl [S0]
  · iexists _; isplitr
    swap
    · iexact S0
    ipureintro
    unfold run_first.sl.S0_1
    refine (read_store_whole1 _ _ _).trans ?_
    rw [readAt_whole2 harg3 pr]; rfl
  isplitl [S1]
  · iexists _; isplitr
    swap
    · iexact S1
    ipureintro
    unfold run_first.sl.S1_1
    refine (read_store_whole1 _ _ _).trans ?_
    rw [readAt_whole2 harg3 pr]; rfl
  isplitl [S2]
  · iexists _; isplitr
    swap
    · iexact S2
    ipureintro
    unfold run_first.sl.S2_1
    refine (read_store_whole1 _ _ _).trans ?_
    rw [readAt_whole2 harg3 pr]; rfl
  iexists _; isplitr
  swap
  · iexact S3
  ipureintro
  unfold run_first.sl.S3_1
  refine (read_store_whole1 _ _ _).trans ?_
  rw [readAt_whole2 harg3 pr]; rfl

/-- The body at any other point: the scratch buffers keep the planes `s0` ... `s3` they hold, the input buffer its
    pair `x`, and the output buffer ends at that pair after both steps; the second input buffer is not touched. -/
theorem run_rest (c : Dev nD) (i : grid0.Coords)
    (arg2 : Memref sig .tc .vmem S1x2x512x512 .f32) (harg2 : arg2.IsWhole)
    (arg3 : Memref sig .tc .vmem S1x2x512x512 .f32) (harg3 : arg3.IsWhole)
    (arg4 : Memref sig .tc .vmem S1x2x512x512 .f32) (harg4 : arg4.IsWhole)
    (hc : ¬firstOfBatch i) (x : Vec F S1x2x512x512 .f32) (s0 s1 s2 s3 : Vec F S1x1x512x512 .f32) :
      ∀ (E : Set ℕ) (K : PUnit → sProp 𝕄),
        iprop(owns (c : Thread nD τ) arg2 fullShare x
            ∗ (∃ d, owns (c : Thread nD τ) arg4 fullShare d)
            ∗ owns (c : Thread nD τ) scr0 fullShare s0 ∗ owns (c : Thread nD τ) scr1 fullShare s1
            ∗ owns (c : Thread nD τ) scr2 fullShare s2 ∗ owns (c : Thread nD τ) scr3 fullShare s3
            ∗ (iprop(owns (c : Thread nD τ) arg2 fullShare x
                ∗ owns (c : Thread nD τ) arg4 fullShare (pairAfter s0 s1 s2 s3 x)
                ∗ owns (c : Thread nD τ) scr0 fullShare s0 ∗ owns (c : Thread nD τ) scr1 fullShare s1
                ∗ owns (c : Thread nD τ) scr2 fullShare s2 ∗ owns (c : Thread nD τ) scr3 fullShare s3) -∗ K ⟨⟩))
          ⊢ wp frame (wpE (defs₀ (F := F)) Variants.none c none) E
              (cc0__lemming_kernel i arg2 harg2 arg3 harg3 arg4 harg4 scr0 (Memref.isWhole_whole _) scr1 (Memref.isWhole_whole _) scr2 (Memref.isWhole_whole _) scr3 (Memref.isWhole_whole _)) K := by
  intro E K
  simp only [cc0__lemming_kernel_eq_skeleton]; unfold cc0__lemming_kernel_skel
  simp only [k0_part2_eq_skeleton]; unfold k0_part2_skel
  unfold owns
  iintro ⟨⟨%f2, %hf2, H2⟩, ⟨%d4, %f4, %hf4, H4⟩, ⟨%g0, %hg0, S0⟩, ⟨%g1, %hg1, S1⟩, ⟨%g2, %hg2, S2⟩, ⟨%g3, %hg3, S3⟩, Hk⟩
  obtain rfl := harg2.eq_unread hf2
  obtain rfl := harg4.eq_unread hf4
  obtain rfl := (Memref.isWhole_whole cc0_scratch0).eq_unread hg0
  obtain rfl := (Memref.isWhole_whole cc0_scratch1).eq_unread hg1
  obtain rfl := (Memref.isWhole_whole cc0_scratch2).eq_unread hg2
  obtain rfl := (Memref.isWhole_whole cc0_scratch3).eq_unread hg3
  sl_exec (disch := first | exact hc)
  sl_step
  iapply Hk
  isplitl [H2]
  · iexists _; isplitr; · ipureintro; exact hf2
    iexact H2
  isplitl [H4]
  · iexists _; isplitr
    swap
    · iexact H4
    ipureintro
    refine (read_store_whole2 _ _ _).trans ?_
    rw [readAt_whole1 (F := F) (Memref.isWhole_whole cc0_scratch0) s0, readAt_whole1 (F := F) (Memref.isWhole_whole cc0_scratch1) s1,
      readAt_whole1 (F := F) (Memref.isWhole_whole cc0_scratch2) s2, readAt_whole1 (F := F) (Memref.isWhole_whole cc0_scratch3) s3,
      readAt_whole2 harg2 x]
    rfl
  isplitl [S0]
  · iexists _; isplitr; · ipureintro; exact hg0
    iexact S0
  isplitl [S1]
  · iexists _; isplitr; · ipureintro; exact hg1
    iexact S1
  isplitl [S2]
  · iexists _; isplitr; · ipureintro; exact hg2
    iexact S2
  iexists _; isplitr; · ipureintro; exact hg3
  iexact S3

end Cert.Kernel.Hand

end
-- ==== Proof.LibSharedWindows.lean ====
/-
  The frame run of a one-region pipeline program whose INPUT windows may share an array (one array handed to the
  kernel through several input specifications), for a body that has no semaphore of its own and carries what it
  names from point to point in its scratch buffers.

  The library's frame runs ask that the windows' arrays be pairwise distinct; its launch theorem for shared arrays asks
  instead how the buffers behind the arrays, each whole at the full share, are dealt among the windows (`hsplit`).
  This is that launch theorem with everything a certificate would repeat supplied once: the pipeline library's
  component the whole user algebra, nothing routed around the region but the unscoped buffers that are no window's
  array (read back unchanged at the end), the scoped rest handed to the invariant at entry (`hin`) and taken back
  after the last point (`hout`). It concludes the library's `FramePost`: every window's array at what the proof data
  compute, every other unscoped buffer at its contents at the region's entry.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN for windows that may share arrays. `hw` and `hinj` are the decided layout (the arrays'
    distinctness left out); `hsplit` deals the buffers behind the arrays among the windows at the proof data's
    shares; the invariant is entered from the scoped rest (`hin`) and gives it back (`hout`). -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.Kernel.Data.lean ====
/-
  The kernel's pipeline, point by point: what every buffer holds, and the run of the whole program.

  The grid has sixteen batches of ten points. Window 0 brings in the point's pair of world planes, window 1 the
  batch's planes 0 and 1 (the same block at the ten points of a batch: it is fetched at the first of them), window 2
  takes the pair of planes the point writes. Windows 0 and 1 read ONE array, the world, so each holds half of it;
  the output array is held whole. Between the points of a batch the four scratch buffers hold the planes the
  batch's first point parked there, computed from the batch's planes 0 and 1; before the first point of a batch
  they hold anything. So after every point the output buffer holds `pairAfter` of the parked planes of window 1's
  block and window 0's block, which is what this module states as the proof data and proves of the body.
-/
import proofs.«122162_j30296699306445_1_alg».proof.Proof.Kernel.Body
import proofs.«122162_j30296699306445_1_alg».proof.Proof.LibSharedWindows
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point's pair of world planes (window 0's block), -/
abbrev xblk (c : Dev nD) (t : Fin cfg0.N) : Vec F S1x2x512x512 .f32 := iblk m c 0 t
/-- the batch's planes 0 and 1 (window 1's block), -/
abbrev pblk (c : Dev nD) (t : Fin cfg0.N) : Vec F S1x2x512x512 .f32 := iblk m c 1 t
/-- and what the point stores: its pair after both steps under the planes parked from the batch's pair. -/
def outAt (c : Dev nD) (t : Fin cfg0.N) : Vec F S1x2x512x512 .f32 :=
  pairAfter (parked0 (pblk m c t)) (parked1 (pblk m c t)) (parked2 (pblk m c t)) (parked3 (pblk m c t)) (xblk m c t)

/-- Window 1's block index does not move inside a batch: at a point that is not the first of its batch it is the
    index of the point before. -/
theorem index1_prev : ∀ t t' : Fin cfg0.N, t'.val + 1 = t.val → t.val % 10 ≠ 0 → (cfg0.win 1).index t' = (cfg0.win 1).index t :=
  (by decide +kernel : ∀ t t' : Fin grid0.N, t'.val + 1 = t.val → t.val % 10 ≠ 0 → win0_1.index t' = win0_1.index t)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- Each window's current staging memref at point `t`, as the pipeline passes it to the body, and its wholeness. -/
abbrev ms0 (t : Fin cfg0.N) : Memref sig .tc .vmem S1x2x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2x512x512 .f32 := win0_2.stage (cfg0.slots t 2)
abbrev hs2 (t : Fin cfg0.N) : (ms2 t).IsWhole := hstage0_2 ((cfg0.slots t 2).cast nbuf0_2)

/-! ## The invariant between points -/

/-- The four scratch buffers at the planes parked from window 1's block at point `t`. -/
def parkedAt (c : Dev nD) (t : Fin cfg0.N) : sProp 𝕄 :=
  iprop(owns (c : Thread nD τ) scr0 fullShare (parked0 (pblk m c t)) ∗ owns (c : Thread nD τ) scr1 fullShare (parked1 (pblk m c t))
    ∗ owns (c : Thread nD τ) scr2 fullShare (parked2 (pblk m c t)) ∗ owns (c : Thread nD τ) scr3 fullShare (parked3 (pblk m c t)))

/-- The four scratch buffers at anything. -/
def scratchAny (c : Dev nD) : sProp 𝕄 :=
  iprop((∃ d, owns (c : Thread nD τ) scr0 fullShare d) ∗ (∃ d, owns (c : Thread nD τ) scr1 fullShare d)
    ∗ (∃ d, owns (c : Thread nD τ) scr2 fullShare d) ∗ (∃ d, owns (c : Thread nD τ) scr3 fullShare d))

/-- The scoped buffers that are no staging buffer are the four scratch buffers. -/
theorem scopedRest_eq_scratchAny (c : Dev nD) :
    (Pipeline.scopedRest (Ix := Unit) (Name := ℕ) (U := UR sig nD τ) (Lvl := ℕ) (Val := Elt F) spec0 c : sProp 𝕄) = scratchAny (F := F) c := by
  unfold scratchAny; rw [scopedRest0_eq]; simp only [scr0, scr1, scr2, scr3, owns_whole]; rfl

/-- Before point `n`: at the first point of a batch the scratch buffers hold anything, at any other what the
    batch's first point parked, stated of window 1's block at the point before. -/
def PhiS (c : Dev nD) : (n : ℕ) → n ≤ cfg0.N → sProp 𝕄
  | 0, _ => scratchAny (F := F) c
  | n + 1, hn => if (n + 1) % 10 = 0 then scratchAny (F := F) c else parkedAt m c ⟨n, hn⟩

theorem PhiS_first (c : Dev nD) (n : ℕ) (h : n ≤ cfg0.N) (hz : n % 10 = 0) : PhiS m c n h = scratchAny (F := F) c := by
  cases n with
  | zero => rfl
  | succ k => exact if_pos hz

theorem PhiS_rest (c : Dev nD) (n : ℕ) (h : n ≤ cfg0.N) (hz : n % 10 ≠ 0) :
    PhiS m c n h = parkedAt m c ⟨n - 1, by omega⟩ := by
  cases n with
  | zero => exact absurd rfl hz
  | succ k => exact if_neg hz

/-- Whatever the point, the invariant yields the scratch buffers at something. -/
theorem PhiS_any (c : Dev nD) (n : ℕ) (h : n ≤ cfg0.N) : PhiS m c n h ⊢ scratchAny (F := F) c := by
  by_cases hz : n % 10 = 0
  · rw [PhiS_first m c n h hz]
  · rw [PhiS_rest m c n h hz]; unfold parkedAt scratchAny
    iintro ⟨H0, H1, H2, H3⟩
    isplitl [H0]; · iexists _; iexact H0
    isplitl [H1]; · iexists _; iexact H1
    isplitl [H2]; · iexists _; iexact H2
    iexists _; iexact H3

/-! ## The proof data -/

/-- The proof data of the one pipeline on core `c`: the arrays as the region finds them; after the body at point
    `t` each input's buffer at its block and the output's at `outAt`; the invariant `PhiS`; the world array's
    two halves to the two input windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- Window 1's block at a point that is not the first of its batch is its block at the point before. -/
theorem pblk_prev (c : Dev nD) (t : Fin cfg0.N) (hz : t.val % 10 ≠ 0) :
    pblk m c ⟨t.val - 1, by omega⟩ = pblk m c t := by
  have h := (dats m 0 c).fetched_congr 1 (index1_prev t ⟨t.val - 1, by omega⟩ (by show t.val - 1 + 1 = t.val; omega) hz) rfl
    (fun _ => Classical.arbitrary _)
  unfold Dat.fetched Dat.blockOf at h
  rw [A_eq] at h
  exact h

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).leavesExact 0 t = owns (c : Thread nD τ) (ms0 t) fullShare ((dats m 0 c).after 0 t) from by
      unfold Dat.leavesExact; rw [live0 t], after0,
    show (dats m 0 c).leavesExact 1 t = owns (c : Thread nD τ) (ms1 t) fullShare ((dats m 0 c).after 1 t) from by
      unfold Dat.leavesExact; rw [live1 t], after1,
    show (dats m 0 c).leavesExact 2 t = owns (c : Thread nD τ) (ms2 t) fullShare ((dats m 0 c).after 2 t) from by
      unfold Dat.leavesExact; rw [live2 t], after2]
  rw [show (dats m 0 c).Φ t.castSucc = PhiS m c t.val (Nat.le_of_lt t.isLt) from rfl,
    show (dats m 0 c).Φ t.succ = PhiS m c (t.val + 1) t.isLt from rfl,
    show (dats m 0 c).owesAt () t.succ = (dats m 0 c).owesAt () t.castSucc from rfl]
  by_cases h0 : t.val % 10 = 0
  · -- the first point of a batch: the scratch buffers hold anything and end at the parked planes
    have hs : ¬(t.val + 1) % 10 = 0 := by omega
    rw [PhiS_first m c t.val _ h0, show PhiS m c (t.val + 1) t.isLt = parkedAt m c t from if_neg hs]
    unfold scratchAny parkedAt outAt
    iintro ⟨⟨HS0, HS1, HS2, HS3⟩, Ho, ⟨%d0, H0⟩, ⟨%d1, H1⟩, ⟨%d2, H2⟩⟩
    iapply ((run_first c (grid0.coords t) (ms0 t) (hs0 t) (ms1 t) (hs1 t) (ms2 t) (hs2 t) ((firstOfBatch_iff t).mpr h0)
      (xblk m c t) (pblk m c t)) Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    iintro ⟨H0, H1, H2, HS0, HS1, HS2, HS3⟩
    isplitl [HS0 HS1 HS2 HS3]
    · isplitl [HS0]; · iexact HS0
      isplitl [HS1]; · iexact HS1
      isplitl [HS2]; · iexact HS2
      iexact HS3
    isplitl [Ho]; · iexact Ho
    isplitl [H0]; · iexact H0
    isplitl [H1]; · iexact H1
    iexact H2
  · -- any other point: the scratch buffers hold the planes parked from the batch's pair, and keep them
    rw [PhiS_rest m c t.val _ h0]
    unfold parkedAt outAt
    rw [pblk_prev m c t h0]
    iintro ⟨⟨HS0, HS1, HS2, HS3⟩, Ho, ⟨%d0, H0⟩, ⟨%d1, H1⟩, ⟨%d2, H2⟩⟩
    iapply ((run_rest c (grid0.coords t) (ms0 t) (hs0 t) (ms1 t) (hs1 t) (ms2 t) (hs2 t) (fun h => h0 ((firstOfBatch_iff t).mp h))
      (xblk m c t) (parked0 (pblk m c t)) (parked1 (pblk m c t)) (parked2 (pblk m c t)) (parked3 (pblk m c t))) Set.univ _)
    isplitl [H0]; · iexact H0
    isplitl [H2]; · iexists _; iexact H2
    isplitl [HS0]; · iexact HS0
    isplitl [HS1]; · iexact HS1
    isplitl [HS2]; · iexact HS2
    isplitl [HS3]; · iexact HS3
    iintro ⟨H0, H2, HS0, HS1, HS2, HS3⟩
    isplitl [HS0 HS1 HS2 HS3]
    · by_cases hs : (t.val + 1) % 10 = 0
      · rw [show PhiS m c (t.val + 1) t.isLt = scratchAny (F := F) c from if_pos hs]
        unfold scratchAny
        isplitl [HS0]; · iexists _; iexact HS0
        isplitl [HS1]; · iexists _; iexact HS1
        isplitl [HS2]; · iexists _; iexact HS2
        iexists _; iexact HS3
      · rw [show PhiS m c (t.val + 1) t.isLt = parkedAt m c t from if_neg hs]
        unfold parkedAt
        isplitl [HS0]; · iexact HS0
        isplitl [HS1]; · iexact HS1
        isplitl [HS2]; · iexact HS2
        iexact HS3
    isplitl [Ho]; · iexact Ho
    isplitl [H0]; · iexact H0
    isplitl [H1]; · iexact H1
    iexact H2

theorem body_obligation (c : Dev nD) : BodyObligation (dats (F := F) m 0 c) (defs₀ (F := F)) Variants.none () Set.univ := fun t => by
  rw [bigSep_W0, bigSep_W0]
  exact sound_body m c t

/-! ## The world array dealt to its two windows -/

/-- The buffers behind the windows' arrays are the world and the output. -/
theorem arrRefs_eq : Finset.univ.image (Pipeline.arrRef spec0) = {main_arg0, main_v0} := by decide

/-- The world held whole is its two halves, one for each input window; the output array is held whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrRefs_eq, BI.bigSep_insert (by decide), BI.bigSep_singleton, bigSep_W0]
  show iprop(((c : Thread nD τ).loc main_arg0 ↦{fullShare} V m c main_arg0) ∗ ((c : Thread nD τ).loc main_v0 ↦{fullShare} V m c main_v0)) ⊢ _
  have hsh : ((c : Thread nD τ).loc main_arg0 ↦{fullShare} V m c main_arg0 : sProp 𝕄)
      ⊢ iprop(((c : Thread nD τ).loc main_arg0 ↦{fullShare.left} V m c main_arg0) ∗ ((c : Thread nD τ).loc main_arg0 ↦{fullShare.right} V m c main_arg0)) :=
    (pointsTo_share (PosShare.mem_left_op_right fullShare)).1
  iintro ⟨HA, HO⟩
  ihave ⟨HL, HR⟩ := hsh $$ [HA]
  · iexact HA
  isplitl [HL]
  · iapply (show ((c : Thread nD τ).loc main_arg0 ↦[Finset.univ]{fullShare.left} V m c main_arg0 : sProp 𝕄)
        ⊢ (cfg0.win 0).arr.view.loc (c : Thread nD τ) ↦[(cfg0.win 0).arr.view.set]{(dats m 0 c).share 0} (dats m 0 c).arrAt 0 0 from by
      rw [(arr_whole0 0).set_eq_univ]; exact .rfl)
    iexact HL
  isplitl [HR]
  · iapply (show ((c : Thread nD τ).loc main_arg0 ↦[Finset.univ]{fullShare.right} V m c main_arg0 : sProp 𝕄)
        ⊢ (cfg0.win 1).arr.view.loc (c : Thread nD τ) ↦[(cfg0.win 1).arr.view.set]{(dats m 0 c).share 1} (dats m 0 c).arrAt 1 0 from by
      rw [(arr_whole0 1).set_eq_univ]; exact .rfl)
    iexact HR
  iapply (show ((c : Thread nD τ).loc main_v0 ↦[Finset.univ]{fullShare} V m c main_v0 : sProp 𝕄)
      ⊢ (cfg0.win 2).arr.view.loc (c : Thread nD τ) ↦[(cfg0.win 2).arr.view.set]{(dats m 0 c).share 2} (dats m 0 c).arrAt 2 0 from by
    rw [(arr_whole0 2).set_eq_univ]; exact .rfl)
  iexact HO

/-! ## The run -/

theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest_eq_scratchAny]; exact .rfl

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [scopedRest_eq_scratchAny]; exact PhiS_any m c (Fin.last cfg0.N).val (Nat.le_of_lt_succ (Fin.last cfg0.N).isLt)

set_option backward.isDefEq.respectTransparency.types false in
/-- From any memory with zero counters every weakly fair execution of the program terminates, with every window's
    array at what the write-backs leave and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- The frame: the program runs to the end, faults nowhere, and leaves its four argument arrays as they were: the
    world is only read (an input window's array is never written back), the other three are no window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 0).trans (((dats m 0 c).arrAt_in 0 rfl _).trans (A_eq m c 0)),
      (h c).2 main_arg1 (Pipeline.mem_restRefs_of main_arg1 rfl (by decide)),
      (h c).2 main_arg2 (Pipeline.mem_restRefs_of main_arg2 rfl (by decide)),
      (h c).2 main_arg3 (Pipeline.mem_restRefs_of main_arg3 rfl (by decide))⟩) (run_main m ρ)

end Cert.Kernel.Hand

end
-- ==== Proof.KernelIdeal.Body.lean ====
/-
  The kernel's body at one grid point, run once for each of its two control cases.

  At the first point of a batch (the second grid coordinate is 0) the body reads the batch's planes 0 and 1, computes
  the two steps' switch planes and their downward shifts and parks the four in its scratch buffers; at every point it
  then reads the four scratch planes and its pair of world planes and stores the pair after both steps. Both runs
  are stated over the body's own terms (`parked0` ... `parked3`, `pairAfter`), so nothing of the arithmetic is
  transcribed here.
-/
import proofs.«122162_j30296699306445_1_alg».proof.Proof.Gen.KernelIdeal.Launch
import proofs.«122162_j30296699306445_1_alg».proof.Proof.Gen.KernelIdeal.Skeleton
import proofs.«122162_j30296699306445_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four scratch buffers, whole. -/
abbrev scr0 : Memref sig .tc .vmem S1x1x512x512 .f32 := Memref.whole cc0_scratch0
abbrev scr1 : Memref sig .tc .vmem S1x1x512x512 .f32 := Memref.whole cc0_scratch1
abbrev scr2 : Memref sig .tc .vmem S1x1x512x512 .f32 := Memref.whole cc0_scratch2
abbrev scr3 : Memref sig .tc .vmem S1x1x512x512 .f32 := Memref.whole cc0_scratch3

/-- The body's branch condition: the point is the first of its batch. -/
abbrev firstOfBatch (i : grid0.Coords) : Prop :=
  Scalar.cmpi .ne (Scalar.extui (Scalar.cmpi .eq (BitVec.ofNat 32 (i 1).val) 0#32)) 0#32 = 1#1

/-- It holds at the points whose number is a multiple of 10. -/
theorem firstOfBatch_iff : ∀ t : Fin cfg0.N, firstOfBatch (grid0.coords t) ↔ t.val % 10 = 0 :=
  (by decide +kernel : ∀ t : Fin grid0.N, firstOfBatch (grid0.coords t) ↔ t.val % 10 = 0)

/-- What the first point of a batch parks in the four scratch buffers, from the batch's planes 0 and 1:
    the first step's switches, their shift by one row, the second step's switches, their shift by one row. -/
def parked0 (pair : Vec F S1x2x512x512 .f32) : Vec F S1x1x512x512 .f32 := k0_pay10 (k0_pay3 pair)
def parked1 (pair : Vec F S1x2x512x512 .f32) : Vec F S1x1x512x512 .f32 := k0_pay11 (k0_pay4 pair)
def parked2 (pair : Vec F S1x2x512x512 .f32) : Vec F S1x1x512x512 .f32 := k0_pay12 (k0_pay6 pair) (k0_pay7 pair) (k0_pay8 pair)
def parked3 (pair : Vec F S1x2x512x512 .f32) : Vec F S1x1x512x512 .f32 := k0_pay13 (k0_pay6 pair) (k0_pay7 pair) (k0_pay8 pair)

/-- What a point stores: its pair of world planes `x` after both steps, under the four scratch planes. -/
def pairAfter (s0 s1 s2 s3 : Vec F S1x1x512x512 .f32) (x : Vec F S1x2x512x512 .f32) : Vec F S1x2x512x512 .f32 :=
  k0_pay1 s2 s3 (k0_pay14 s0 s1 x) (k0_pay15 s0 s1 x) (k0_pay16 s0 s1 x) (k0_pay17 s2) (Scalar.ofBits .f32 0x3F800000#32)

/-- The zero offsets, spelt as a constant function. -/
private theorem hz4 : (![0, 0, 0, 0] : Fin 4 → Nat) = fun _ => 0 := funext fun a => by fin_cases a <;> rfl

/-- The whole block of a one-plane buffer, as the rectangle the body loads and stores through. -/
private abbrev R1 : Rect S1x1x512x512 := Rect.unit (s := S1x1x512x512) ![0, 0, 0, 0] S1x1x512x512.size inb_S1x1x512x512_S1x1x512x512_0_0_0_0

/-- The whole block of a two-plane buffer, likewise. -/
private abbrev R2 : Rect S1x2x512x512 := Rect.unit (s := S1x2x512x512) ![0, 0, 0, 0] S1x2x512x512.size inb_S1x2x512x512_S1x2x512x512_0_0_0_0

/-- A load of the whole block of a whole one-plane buffer whose contents read `X` reads `X`. -/
private theorem readAt_whole1 {m : Memref sig .tc .vmem S1x1x512x512 .f32} (h : m.IsWhole) (X : Vec F S1x1x512x512 .f32) :
    View.readAt (Elt F) m.view R1.toLoadRect (h.unread X) = X :=
  (congrArg (fun Y => View.ld Y R1) (h.read_unread X)).trans
    (View.ld_unit_zero (S := S1x1x512x512) hz4 inb_S1x1x512x512_S1x1x512x512_0_0_0_0 X)

/-- A load of the whole block of a whole two-plane buffer whose contents read `X` reads `X`. -/
private theorem readAt_whole2 {m : Memref sig .tc .vmem S1x2x512x512 .f32} (h : m.IsWhole) (X : Vec F S1x2x512x512 .f32) :
    View.readAt (Elt F) m.view R2.toLoadRect (h.unread X) = X :=
  (congrArg (fun Y => View.ld Y R2) (h.read_unread X)).trans
    (View.ld_unit_zero (S := S1x2x512x512) hz4 inb_S1x2x512x512_S1x2x512x512_0_0_0_0 X)

/-- One store of `w` through the whole block of a one-plane buffer leaves it reading `w`, whatever it held. -/
private theorem read_store_whole1 (v : View sig .tc .vmem S1x1x512x512 .f32) (f : v.ty.Contents (Elt F)) (w : Vec F S1x1x512x512 .f32) :
    v.read (Elt F) (v.writes (Elt F) f [(⟨R1, w⟩ : View.Piece (Elt F) S1x1x512x512 .f32)]) = w :=
  (View.read_writes_eq_canon v f [(⟨R1, w⟩ : View.Piece (Elt F) S1x1x512x512 .f32)] (fun y =>
      ⟨⟨R1, w⟩, List.mem_singleton_self _, View.mem_set_unit_zero (S := S1x1x512x512) hz4 inb_S1x1x512x512_S1x1x512x512_0_0_0_0 y⟩)).trans
    (View.canon_unit_zero (S := S1x1x512x512) hz4 inb_S1x1x512x512_S1x1x512x512_0_0_0_0 w)

/-- One store of `w` through the whole block of a two-plane buffer leaves it reading `w`, whatever it held. -/
private theorem read_store_whole2 (v : View sig .tc .vmem S1x2x512x512 .f32) (f : v.ty.Contents (Elt F)) (w : Vec F S1x2x512x512 .f32) :
    v.read (Elt F) (v.writes (Elt F) f [(⟨R2, w⟩ : View.Piece (Elt F) S1x2x512x512 .f32)]) = w :=
  (View.read_writes_eq_canon v f [(⟨R2, w⟩ : View.Piece (Elt F) S1x2x512x512 .f32)] (fun y =>
      ⟨⟨R2, w⟩, List.mem_singleton_self _, View.mem_set_unit_zero (S := S1x2x512x512) hz4 inb_S1x2x512x512_S1x2x512x512_0_0_0_0 y⟩)).trans
    (View.canon_unit_zero (S := S1x2x512x512) hz4 inb_S1x2x512x512_S1x2x512x512_0_0_0_0 w)

/-- The body at the first point of a batch: the input buffers keep their contents, the scratch buffers end at the
    parked planes of the batch's pair `pr`, the output buffer at the point's pair `x` after both steps. -/
theorem run_first (c : Dev nD) (i : grid0.Coords)
    (arg2 : Memref sig .tc .vmem S1x2x512x512 .f32) (harg2 : arg2.IsWhole)
    (arg3 : Memref sig .tc .vmem S1x2x512x512 .f32) (harg3 : arg3.IsWhole)
    (arg4 : Memref sig .tc .vmem S1x2x512x512 .f32) (harg4 : arg4.IsWhole)
    (hc : firstOfBatch i) (x pr : Vec F S1x2x512x512 .f32) :
      ∀ (E : Set ℕ) (K : PUnit → sProp 𝕄),
        iprop(owns (c : Thread nD τ) arg2 fullShare x ∗ owns (c : Thread nD τ) arg3 fullShare pr
            ∗ (∃ d, owns (c : Thread nD τ) arg4 fullShare d)
            ∗ (∃ d, owns (c : Thread nD τ) scr0 fullShare d) ∗ (∃ d, owns (c : Thread nD τ) scr1 fullShare d)
            ∗ (∃ d, owns (c : Thread nD τ) scr2 fullShare d) ∗ (∃ d, owns (c : Thread nD τ) scr3 fullShare d)
            ∗ (iprop(owns (c : Thread nD τ) arg2 fullShare x ∗ owns (c : Thread nD τ) arg3 fullShare pr
                ∗ owns (c : Thread nD τ) arg4 fullShare (pairAfter (parked0 pr) (parked1 pr) (parked2 pr) (parked3 pr) x)
                ∗ owns (c : Thread nD τ) scr0 fullShare (parked0 pr) ∗ owns (c : Thread nD τ) scr1 fullShare (parked1 pr)
                ∗ owns (c : Thread nD τ) scr2 fullShare (parked2 pr) ∗ owns (c : Thread nD τ) scr3 fullShare (parked3 pr)) -∗ K ⟨⟩))
          ⊢ wp frame (wpE (defs₀ (F := F)) Variants.none c none) E
              (cc0__lemming_kernel i arg2 harg2 arg3 harg3 arg4 harg4 scr0 (Memref.isWhole_whole _) scr1 (Memref.isWhole_whole _) scr2 (Memref.isWhole_whole _) scr3 (Memref.isWhole_whole _)) K := by
  intro E K
  simp only [cc0__lemming_kernel_eq_skeleton]; unfold cc0__lemming_kernel_skel
  simp only [k0_part2_eq_skeleton]; unfold k0_part2_skel
  simp only [k0_part1_eq_skeleton]; unfold k0_part1_skel
  unfold owns
  iintro ⟨⟨%f2, %hf2, H2⟩, ⟨%f3, %hf3, H3⟩, ⟨%d4, %f4, %hf4, H4⟩, ⟨%e0, %g0, %hg0, S0⟩, ⟨%e1, %g1, %hg1, S1⟩, ⟨%e2, %g2, %hg2, S2⟩, ⟨%e3, %g3, %hg3, S3⟩, Hk⟩
  obtain rfl := harg2.eq_unread hf2
  obtain rfl := harg3.eq_unread hf3
  obtain rfl := harg4.eq_unread hf4
  obtain rfl := (Memref.isWhole_whole cc0_scratch0).eq_unread hg0
  obtain rfl := (Memref.isWhole_whole cc0_scratch1).eq_unread hg1
  obtain rfl := (Memref.isWhole_whole cc0_scratch2).eq_unread hg2
  obtain rfl := (Memref.isWhole_whole cc0_scratch3).eq_unread hg3
  sl_exec (disch := first | exact hc)
  sl_step
  -- what the scratch planes read back as, after the four parking stores
  have h3 : run_first.sl.v3 c arg3 harg3 pr = parked0 pr := by
    unfold run_first.sl.v3 run_first.sl.S0_1
    refine (View.readCov_unit_zero (S := S1x1x512x512) _ hz4 inb_S1x1x512x512_S1x1x512x512_0_0_0_0 _).trans ?_
    rw [readAt_whole2 harg3 pr]; rfl
  have h4 : run_first.sl.v4 c arg3 harg3 pr = parked1 pr := by
    unfold run_first.sl.v4 run_first.sl.S1_1
    refine (View.readCov_unit_zero (S := S1x1x512x512) _ hz4 inb_S1x1x512x512_S1x1x512x512_0_0_0_0 _).trans ?_
    rw [readAt_whole2 harg3 pr]; rfl
  have h5 : run_first.sl.v5 c arg3 harg3 pr = parked2 pr := by
    unfold run_first.sl.v5 run_first.sl.S2_1
    refine (View.readCov_unit_zero (S := S1x1x512x512) _ hz4 inb_S1x1x512x512_S1x1x512x512_0_0_0_0 _).trans ?_
    rw [readAt_whole2 harg3 pr]; rfl
  have h6 : run_first.sl.v6 c arg3 harg3 pr = parked3 pr := by
    unfold run_first.sl.v6 run_first.sl.S3_1
    refine (View.readCov_unit_zero (S := S1x1x512x512) _ hz4 inb_S1x1x512x512_S1x1x512x512_0_0_0_0 _).trans ?_
    rw [readAt_whole2 harg3 pr]; rfl
  have h7 : run_first.sl.v7 c arg2 harg2 x = x := by
    unfold run_first.sl.v7
    exact readAt_whole2 harg2 x
  iapply Hk
  isplitl [H2]
  · iexists _; isplitr; · ipureintro; exact hf2
    iexact H2
  isplitl [H3]
  · iexists _; isplitr; · ipureintro; exact hf3
    iexact H3
  isplitl [H4]
  · iexists _; isplitr
    swap
    · iexact H4
    ipureintro
    refine (read_store_whole2 _ _ _).trans ?_
    rw [h3, h4, h5, h6, h7]
    rfl
  isplitl [S0]
  · iexists _; isplitr
    swap
    · iexact S0
    ipureintro
    unfold run_first.sl.S0_1
    refine (read_store_whole1 _ _ _).trans ?_
    rw [readAt_whole2 harg3 pr]; rfl
  isplitl [S1]
  · iexists _; isplitr
    swap
    · iexact S1
    ipureintro
    unfold run_first.sl.S1_1
    refine (read_store_whole1 _ _ _).trans ?_
    rw [readAt_whole2 harg3 pr]; rfl
  isplitl [S2]
  · iexists _; isplitr
    swap
    · iexact S2
    ipureintro
    unfold run_first.sl.S2_1
    refine (read_store_whole1 _ _ _).trans ?_
    rw [readAt_whole2 harg3 pr]; rfl
  iexists _; isplitr
  swap
  · iexact S3
  ipureintro
  unfold run_first.sl.S3_1
  refine (read_store_whole1 _ _ _).trans ?_
  rw [readAt_whole2 harg3 pr]; rfl

/-- The body at any other point: the scratch buffers keep the planes `s0` ... `s3` they hold, the input buffer its
    pair `x`, and the output buffer ends at that pair after both steps; the second input buffer is not touched. -/
theorem run_rest (c : Dev nD) (i : grid0.Coords)
    (arg2 : Memref sig .tc .vmem S1x2x512x512 .f32) (harg2 : arg2.IsWhole)
    (arg3 : Memref sig .tc .vmem S1x2x512x512 .f32) (harg3 : arg3.IsWhole)
    (arg4 : Memref sig .tc .vmem S1x2x512x512 .f32) (harg4 : arg4.IsWhole)
    (hc : ¬firstOfBatch i) (x : Vec F S1x2x512x512 .f32) (s0 s1 s2 s3 : Vec F S1x1x512x512 .f32) :
      ∀ (E : Set ℕ) (K : PUnit → sProp 𝕄),
        iprop(owns (c : Thread nD τ) arg2 fullShare x
            ∗ (∃ d, owns (c : Thread nD τ) arg4 fullShare d)
            ∗ owns (c : Thread nD τ) scr0 fullShare s0 ∗ owns (c : Thread nD τ) scr1 fullShare s1
            ∗ owns (c : Thread nD τ) scr2 fullShare s2 ∗ owns (c : Thread nD τ) scr3 fullShare s3
            ∗ (iprop(owns (c : Thread nD τ) arg2 fullShare x
                ∗ owns (c : Thread nD τ) arg4 fullShare (pairAfter s0 s1 s2 s3 x)
                ∗ owns (c : Thread nD τ) scr0 fullShare s0 ∗ owns (c : Thread nD τ) scr1 fullShare s1
                ∗ owns (c : Thread nD τ) scr2 fullShare s2 ∗ owns (c : Thread nD τ) scr3 fullShare s3) -∗ K ⟨⟩))
          ⊢ wp frame (wpE (defs₀ (F := F)) Variants.none c none) E
              (cc0__lemming_kernel i arg2 harg2 arg3 harg3 arg4 harg4 scr0 (Memref.isWhole_whole _) scr1 (Memref.isWhole_whole _) scr2 (Memref.isWhole_whole _) scr3 (Memref.isWhole_whole _)) K := by
  intro E K
  simp only [cc0__lemming_kernel_eq_skeleton]; unfold cc0__lemming_kernel_skel
  simp only [k0_part2_eq_skeleton]; unfold k0_part2_skel
  unfold owns
  iintro ⟨⟨%f2, %hf2, H2⟩, ⟨%d4, %f4, %hf4, H4⟩, ⟨%g0, %hg0, S0⟩, ⟨%g1, %hg1, S1⟩, ⟨%g2, %hg2, S2⟩, ⟨%g3, %hg3, S3⟩, Hk⟩
  obtain rfl := harg2.eq_unread hf2
  obtain rfl := harg4.eq_unread hf4
  obtain rfl := (Memref.isWhole_whole cc0_scratch0).eq_unread hg0
  obtain rfl := (Memref.isWhole_whole cc0_scratch1).eq_unread hg1
  obtain rfl := (Memref.isWhole_whole cc0_scratch2).eq_unread hg2
  obtain rfl := (Memref.isWhole_whole cc0_scratch3).eq_unread hg3
  sl_exec (disch := first | exact hc)
  sl_step
  iapply Hk
  isplitl [H2]
  · iexists _; isplitr; · ipureintro; exact hf2
    iexact H2
  isplitl [H4]
  · iexists _; isplitr
    swap
    · iexact H4
    ipureintro
    refine (read_store_whole2 _ _ _).trans ?_
    rw [readAt_whole1 (F := F) (Memref.isWhole_whole cc0_scratch0) s0, readAt_whole1 (F := F) (Memref.isWhole_whole cc0_scratch1) s1,
      readAt_whole1 (F := F) (Memref.isWhole_whole cc0_scratch2) s2, readAt_whole1 (F := F) (Memref.isWhole_whole cc0_scratch3) s3,
      readAt_whole2 harg2 x]
    rfl
  isplitl [S0]
  · iexists _; isplitr; · ipureintro; exact hg0
    iexact S0
  isplitl [S1]
  · iexists _; isplitr; · ipureintro; exact hg1
    iexact S1
  isplitl [S2]
  · iexists _; isplitr; · ipureintro; exact hg2
    iexact S2
  iexists _; isplitr; · ipureintro; exact hg3
  iexact S3

end Cert.KernelIdeal.Hand

end
-- ==== Proof.KernelIdeal.Data.lean ====
/-
  The kernel's pipeline, point by point: what every buffer holds, and the run of the whole program.

  The grid has sixteen batches of ten points. Window 0 brings in the point's pair of world planes, window 1 the
  batch's planes 0 and 1 (the same block at the ten points of a batch: it is fetched at the first of them), window 2
  takes the pair of planes the point writes. Windows 0 and 1 read ONE array, the world, so each holds half of it;
  the output array is held whole. Between the points of a batch the four scratch buffers hold the planes the
  batch's first point parked there, computed from the batch's planes 0 and 1; before the first point of a batch
  they hold anything. So after every point the output buffer holds `pairAfter` of the parked planes of window 1's
  block and window 0's block, which is what this module states as the proof data and proves of the body.
-/
import proofs.«122162_j30296699306445_1_alg».proof.Proof.KernelIdeal.Body
import proofs.«122162_j30296699306445_1_alg».proof.Proof.LibSharedWindows
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point's pair of world planes (window 0's block), -/
abbrev xblk (c : Dev nD) (t : Fin cfg0.N) : Vec F S1x2x512x512 .f32 := iblk m c 0 t
/-- the batch's planes 0 and 1 (window 1's block), -/
abbrev pblk (c : Dev nD) (t : Fin cfg0.N) : Vec F S1x2x512x512 .f32 := iblk m c 1 t
/-- and what the point stores: its pair after both steps under the planes parked from the batch's pair. -/
def outAt (c : Dev nD) (t : Fin cfg0.N) : Vec F S1x2x512x512 .f32 :=
  pairAfter (parked0 (pblk m c t)) (parked1 (pblk m c t)) (parked2 (pblk m c t)) (parked3 (pblk m c t)) (xblk m c t)

/-- Window 1's block index does not move inside a batch: at a point that is not the first of its batch it is the
    index of the point before. -/
theorem index1_prev : ∀ t t' : Fin cfg0.N, t'.val + 1 = t.val → t.val % 10 ≠ 0 → (cfg0.win 1).index t' = (cfg0.win 1).index t :=
  (by decide +kernel : ∀ t t' : Fin grid0.N, t'.val + 1 = t.val → t.val % 10 ≠ 0 → win0_1.index t' = win0_1.index t)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- Each window's current staging memref at point `t`, as the pipeline passes it to the body, and its wholeness. -/
abbrev ms0 (t : Fin cfg0.N) : Memref sig .tc .vmem S1x2x512x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2x512x512 .f32 := win0_2.stage (cfg0.slots t 2)
abbrev hs2 (t : Fin cfg0.N) : (ms2 t).IsWhole := hstage0_2 ((cfg0.slots t 2).cast nbuf0_2)

/-! ## The invariant between points -/

/-- The four scratch buffers at the planes parked from window 1's block at point `t`. -/
def parkedAt (c : Dev nD) (t : Fin cfg0.N) : sProp 𝕄 :=
  iprop(owns (c : Thread nD τ) scr0 fullShare (parked0 (pblk m c t)) ∗ owns (c : Thread nD τ) scr1 fullShare (parked1 (pblk m c t))
    ∗ owns (c : Thread nD τ) scr2 fullShare (parked2 (pblk m c t)) ∗ owns (c : Thread nD τ) scr3 fullShare (parked3 (pblk m c t)))

/-- The four scratch buffers at anything. -/
def scratchAny (c : Dev nD) : sProp 𝕄 :=
  iprop((∃ d, owns (c : Thread nD τ) scr0 fullShare d) ∗ (∃ d, owns (c : Thread nD τ) scr1 fullShare d)
    ∗ (∃ d, owns (c : Thread nD τ) scr2 fullShare d) ∗ (∃ d, owns (c : Thread nD τ) scr3 fullShare d))

/-- The scoped buffers that are no staging buffer are the four scratch buffers. -/
theorem scopedRest_eq_scratchAny (c : Dev nD) :
    (Pipeline.scopedRest (Ix := Unit) (Name := ℕ) (U := UR sig nD τ) (Lvl := ℕ) (Val := Elt F) spec0 c : sProp 𝕄) = scratchAny (F := F) c := by
  unfold scratchAny; rw [scopedRest0_eq]; simp only [scr0, scr1, scr2, scr3, owns_whole]; rfl

/-- Before point `n`: at the first point of a batch the scratch buffers hold anything, at any other what the
    batch's first point parked, stated of window 1's block at the point before. -/
def PhiS (c : Dev nD) : (n : ℕ) → n ≤ cfg0.N → sProp 𝕄
  | 0, _ => scratchAny (F := F) c
  | n + 1, hn => if (n + 1) % 10 = 0 then scratchAny (F := F) c else parkedAt m c ⟨n, hn⟩

theorem PhiS_first (c : Dev nD) (n : ℕ) (h : n ≤ cfg0.N) (hz : n % 10 = 0) : PhiS m c n h = scratchAny (F := F) c := by
  cases n with
  | zero => rfl
  | succ k => exact if_pos hz

theorem PhiS_rest (c : Dev nD) (n : ℕ) (h : n ≤ cfg0.N) (hz : n % 10 ≠ 0) :
    PhiS m c n h = parkedAt m c ⟨n - 1, by omega⟩ := by
  cases n with
  | zero => exact absurd rfl hz
  | succ k => exact if_neg hz

/-- Whatever the point, the invariant yields the scratch buffers at something. -/
theorem PhiS_any (c : Dev nD) (n : ℕ) (h : n ≤ cfg0.N) : PhiS m c n h ⊢ scratchAny (F := F) c := by
  by_cases hz : n % 10 = 0
  · rw [PhiS_first m c n h hz]
  · rw [PhiS_rest m c n h hz]; unfold parkedAt scratchAny
    iintro ⟨H0, H1, H2, H3⟩
    isplitl [H0]; · iexists _; iexact H0
    isplitl [H1]; · iexists _; iexact H1
    isplitl [H2]; · iexists _; iexact H2
    iexists _; iexact H3

/-! ## The proof data -/

/-- The proof data of the one pipeline on core `c`: the arrays as the region finds them; after the body at point
    `t` each input's buffer at its block and the output's at `outAt`; the invariant `PhiS`; the world array's
    two halves to the two input windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- Window 1's block at a point that is not the first of its batch is its block at the point before. -/
theorem pblk_prev (c : Dev nD) (t : Fin cfg0.N) (hz : t.val % 10 ≠ 0) :
    pblk m c ⟨t.val - 1, by omega⟩ = pblk m c t := by
  have h := (dats m 0 c).fetched_congr 1 (index1_prev t ⟨t.val - 1, by omega⟩ (by show t.val - 1 + 1 = t.val; omega) hz) rfl
    (fun _ => Classical.arbitrary _)
  unfold Dat.fetched Dat.blockOf at h
  rw [A_eq] at h
  exact h

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).leavesExact 0 t = owns (c : Thread nD τ) (ms0 t) fullShare ((dats m 0 c).after 0 t) from by
      unfold Dat.leavesExact; rw [live0 t], after0,
    show (dats m 0 c).leavesExact 1 t = owns (c : Thread nD τ) (ms1 t) fullShare ((dats m 0 c).after 1 t) from by
      unfold Dat.leavesExact; rw [live1 t], after1,
    show (dats m 0 c).leavesExact 2 t = owns (c : Thread nD τ) (ms2 t) fullShare ((dats m 0 c).after 2 t) from by
      unfold Dat.leavesExact; rw [live2 t], after2]
  rw [show (dats m 0 c).Φ t.castSucc = PhiS m c t.val (Nat.le_of_lt t.isLt) from rfl,
    show (dats m 0 c).Φ t.succ = PhiS m c (t.val + 1) t.isLt from rfl,
    show (dats m 0 c).owesAt () t.succ = (dats m 0 c).owesAt () t.castSucc from rfl]
  by_cases h0 : t.val % 10 = 0
  · -- the first point of a batch: the scratch buffers hold anything and end at the parked planes
    have hs : ¬(t.val + 1) % 10 = 0 := by omega
    rw [PhiS_first m c t.val _ h0, show PhiS m c (t.val + 1) t.isLt = parkedAt m c t from if_neg hs]
    unfold scratchAny parkedAt outAt
    iintro ⟨⟨HS0, HS1, HS2, HS3⟩, Ho, ⟨%d0, H0⟩, ⟨%d1, H1⟩, ⟨%d2, H2⟩⟩
    iapply ((run_first c (grid0.coords t) (ms0 t) (hs0 t) (ms1 t) (hs1 t) (ms2 t) (hs2 t) ((firstOfBatch_iff t).mpr h0)
      (xblk m c t) (pblk m c t)) Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    iintro ⟨H0, H1, H2, HS0, HS1, HS2, HS3⟩
    isplitl [HS0 HS1 HS2 HS3]
    · isplitl [HS0]; · iexact HS0
      isplitl [HS1]; · iexact HS1
      isplitl [HS2]; · iexact HS2
      iexact HS3
    isplitl [Ho]; · iexact Ho
    isplitl [H0]; · iexact H0
    isplitl [H1]; · iexact H1
    iexact H2
  · -- any other point: the scratch buffers hold the planes parked from the batch's pair, and keep them
    rw [PhiS_rest m c t.val _ h0]
    unfold parkedAt outAt
    rw [pblk_prev m c t h0]
    iintro ⟨⟨HS0, HS1, HS2, HS3⟩, Ho, ⟨%d0, H0⟩, ⟨%d1, H1⟩, ⟨%d2, H2⟩⟩
    iapply ((run_rest c (grid0.coords t) (ms0 t) (hs0 t) (ms1 t) (hs1 t) (ms2 t) (hs2 t) (fun h => h0 ((firstOfBatch_iff t).mp h))
      (xblk m c t) (parked0 (pblk m c t)) (parked1 (pblk m c t)) (parked2 (pblk m c t)) (parked3 (pblk m c t))) Set.univ _)
    isplitl [H0]; · iexact H0
    isplitl [H2]; · iexists _; iexact H2
    isplitl [HS0]; · iexact HS0
    isplitl [HS1]; · iexact HS1
    isplitl [HS2]; · iexact HS2
    isplitl [HS3]; · iexact HS3
    iintro ⟨H0, H2, HS0, HS1, HS2, HS3⟩
    isplitl [HS0 HS1 HS2 HS3]
    · by_cases hs : (t.val + 1) % 10 = 0
      · rw [show PhiS m c (t.val + 1) t.isLt = scratchAny (F := F) c from if_pos hs]
        unfold scratchAny
        isplitl [HS0]; · iexists _; iexact HS0
        isplitl [HS1]; · iexists _; iexact HS1
        isplitl [HS2]; · iexists _; iexact HS2
        iexists _; iexact HS3
      · rw [show PhiS m c (t.val + 1) t.isLt = parkedAt m c t from if_neg hs]
        unfold parkedAt
        isplitl [HS0]; · iexact HS0
        isplitl [HS1]; · iexact HS1
        isplitl [HS2]; · iexact HS2
        iexact HS3
    isplitl [Ho]; · iexact Ho
    isplitl [H0]; · iexact H0
    isplitl [H1]; · iexact H1
    iexact H2

theorem body_obligation (c : Dev nD) : BodyObligation (dats (F := F) m 0 c) (defs₀ (F := F)) Variants.none () Set.univ := fun t => by
  rw [bigSep_W0, bigSep_W0]
  exact sound_body m c t

/-! ## The world array dealt to its two windows -/

/-- The buffers behind the windows' arrays are the world and the output. -/
theorem arrRefs_eq : Finset.univ.image (Pipeline.arrRef spec0) = {main_arg0, main_v0} := by decide

/-- The world held whole is its two halves, one for each input window; the output array is held whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrRefs_eq, BI.bigSep_insert (by decide), BI.bigSep_singleton, bigSep_W0]
  show iprop(((c : Thread nD τ).loc main_arg0 ↦{fullShare} V m c main_arg0) ∗ ((c : Thread nD τ).loc main_v0 ↦{fullShare} V m c main_v0)) ⊢ _
  have hsh : ((c : Thread nD τ).loc main_arg0 ↦{fullShare} V m c main_arg0 : sProp 𝕄)
      ⊢ iprop(((c : Thread nD τ).loc main_arg0 ↦{fullShare.left} V m c main_arg0) ∗ ((c : Thread nD τ).loc main_arg0 ↦{fullShare.right} V m c main_arg0)) :=
    (pointsTo_share (PosShare.mem_left_op_right fullShare)).1
  iintro ⟨HA, HO⟩
  ihave ⟨HL, HR⟩ := hsh $$ [HA]
  · iexact HA
  isplitl [HL]
  · iapply (show ((c : Thread nD τ).loc main_arg0 ↦[Finset.univ]{fullShare.left} V m c main_arg0 : sProp 𝕄)
        ⊢ (cfg0.win 0).arr.view.loc (c : Thread nD τ) ↦[(cfg0.win 0).arr.view.set]{(dats m 0 c).share 0} (dats m 0 c).arrAt 0 0 from by
      rw [(arr_whole0 0).set_eq_univ]; exact .rfl)
    iexact HL
  isplitl [HR]
  · iapply (show ((c : Thread nD τ).loc main_arg0 ↦[Finset.univ]{fullShare.right} V m c main_arg0 : sProp 𝕄)
        ⊢ (cfg0.win 1).arr.view.loc (c : Thread nD τ) ↦[(cfg0.win 1).arr.view.set]{(dats m 0 c).share 1} (dats m 0 c).arrAt 1 0 from by
      rw [(arr_whole0 1).set_eq_univ]; exact .rfl)
    iexact HR
  iapply (show ((c : Thread nD τ).loc main_v0 ↦[Finset.univ]{fullShare} V m c main_v0 : sProp 𝕄)
      ⊢ (cfg0.win 2).arr.view.loc (c : Thread nD τ) ↦[(cfg0.win 2).arr.view.set]{(dats m 0 c).share 2} (dats m 0 c).arrAt 2 0 from by
    rw [(arr_whole0 2).set_eq_univ]; exact .rfl)
  iexact HO

/-! ## The run -/

theorem hin (c : Dev nD) :
    (Pipeline.scopedRest (Ix := Unit) (Name := ℕ) (U := UR sig nD τ) (Lvl := ℕ) (Val := Elt F) spec0 c : sProp 𝕄) ⊢ (dats m 0 c).Φ 0 := by
  rw [scopedRest_eq_scratchAny]; exact .rfl

theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [scopedRest_eq_scratchAny]; exact PhiS_any m c (Fin.last cfg0.N).val (Nat.le_of_lt_succ (Fin.last cfg0.N).isLt)

set_option backward.isDefEq.respectTransparency.types false in
/-- From any memory with zero counters every weakly fair execution of the program terminates, with every window's
    array at what the write-backs leave and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- The frame: the program runs to the end, faults nowhere, and leaves its four argument arrays as they were: the
    world is only read (an input window's array is never written back), the other three are no window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 0).trans (((dats m 0 c).arrAt_in 0 rfl _).trans (A_eq m c 0)),
      (h c).2 main_arg1 (Pipeline.mem_restRefs_of main_arg1 rfl (by decide)),
      (h c).2 main_arg2 (Pipeline.mem_restRefs_of main_arg2 rfl (by decide)),
      (h c).2 main_arg3 (Pipeline.mem_restRefs_of main_arg3 rfl (by decide))⟩) (run_main m ρ)

end Cert.KernelIdeal.Hand

end
-- ==== Proof.Field.lean ====
/-
  The cellular update both programs compute, as one function of the world array, index by index.

  A world is sixteen independent batches of twenty 512 x 512 planes. Plane 0 holds element ids and plane 1
  densities. One "fall" step, with a forward direction along the width:
    * a cell SWITCHES UP (`switch`) when its id is 3, the density of its forward neighbour is at least its own,
      the density of the cell above it (one row up, cyclically) is below its own, and so is the density of the
      forward neighbour of the cell above it; the switch is the number 1 or 0;
    * every plane is then blended (`blend`): with a the switch at the cell and b the switch of the cell below it,
      the cell becomes (1 - a)(1 - b) x + a (x above) + b (x below).
  The whole update is two such steps, the first looking forward to the cyclic predecessor along the width, the
  second to the cyclic successor; the second step's switches are computed from the first step's planes 0 and 1.
  Everything is stated over the float operations of any instance, so no law of real arithmetic is used anywhere:
  the kernel and the reference apply the same operations to the same entries in the same order.
-/
import Idealize.ShloMosaic.PureOps
import Idealize.ShloMosaic.Lib.ValueIdx

noncomputable section

namespace Cert.Lemming

open Idealize.ShloMosaic Idealize.ShloMosaic.ValueIdx

variable {F : FTy → Type} [FloatOps F]

/-- The world's shape, a pair of planes' shape and one plane's shape, as index shapes. -/
abbrev WorldS : Shape := ⟨4, ![16, 20, 512, 512]⟩
abbrev PairS : Shape := ⟨4, ![1, 2, 512, 512]⟩
abbrev PlaneS : Shape := ⟨4, ![1, 1, 512, 512]⟩

/-- One 512 x 512 plane, by row and column. -/
abbrev Plane (F : FTy → Type) : Type := Fin 512 → Fin 512 → F .f32

/-- The cyclic predecessor of a row or column (the neighbour a roll by +1 brings in). -/
def up (h : Fin 512) : Fin 512 := ⟨(h.val + 511) % 512, Nat.mod_lt _ (by decide)⟩
/-- The cyclic successor (the neighbour a roll by -1 brings in). -/
def dn (h : Fin 512) : Fin 512 := ⟨(h.val + 1) % 512, Nat.mod_lt _ (by decide)⟩

theorem up_val (h : Fin 512) : (up h).val = (h.val + 511) % 512 := rfl
theorem dn_val (h : Fin 512) : (dn h).val = (h.val + 1) % 512 := rfl

/-- The float constants the update uses: 3 (the element id), 0 and 1. -/
abbrev three : F .f32 := FloatOps.ofBits .f32 0x40400000#32
abbrev zero : F .f32 := FloatOps.ofBits .f32 0x00000000#32
abbrev one : F .f32 := FloatOps.ofBits .f32 0x3F800000#32

/-- The four conditions of a switch at one cell, conjoined, from the cell's id `e`, its density `d`, and the
    densities of its forward neighbour `df`, of the cell above `da` and of that cell's forward neighbour `dfa`. -/
def switchBit (e d df da dfa : F .f32) : BitVec 1 :=
  IntOp.andi (IntOp.andi (IntOp.andi (FloatOps.cmpf .oeq e three) (FloatOps.cmpf .oge (FloatOps.subf df d) zero))
    (FloatOps.cmpf .olt (FloatOps.subf da d) zero)) (FloatOps.cmpf .olt (FloatOps.subf dfa d) zero)

/-- The switch as a float: the bit widened to a word and converted. -/
def switchVal (e d df da dfa : F .f32) : F .f32 := FloatOps.sitofp .f32 ((switchBit e d df da dfa).setWidth 32)

/-- The plane of switches of a step whose forward neighbour along the width is `fw`, from the id plane `e` and
    the density plane `d`. -/
def switch (fw : Fin 512 → Fin 512) (e d : Plane F) : Plane F := fun h w =>
  switchVal (e h w) (d h w) (d h (fw w)) (d (up h) w) (d (up h) (fw w))

/-- One cell blended from itself, the cell above and the cell below under the switches `a` (its own) and `b`
    (that of the cell below). -/
def blendVal (a b x xa xb : F .f32) : F .f32 :=
  FloatOps.addf (FloatOps.addf (FloatOps.mulf (FloatOps.mulf (FloatOps.subf one a) (FloatOps.subf one b)) x) (FloatOps.mulf a xa))
    (FloatOps.mulf b xb)

/-- A plane blended under the switch plane `a`. -/
def blend (a : Plane F) (x : Plane F) : Plane F := fun h w =>
  blendVal (a h w) (a (dn h) w) (x h w) (x (up h) w) (x (dn h) w)

/-- The first step's switches, from planes 0 and 1 of a batch. -/
def firstSwitch (M : Fin 2 → Plane F) : Plane F := switch up (M 0) (M 1)
/-- Planes 0 and 1 after the first step. -/
def midPair (M : Fin 2 → Plane F) : Fin 2 → Plane F := fun k => blend (firstSwitch M) (M k)
/-- The second step's switches. -/
def secondSwitch (M : Fin 2 → Plane F) : Plane F := switch dn (midPair M 0) (midPair M 1)
/-- Any plane `X` of the batch after both steps. -/
def twoSteps (M : Fin 2 → Plane F) (X : Plane F) : Plane F := blend (secondSwitch M) (blend (firstSwitch M) X)

/-- Plane `c` of batch `b` of a world array. -/
def planeOf (A : WorldS.Idx → F .f32) (b : Fin 16) (c : Fin 20) : Plane F := fun h w => A (ix4 b c h w)
/-- Planes 0 and 1 of batch `b`. -/
def pairOf (A : WorldS.Idx → F .f32) (b : Fin 16) : Fin 2 → Plane F := fun k => planeOf A b ⟨k.val, by omega⟩

/-- The world after both steps: what both programs compute. -/
def evolve (A : WorldS.Idx → F .f32) : WorldS.Idx → F .f32 := fun j =>
  twoSteps (pairOf A (j 0)) (planeOf A (j 0) (j 1)) (j 2) (j 3)

theorem evolve_apply (A : WorldS.Idx → F .f32) (b : Fin 16) (c : Fin 20) (h w : Fin 512) :
    evolve A (ix4 b c h w) = twoSteps (pairOf A b) (planeOf A b c) h w := rfl

/-- One step on the whole world array, with forward neighbour `fw` along the width. -/
def stepOnce (fw : Fin 512 → Fin 512) (A : WorldS.Idx → F .f32) : WorldS.Idx → F .f32 := fun j =>
  blend (switch fw (pairOf A (j 0) 0) (pairOf A (j 0) 1)) (planeOf A (j 0) (j 1)) (j 2) (j 3)

theorem stepOnce_apply (fw : Fin 512 → Fin 512) (A : WorldS.Idx → F .f32) (b : Fin 16) (c : Fin 20) (h w : Fin 512) :
    stepOnce fw A (ix4 b c h w) = blend (switch fw (pairOf A b 0) (pairOf A b 1)) (planeOf A b c) h w := rfl

/-- A plane of the world after one step is that plane blended under the step's switches. -/
theorem planeOf_stepOnce (fw : Fin 512 → Fin 512) (A : WorldS.Idx → F .f32) (b : Fin 16) (c : Fin 20) :
    planeOf (stepOnce fw A) b c = blend (switch fw (pairOf A b 0) (pairOf A b 1)) (planeOf A b c) := rfl

/-- The whole update is the second step after the first. -/
theorem evolve_eq_steps (A : WorldS.Idx → F .f32) : evolve A = stepOnce dn (stepOnce up A) := by
  funext j
  obtain ⟨b, c, h, w, rfl⟩ : ∃ (b : Fin 16) (c : Fin 20) (h w : Fin 512), j = ix4 b c h w := ⟨j 0, j 1, j 2, j 3, eq_ix4 j⟩
  rw [evolve_apply, stepOnce_apply, planeOf_stepOnce]
  rfl

end Cert.Lemming

end
-- ==== Proof.KernelIdeal.BlockValue.lean ====
/-
  The kernel body's block values, read one cell at a time.

  A pair block holds two 512 x 512 planes. A roll by 1 along an axis brings in the cyclic predecessor on that
  axis, a roll by 511 the cyclic successor; a slice of a pair block at second offset 0 or 1 is its plane 0 or 1;
  a plane broadcast to a pair block is read on both planes. Under these readings the four parked planes are the
  two steps' switch planes and their shifts by one row, and the stored pair is the point's pair blended twice.
  Every float operation is applied by both sides to the same entries in the same order, so nothing of
  arithmetic is used.
-/
import proofs.«122162_j30296699306445_1_alg».proof.Proof.KernelIdeal.Body
import proofs.«122162_j30296699306445_1_alg».proof.Proof.Field
import Idealize.ShloMosaic.Lib.KernelVsHost
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lemming Idealize.ShloMosaic.ValueIdx

variable {F : FTy → Type} [FloatOps F]

/-! ## Rolls, slices and broadcasts of the two literal shapes, read at a cell -/

section Layout
variable {α : Type}

/-- A pair block rolled by 1 along the rows reads the row above (the cyclic predecessor). -/
theorem rollRow1_pair (x : S1x2x512x512.Idx → α) (k : Fin 2) (h w : Fin 512) :
    dynamicRotate 2 1#32 none x rotates_S1x2x512x512_d2 (ix4 (0 : Fin 1) k h w) = x (ix4 (0 : Fin 1) k (up h) w) :=
  dynamicRotate_apply (2 : Fin 4) 1#32 x rotates_S1x2x512x512_d2 _ _ (by
    intro b
    match b with
    | ⟨0, _⟩ => rfl
    | ⟨1, _⟩ => rfl
    | ⟨2, _⟩ => show (h.val + 511) % 512 = (h.val + 512 - 1) % 512; omega
    | ⟨3, _⟩ => rfl)

/-- A pair block rolled by 511 along the rows reads the row below (the cyclic successor). -/
theorem rollRow511_pair (x : S1x2x512x512.Idx → α) (k : Fin 2) (h w : Fin 512) :
    dynamicRotate 2 511#32 none x rotates_S1x2x512x512_d2 (ix4 (0 : Fin 1) k h w) = x (ix4 (0 : Fin 1) k (dn h) w) :=
  dynamicRotate_apply (2 : Fin 4) 511#32 x rotates_S1x2x512x512_d2 _ _ (by
    intro b
    match b with
    | ⟨0, _⟩ => rfl
    | ⟨1, _⟩ => rfl
    | ⟨2, _⟩ => show (h.val + 1) % 512 = (h.val + 512 - 511) % 512; omega
    | ⟨3, _⟩ => rfl)

/-- A plane rolled by 1 along the rows reads the row above. -/
theorem rollRow1_plane (x : S1x1x512x512.Idx → α) (h w : Fin 512) :
    dynamicRotate 2 1#32 none x rotates_S1x1x512x512_d2 (ix4 (0 : Fin 1) (0 : Fin 1) h w) = x (ix4 (0 : Fin 1) (0 : Fin 1) (up h) w) :=
  dynamicRotate_apply (2 : Fin 4) 1#32 x rotates_S1x1x512x512_d2 _ _ (by
    intro b
    match b with
    | ⟨0, _⟩ => rfl
    | ⟨1, _⟩ => rfl
    | ⟨2, _⟩ => show (h.val + 511) % 512 = (h.val + 512 - 1) % 512; omega
    | ⟨3, _⟩ => rfl)

/-- A plane rolled by 511 along the rows reads the row below. -/
theorem rollRow511_plane (x : S1x1x512x512.Idx → α) (h w : Fin 512) :
    dynamicRotate 2 511#32 none x rotates_S1x1x512x512_d2 (ix4 (0 : Fin 1) (0 : Fin 1) h w) = x (ix4 (0 : Fin 1) (0 : Fin 1) (dn h) w) :=
  dynamicRotate_apply (2 : Fin 4) 511#32 x rotates_S1x1x512x512_d2 _ _ (by
    intro b
    match b with
    | ⟨0, _⟩ => rfl
    | ⟨1, _⟩ => rfl
    | ⟨2, _⟩ => show (h.val + 1) % 512 = (h.val + 512 - 511) % 512; omega
    | ⟨3, _⟩ => rfl)

/-- A plane rolled by 1 along the width reads the cyclic predecessor column. -/
theorem rollCol1_plane (x : S1x1x512x512.Idx → α) (h w : Fin 512) :
    dynamicRotate 3 1#32 none x rotates_S1x1x512x512_d3 (ix4 (0 : Fin 1) (0 : Fin 1) h w) = x (ix4 (0 : Fin 1) (0 : Fin 1) h (up w)) :=
  dynamicRotate_apply (3 : Fin 4) 1#32 x rotates_S1x1x512x512_d3 _ _ (by
    intro b
    match b with
    | ⟨0, _⟩ => rfl
    | ⟨1, _⟩ => rfl
    | ⟨2, _⟩ => rfl
    | ⟨3, _⟩ => show (w.val + 511) % 512 = (w.val + 512 - 1) % 512; omega)

/-- A plane rolled by 511 along the width reads the cyclic successor column. -/
theorem rollCol511_plane (x : S1x1x512x512.Idx → α) (h w : Fin 512) :
    dynamicRotate 3 511#32 none x rotates_S1x1x512x512_d3 (ix4 (0 : Fin 1) (0 : Fin 1) h w) = x (ix4 (0 : Fin 1) (0 : Fin 1) h (dn w)) :=
  dynamicRotate_apply (3 : Fin 4) 511#32 x rotates_S1x1x512x512_d3 _ _ (by
    intro b
    match b with
    | ⟨0, _⟩ => rfl
    | ⟨1, _⟩ => rfl
    | ⟨2, _⟩ => rfl
    | ⟨3, _⟩ => show (w.val + 1) % 512 = (w.val + 512 - 511) % 512; omega)

/-- The slice of a pair block at second offset 0 is its plane 0. -/
theorem slice0_apply (x : S1x2x512x512.Idx → α) (h w : Fin 512) :
    extractStridedSlice S1x1x512x512 ![0, 0, 0, 0] x slices_S1x2x512x512_o0_0_0_0_S1x1x512x512 (ix4 (0 : Fin 1) (0 : Fin 1) h w)
      = x (ix4 (0 : Fin 1) (0 : Fin 2) h w) :=
  extractStridedSlice_apply _ x _ _ _ (by
    intro a
    match a with
    | ⟨0, _⟩ => rfl
    | ⟨1, _⟩ => rfl
    | ⟨2, _⟩ => exact (Nat.zero_add _).symm
    | ⟨3, _⟩ => exact (Nat.zero_add _).symm)

/-- The slice of a pair block at second offset 1 is its plane 1. -/
theorem slice1_apply (x : S1x2x512x512.Idx → α) (h w : Fin 512) :
    extractStridedSlice S1x1x512x512 ![0, 1, 0, 0] x slices_S1x2x512x512_o0_1_0_0_S1x1x512x512 (ix4 (0 : Fin 1) (0 : Fin 1) h w)
      = x (ix4 (0 : Fin 1) (1 : Fin 2) h w) :=
  extractStridedSlice_apply _ x _ _ _ (by
    intro a
    match a with
    | ⟨0, _⟩ => rfl
    | ⟨1, _⟩ => rfl
    | ⟨2, _⟩ => exact (Nat.zero_add _).symm
    | ⟨3, _⟩ => exact (Nat.zero_add _).symm)

/-- A plane broadcast to a pair block is read on either plane of the pair. -/
theorem bcast_apply (x : S1x1x512x512.Idx → α) (k : Fin 2) (h w : Fin 512) :
    broadcastTo S1x2x512x512 x broadcasts_S1x1x512x512_S1x2x512x512 (ix4 (0 : Fin 1) k h w) = x (ix4 (0 : Fin 1) (0 : Fin 1) h w) :=
  broadcastTo_apply x _ _ _ (by
    intro a
    match a with
    | ⟨0, _⟩ => rfl
    | ⟨1, _⟩ => rfl
    | ⟨2, _⟩ => rfl
    | ⟨3, _⟩ => rfl)

end Layout

/-! ## The payloads at a cell -/

/-- Planes 0 and 1 of a pair block. -/
def planesOf (pr : Vec F S1x2x512x512 .f32) : Fin 2 → Plane F := fun k h w => pr (ix4 (0 : Fin 1) k h w)

/-- The pair rolled by 1 along the rows: each plane at the row above. -/
theorem k0_pay2_apply (pr : Vec F S1x2x512x512 .f32) (k : Fin 2) (h w : Fin 512) :
    k0_pay2 pr (ix4 (0 : Fin 1) k h w) = pr (ix4 (0 : Fin 1) k (up h) w) :=
  rollRow1_pair pr k h w

/-- The first switch plane: the cell's id is plane 0, its density plane 1; the forward density is plane 1 at the
    predecessor column, the density above plane 1 at the row above, and the forward density above plane 1 at both. -/
theorem k0_pay3_apply (pr : Vec F S1x2x512x512 .f32) (h w : Fin 512) :
    k0_pay3 pr (ix4 (0 : Fin 1) (0 : Fin 1) h w) = firstSwitch (planesOf pr) h w := by
  unfold k0_pay3
  simp only [sitofp_apply, extui_apply, cmpf_apply, broadcast_apply, andi, subf, rollCol1_plane, slice0_apply, slice1_apply,
    k0_pay2_apply]
  rw [rollCol1_plane, rollCol1_plane, slice1_apply, slice1_apply, k0_pay2_apply]
  rfl

/-- The first switch plane shifted by one row: the switch of the cell below. -/
theorem k0_pay4_apply (pr : Vec F S1x2x512x512 .f32) (h w : Fin 512) :
    k0_pay4 pr (ix4 (0 : Fin 1) (0 : Fin 1) h w) = firstSwitch (planesOf pr) (dn h) w :=
  (rollRow511_plane (k0_pay3 pr) h w).trans (k0_pay3_apply pr (dn h) w)

/-- A pair blended under the planes `s0` and `s1`, at a cell: the cell, the cell above and the cell below of the
    same plane of the pair, weighted by `s0` and `s1` at the cell. -/
theorem k0_pay14_apply (s0 s1 : Vec F S1x1x512x512 .f32) (x : Vec F S1x2x512x512 .f32) (k : Fin 2) (h w : Fin 512) :
    k0_pay14 s0 s1 x (ix4 (0 : Fin 1) k h w)
      = blendVal (s0 (ix4 (0 : Fin 1) (0 : Fin 1) h w)) (s1 (ix4 (0 : Fin 1) (0 : Fin 1) h w)) (x (ix4 (0 : Fin 1) k h w))
          (x (ix4 (0 : Fin 1) k (up h) w)) (x (ix4 (0 : Fin 1) k (dn h) w)) := by
  unfold k0_pay14
  simp only [addf, mulf, subf, broadcast_apply]
  rw [bcast_apply, bcast_apply, bcast_apply, rollRow1_pair, rollRow511_pair]
  rfl

/-- When `s0` is a switch plane `a` and `s1` its shift by one row, that is the specification's blend under `a`. -/
theorem k0_pay14_eq_blend (s0 s1 : Vec F S1x1x512x512 .f32) (x : Vec F S1x2x512x512 .f32) (a : Plane F)
    (h0 : ∀ h w : Fin 512, s0 (ix4 (0 : Fin 1) (0 : Fin 1) h w) = a h w)
    (h1 : ∀ h w : Fin 512, s1 (ix4 (0 : Fin 1) (0 : Fin 1) h w) = a (dn h) w) (k : Fin 2) (h w : Fin 512) :
    k0_pay14 s0 s1 x (ix4 (0 : Fin 1) k h w) = blend a (fun h w => x (ix4 (0 : Fin 1) k h w)) h w := by
  rw [k0_pay14_apply, h0, h1]
  rfl

/-- The pair after the first step is computed by the same blend, under the first switch plane and its shift. -/
theorem k0_pay5_eq (pr : Vec F S1x2x512x512 .f32) : k0_pay5 pr = k0_pay14 (k0_pay3 pr) (k0_pay4 pr) pr := rfl

/-- The pair after the first step, at a cell. -/
theorem k0_pay5_apply (pr : Vec F S1x2x512x512 .f32) (k : Fin 2) (h w : Fin 512) :
    k0_pay5 pr (ix4 (0 : Fin 1) k h w) = midPair (planesOf pr) k h w := by
  rw [k0_pay5_eq]
  exact k0_pay14_eq_blend (k0_pay3 pr) (k0_pay4 pr) pr (firstSwitch (planesOf pr)) (k0_pay3_apply pr) (k0_pay4_apply pr) k h w

/-- The density plane after the first step. -/
theorem k0_pay6_apply (pr : Vec F S1x2x512x512 .f32) (h w : Fin 512) :
    k0_pay6 pr (ix4 (0 : Fin 1) (0 : Fin 1) h w) = midPair (planesOf pr) 1 h w :=
  (slice1_apply (k0_pay5 pr) h w).trans (k0_pay5_apply pr 1 h w)

/-- The id condition after the first step. -/
theorem k0_pay7_apply (pr : Vec F S1x2x512x512 .f32) (h w : Fin 512) :
    k0_pay7 pr (ix4 (0 : Fin 1) (0 : Fin 1) h w) = FloatOps.cmpf .oeq (midPair (planesOf pr) 0 h w) three := by
  unfold k0_pay7
  simp only [cmpf_apply, broadcast_apply]
  rw [slice0_apply, k0_pay5_apply]

/-- The density above, after the first step. -/
theorem k0_pay8_apply (pr : Vec F S1x2x512x512 .f32) (h w : Fin 512) :
    k0_pay8 pr (ix4 (0 : Fin 1) (0 : Fin 1) h w) = midPair (planesOf pr) 1 (up h) w :=
  (rollRow1_plane (k0_pay6 pr) h w).trans (k0_pay6_apply pr (up h) w)

/-- The second switch plane: the same four conditions on the pair after the first step, looking forward to the
    successor column. -/
theorem k0_pay9_apply (pr : Vec F S1x2x512x512 .f32) (h w : Fin 512) :
    k0_pay9 (k0_pay6 pr) (k0_pay7 pr) (k0_pay8 pr) (ix4 (0 : Fin 1) (0 : Fin 1) h w) = secondSwitch (planesOf pr) h w := by
  unfold k0_pay9
  simp only [sitofp_apply, extui_apply, cmpf_apply, broadcast_apply, andi, subf]
  rw [rollCol511_plane, rollCol511_plane, k0_pay7_apply, k0_pay6_apply, k0_pay6_apply, k0_pay8_apply, k0_pay8_apply]
  rfl

/-! ## The parked planes and the stored pair -/

theorem parked0_apply (pr : Vec F S1x2x512x512 .f32) (h w : Fin 512) :
    parked0 pr (ix4 (0 : Fin 1) (0 : Fin 1) h w) = firstSwitch (planesOf pr) h w :=
  (congrFun (shapeCast_self (k0_pay3 pr) shapeCasts_S1x1x512x512_S1x1x512x512) _).trans (k0_pay3_apply pr h w)

theorem parked1_apply (pr : Vec F S1x2x512x512 .f32) (h w : Fin 512) :
    parked1 pr (ix4 (0 : Fin 1) (0 : Fin 1) h w) = firstSwitch (planesOf pr) (dn h) w :=
  (congrFun (shapeCast_self (k0_pay4 pr) shapeCasts_S1x1x512x512_S1x1x512x512) _).trans (k0_pay4_apply pr h w)

theorem parked2_apply (pr : Vec F S1x2x512x512 .f32) (h w : Fin 512) :
    parked2 pr (ix4 (0 : Fin 1) (0 : Fin 1) h w) = secondSwitch (planesOf pr) h w :=
  (congrFun (shapeCast_self (k0_pay9 (k0_pay6 pr) (k0_pay7 pr) (k0_pay8 pr)) shapeCasts_S1x1x512x512_S1x1x512x512) _).trans
    (k0_pay9_apply pr h w)

theorem parked3_apply (pr : Vec F S1x2x512x512 .f32) (h w : Fin 512) :
    parked3 pr (ix4 (0 : Fin 1) (0 : Fin 1) h w) = secondSwitch (planesOf pr) (dn h) w :=
  (congrFun (shapeCast_self (dynamicRotate 2 511#32 none (k0_pay9 (k0_pay6 pr) (k0_pay7 pr) (k0_pay8 pr)) rotates_S1x1x512x512_d2)
      shapeCasts_S1x1x512x512_S1x1x512x512) _).trans
    ((rollRow511_plane (k0_pay9 (k0_pay6 pr) (k0_pay7 pr) (k0_pay8 pr)) h w).trans (k0_pay9_apply pr (dn h) w))

/-- What a point stores is its pair blended under the first two scratch planes, blended again under the last two. -/
theorem pairAfter_eq (s0 s1 s2 s3 : Vec F S1x1x512x512 .f32) (x : Vec F S1x2x512x512 .f32) :
    pairAfter s0 s1 s2 s3 x = k0_pay14 s2 s3 (k0_pay14 s0 s1 x) := rfl

/-- The stored pair for arbitrary scratch planes, at a cell. -/
theorem pairAfter_apply (s0 s1 s2 s3 : Vec F S1x1x512x512 .f32) (x : Vec F S1x2x512x512 .f32) (k : Fin 2) (h w : Fin 512) :
    pairAfter s0 s1 s2 s3 x (ix4 (0 : Fin 1) k h w)
      = blendVal (s2 (ix4 (0 : Fin 1) (0 : Fin 1) h w)) (s3 (ix4 (0 : Fin 1) (0 : Fin 1) h w))
          (k0_pay14 s0 s1 x (ix4 (0 : Fin 1) k h w)) (k0_pay14 s0 s1 x (ix4 (0 : Fin 1) k (up h) w))
          (k0_pay14 s0 s1 x (ix4 (0 : Fin 1) k (dn h) w)) := by
  rw [pairAfter_eq]
  exact k0_pay14_apply s2 s3 (k0_pay14 s0 s1 x) k h w

/-- Under the parked planes of a batch's pair, the stored pair is the point's pair after both steps. -/
theorem pairAfter_parked_apply (pr x : Vec F S1x2x512x512 .f32) (k : Fin 2) (h w : Fin 512) :
    pairAfter (parked0 pr) (parked1 pr) (parked2 pr) (parked3 pr) x (ix4 (0 : Fin 1) k h w) = twoSteps (planesOf pr) (fun h w => x (ix4 (0 : Fin 1) k h w)) h w := by
  have hmid : (fun h w : Fin 512 => k0_pay14 (parked0 pr) (parked1 pr) x (ix4 (0 : Fin 1) k h w))
      = blend (firstSwitch (planesOf pr)) (fun h w => x (ix4 (0 : Fin 1) k h w)) := by
    funext h w
    exact k0_pay14_eq_blend (parked0 pr) (parked1 pr) x (firstSwitch (planesOf pr)) (parked0_apply pr) (parked1_apply pr) k h w
  rw [pairAfter_eq,
    k0_pay14_eq_blend (parked2 pr) (parked3 pr) (k0_pay14 (parked0 pr) (parked1 pr) x) (secondSwitch (planesOf pr))
      (parked2_apply pr) (parked3_apply pr) k h w, hmid]
  rfl

end Cert.KernelIdeal.Hand

end
-- ==== Proof.KernelIdeal.ArrayValue.lean ====
/-
  The output array after the whole run, as one function of the world array.

  The grid has 160 points t = 10 b + k' (b < 16 the batch, k' < 10 the chunk). At point t the pair of planes
  brought in by window 0 and the pair written by window 2 sit at block index (b, k', 0, 0) of the
  [16, 20, 512, 512] array, so local (0, k, h, w) is global (b, 2 k' + k, h, w); the pair brought in by window 1
  sits at block index (b, 0, 0, 0), so local (0, k, h, w) is global (b, k, h, w): planes 0 and 1 of the batch.
  Hence what the point stores, the point's pair after both steps under the switches of the batch's planes 0 and 1,
  is the block of `evolve` of the world at the point's block; the 160 blocks tile the output array, which therefore
  ends at `evolve` of the world array. The world array and the other arguments are never written.
-/
import proofs.«122162_j30296699306445_1_alg».proof.Proof.KernelIdeal.Data
import proofs.«122162_j30296699306445_1_alg».proof.Proof.KernelIdeal.BlockValue
import proofs.«122162_j30296699306445_1_alg».proof.Proof.Field
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lemming Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where each window's block sits in its array -/

/-- The block indices of the three windows, decided over the 160 points: batch `t / 10` on axis 0; on axis 1 the
    chunk `t % 10` for windows 0 and 2 and block 0 for window 1; the two plane axes are whole. -/
theorem index0_facts : ∀ t : Fin cfg0.N, win0_0.index t (0 : Fin 4) = t.val / 10 ∧ win0_0.index t (1 : Fin 4) = t.val % 10
    ∧ win0_0.index t (2 : Fin 4) = 0 ∧ win0_0.index t (3 : Fin 4) = 0 :=
  (by decide +kernel : ∀ t : Fin grid0.N, win0_0.index t (0 : Fin 4) = t.val / 10 ∧ win0_0.index t (1 : Fin 4) = t.val % 10
    ∧ win0_0.index t (2 : Fin 4) = 0 ∧ win0_0.index t (3 : Fin 4) = 0)
theorem index1_facts : ∀ t : Fin cfg0.N, win0_1.index t (0 : Fin 4) = t.val / 10 ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val / 10 ∧ win0_1.index t (1 : Fin 4) = 0
    ∧ win0_1.index t (2 : Fin 4) = 0 ∧ win0_1.index t (3 : Fin 4) = 0)
theorem index2_facts : ∀ t : Fin cfg0.N, win0_2.index t (0 : Fin 4) = t.val / 10 ∧ win0_2.index t (1 : Fin 4) = t.val % 10
    ∧ win0_2.index t (2 : Fin 4) = 0 ∧ win0_2.index t (3 : Fin 4) = 0 :=
  (by decide +kernel : ∀ t : Fin grid0.N, win0_2.index t (0 : Fin 4) = t.val / 10 ∧ win0_2.index t (1 : Fin 4) = t.val % 10
    ∧ win0_2.index t (2 : Fin 4) = 0 ∧ win0_2.index t (3 : Fin 4) = 0)

/-- A point's batch and, with a plane `k` of its pair, the plane's number in the batch. -/
def batchOf (t : Fin cfg0.N) : Fin 16 := ⟨t.val / 10, by have := t.isLt; have : cfg0.N = 160 := N_0; omega⟩
def planeNo (t : Fin cfg0.N) (k : Fin 2) : Fin 20 := ⟨2 * (t.val % 10) + k.val, by omega⟩
def lowPlane (k : Fin 2) : Fin 20 := ⟨k.val, by omega⟩

/-- Window 0's block at point `t`: local (0, k, h, w) is global (t / 10, 2 (t % 10) + k, h, w). -/
theorem emb0 (t : Fin cfg0.N) (k : Fin 2) (h w : Fin 512) :
    ((cfg0.win 0).blk t).view.emb (ix4 (0 : Fin 1) k h w) = ix4 (batchOf t) (planeNo t k) h w := by
  obtain ⟨e0, e1, e2, e3⟩ := index0_facts t
  funext a; apply Fin.ext
  match a with
  | ⟨0, _⟩ => show win0_0.index t (0 : Fin 4) * 1 + 1 * (0 : Fin 1).val = t.val / 10; rw [e0]; simp
  | ⟨1, _⟩ => show win0_0.index t (1 : Fin 4) * 2 + 1 * k.val = 2 * (t.val % 10) + k.val; omega
  | ⟨2, _⟩ => show win0_0.index t (2 : Fin 4) * 512 + 1 * h.val = h.val; omega
  | ⟨3, _⟩ => show win0_0.index t (3 : Fin 4) * 512 + 1 * w.val = w.val; omega

/-- Window 1's block at point `t`: local (0, k, h, w) is global (t / 10, k, h, w). -/
theorem emb1 (t : Fin cfg0.N) (k : Fin 2) (h w : Fin 512) :
    ((cfg0.win 1).blk t).view.emb (ix4 (0 : Fin 1) k h w) = ix4 (batchOf t) (lowPlane k) h w := by
  obtain ⟨e0, e1, e2, e3⟩ := index1_facts t
  funext a; apply Fin.ext
  match a with
  | ⟨0, _⟩ => show win0_1.index t (0 : Fin 4) * 1 + 1 * (0 : Fin 1).val = t.val / 10; rw [e0]; simp
  | ⟨1, _⟩ => show win0_1.index t (1 : Fin 4) * 2 + 1 * k.val = k.val; omega
  | ⟨2, _⟩ => show win0_1.index t (2 : Fin 4) * 512 + 1 * h.val = h.val; omega
  | ⟨3, _⟩ => show win0_1.index t (3 : Fin 4) * 512 + 1 * w.val = w.val; omega

/-- Window 2's block at point `t` is where window 0's is. -/
theorem emb2 (t : Fin cfg0.N) (k : Fin 2) (h w : Fin 512) :
    ((cfg0.win 2).blk t).view.emb (ix4 (0 : Fin 1) k h w) = ix4 (batchOf t) (planeNo t k) h w := by
  obtain ⟨e0, e1, e2, e3⟩ := index2_facts t
  funext a; apply Fin.ext
  match a with
  | ⟨0, _⟩ => show win0_2.index t (0 : Fin 4) * 1 + 1 * (0 : Fin 1).val = t.val / 10; rw [e0]; simp
  | ⟨1, _⟩ => show win0_2.index t (1 : Fin 4) * 2 + 1 * k.val = 2 * (t.val % 10) + k.val; omega
  | ⟨2, _⟩ => show win0_2.index t (2 : Fin 4) * 512 + 1 * h.val = h.val; omega
  | ⟨3, _⟩ => show win0_2.index t (3 : Fin 4) * 512 + 1 * w.val = w.val; omega

/-! ## The blocks as planes of the world -/

/-- The point's pair is planes `2 (t % 10)` and `2 (t % 10) + 1` of batch `t / 10` of the world. -/
theorem xblk_apply (c : Dev nD) (t : Fin cfg0.N) (k : Fin 2) (h w : Fin 512) :
    xblk m c t (ix4 (0 : Fin 1) k h w) = V m c main_arg0 (ix4 (batchOf t) (planeNo t k) h w) := by
  show V m c main_arg0 (((cfg0.win 0).blk t).view.emb (ix4 (0 : Fin 1) k h w)) = _
  exact congrArg (V m c main_arg0) (emb0 t k h w)

/-- The batch's pair is planes 0 and 1 of batch `t / 10` of the world. -/
theorem pblk_apply (c : Dev nD) (t : Fin cfg0.N) (k : Fin 2) (h w : Fin 512) :
    pblk m c t (ix4 (0 : Fin 1) k h w) = V m c main_arg0 (ix4 (batchOf t) (lowPlane k) h w) := by
  show V m c main_arg0 (((cfg0.win 1).blk t).view.emb (ix4 (0 : Fin 1) k h w)) = _
  exact congrArg (V m c main_arg0) (emb1 t k h w)

/-- What the point stores is its pair of planes of the world after both steps. -/
theorem outAt_apply (c : Dev nD) (t : Fin cfg0.N) (k : Fin 2) (h w : Fin 512) :
    outAt m c t (ix4 (0 : Fin 1) k h w) = evolve (V m c main_arg0) (ix4 (batchOf t) (planeNo t k) h w) := by
  have hp : planesOf (pblk m c t) = pairOf (V m c main_arg0) (batchOf t) := by
    funext k' h' w'; exact pblk_apply m c t k' h' w'
  have hx : (fun h w => xblk m c t (ix4 (0 : Fin 1) k h w)) = planeOf (V m c main_arg0) (batchOf t) (planeNo t k) := by
    funext h' w'; exact xblk_apply m c t k h' w'
  unfold outAt
  rw [pairAfter_parked_apply, evolve_apply, hp, hx]

/-! ## The output array after the run -/

/-- What point `t` writes back is the block of `evolve` of the world at the point's block of the output array. -/
theorem flushed2_eq (c : Dev nD) (t : Fin cfg0.N) :
    (dats m 0 c).flushed 2 t = ((cfg0.win 2).blk t).view.read (Elt F) (evolve (V m c main_arg0)) := by
  show (cfg0.win 2).cut (grid0.coords t) ((dats m 0 c).after 2 t) = _
  rw [after2]
  funext j
  obtain ⟨a, k, h, w, rfl⟩ : ∃ (a : Fin 1) (k : Fin 2) (h w : Fin 512), j = ix4 a k h w := ⟨j 0, j 1, j 2, j 3, eq_ix4 j⟩
  obtain rfl : a = 0 := Subsingleton.elim _ _
  show outAt m c t (ix4 (0 : Fin 1) k h w) = evolve (V m c main_arg0) (((cfg0.win 2).blk t).view.emb (ix4 (0 : Fin 1) k h w))
  rw [emb2]
  exact outAt_apply m c t k h w

/-- An index of the output array is in point `t`'s block iff each coordinate is in the block's range on its axis. -/
theorem mem_blk2 (t : Fin cfg0.N) (i : S16x20x512x512.Idx) :
    i ∈ ((cfg0.win 2).blk t).view.set ↔ ∀ a : Fin 4, win0_2.index t a * S1x2x512x512.size a ≤ (i a).val
      ∧ (i a).val < win0_2.index t a * S1x2x512x512.size a + S1x2x512x512.size a := by
  show i ∈ ((View.whole main_v0).slice (win0_2.rect t)).set ↔ _
  rw [View.set_slice_whole, Rect.mem_set_unit]
  exact Iff.rfl

/-- The 160 blocks tile the output array: index (b, p, h, w) lies in the block of point `10 b + p / 2`. -/
theorem covered2 (i : S16x20x512x512.Idx) :
    ∃ t : Fin cfg0.N, (cfg0.win 2).flush t = true ∧ i ∈ ((cfg0.win 2).blk t).view.set := by
  have hb : (i 0).val < 16 := (i 0).isLt
  have hp : (i 1).val < 20 := (i 1).isLt
  have hh : (i 2).val < 512 := (i 2).isLt
  have hw : (i 3).val < 512 := (i 3).isLt
  have hN : cfg0.N = 160 := N_0
  let t : Fin cfg0.N := ⟨10 * (i 0).val + (i 1).val / 2, by omega⟩
  have ht : t.val = 10 * (i 0).val + (i 1).val / 2 := rfl
  obtain ⟨e0, e1, e2, e3⟩ := index2_facts t
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 2 ≤ (i 1).val ∧ (i 1).val < win0_2.index t (1 : Fin 4) * 2 + 2; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- The output array ends at `evolve` of the world array. -/
theorem final (c : Dev nD) : (dats m 0 c).arrAt 2 cfg0.N = evolve (V m c main_arg0) :=
  (dats m 0 c).arrAt_eq_of_cover 2 (evolve (V m c main_arg0)) (fun t _ => flushed2_eq m c t) covered2

/-! ## The run, read -/

/-- From any memory with zero counters every weakly fair execution of the program terminates with the output array
    at `evolve` of the world array as launched, and the world array and the three other arguments as launched. -/
theorem run_value : θ_run defs (onTc (τ := τ) (main (F := F))) ⟨m, fun _ => 0, ρ⟩ (fun r => ∀ c : Dev nD,
      r.2.mem ((c.tc : Thread nD τ).loc main_v0) = evolve (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 2).trans (final m c),
      ((h c).1 0).trans (((dats m 0 c).arrAt_in 0 rfl _).trans (A_eq m c 0)),
      (h c).2 main_arg1 (Pipeline.mem_restRefs_of main_arg1 rfl (by decide)),
      (h c).2 main_arg2 (Pipeline.mem_restRefs_of main_arg2 rfl (by decide)),
      (h c).2 main_arg3 (Pipeline.mem_restRefs_of main_arg3 rfl (by decide))⟩)
    (run_main m ρ)

end Cert.KernelIdeal.Hand

end
-- ==== Proof.RefRun.lean ====
import proofs.«122162_j30296699306445_1_alg».proof.Proof.RefOps
import proofs.«122162_j30296699306445_1_alg».proof.Proof.RefRead
import Idealize.ShloMosaic.Lib.StableHlo.Run

/-!
# The run of the reference program

The reference program is a straight line of 110 host operations. It applies the same step twice:
the first 55 operations compute from the argument the value written to `main_v36`, and the last 55
operations compute from `main_v36` alone, in the same way, the value written to `main_v73`.
Of the buffers written by the first half the second half reads only `main_v36`, so the line is cut there:
each half's fold is computed on its own, over an arbitrary valuation, and compared with the
staged values `val_main_vN`, which are one definition per operation, each built from the earlier ones.
No operation writes an argument, so the arguments keep their launch contents.
-/

noncomputable section

namespace Cert.Lemming.Ref

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- The concatenation of two pieces along an axis, with the shapes' fact stated of the two shapes alone
    (it does not mention the pieces' contents). -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The first step: the operations up to and including the one that writes `main_v36`. They read the argument `main_arg0` only.
    (The operations are the program's, each concatenation of two pieces spelt `cat2`.) -/
abbrev ops₁ : List (HloOp τ sig (Elt F)) :=
  [ unary main_arg0 main_v0 ((extractStridedSlice S16x1x512x512 ![0, 1, 0, 0] · slices_S16x20x512x512_S16x1x512x512_0_1_0_0) : (⟨S16x20x512x512, .f32⟩ : BufTy).Contents (Elt F) → (⟨S16x1x512x512, .f32⟩ : BufTy).Contents (Elt F)),
    unary main_arg0 main_v1 ((extractStridedSlice S16x1x512x512 ![0, 0, 0, 0] · slices_S16x20x512x512_S16x1x512x512_0_0_0_0) : (⟨S16x20x512x512, .f32⟩ : BufTy).Contents (Elt F) → (⟨S16x1x512x512, .f32⟩ : BufTy).Contents (Elt F)),
    nullary main_cst (constant S_ .f32 0x40400000#32),
    unary main_cst main_v2 (broadcastInDim S16x1x512x512 ![] bcast_S_S16x1x512x512 : (⟨S_, .f32⟩ : BufTy).Contents (Elt F) → (⟨S16x1x512x512, .f32⟩ : BufTy).Contents (Elt F)),
    binary main_v1 main_v2 main_v3 (cmpf .oeq : (⟨S16x1x512x512, .f32⟩ : BufTy).Contents (Elt F) → (⟨S16x1x512x512, .f32⟩ : BufTy).Contents (Elt F) → (⟨S16x1x512x512, .i1⟩ : BufTy).Contents (Elt F)),
    TRef.unary (TRef.of (T := ⟨S16x1x512x512, .f32⟩) main_v0) (TRef.of (T := ⟨S16x1x512x1, .f32⟩) main_call0_v0) (extractStridedSlice S16x1x512x1 ![0, 0, 0, 511] · slices_S16x1x512x512_S16x1x512x1_0_0_0_511),
    TRef.unary (TRef.of (T := ⟨S16x1x512x512, .f32⟩) main_v0) (TRef.of (T := ⟨S16x1x512x511, .f32⟩) main_call0_v1) (extractStridedSlice S16x1x512x511 ![0, 0, 0, 0] · slices_S16x1x512x512_S16x1x512x511_0_0_0_0),
    TRef.binary (TRef.of (T := ⟨S16x1x512x1, .f32⟩) main_call0_v0) (TRef.of (T := ⟨S16x1x512x511, .f32⟩) main_call0_v1) (TRef.of (T := ⟨S16x1x512x512, .f32⟩) main_v4) (fun a b => cat2 S16x1x512x512 3 S16x1x512x1 S16x1x512x511 concatenates_S16x1x512x1_S16x1x512x511_S16x1x512x512_d3 a b),
    TRef.unary (TRef.of (T := ⟨S16x1x512x512, .f32⟩) main_v0) (TRef.of (T := ⟨S16x1x1x512, .f32⟩) main_call1_v0) (extractStridedSlice S16x1x1x512 ![0, 0, 511, 0] · slices_S16x1x512x512_S16x1x1x512_0_0_511_0),
    TRef.unary (TRef.of (T := ⟨S16x1x512x512, .f32⟩) main_v0) (TRef.of (T := ⟨S16x1x511x512, .f32⟩) main_call1_v1) (extractStridedSlice S16x1x511x512 ![0, 0, 0, 0] · slices_S16x1x512x512_S16x1x511x512_0_0_0_0),
    TRef.binary (TRef.of (T := ⟨S16x1x1x512, .f32⟩) main_call1_v0) (TRef.of (T := ⟨S16x1x511x512, .f32⟩) main_call1_v1) (TRef.of (T := ⟨S16x1x512x512, .f32⟩) main_v5) (fun a b => cat2 S16x1x512x512 2 S16x1x1x512 S16x1x511x512 concatenates_S16x1x1x512_S16x1x511x512_S16x1x512x512_d2 a b),
    TRef.unary (TRef.of (T := ⟨S16x1x512x512, .f32⟩) main_v5) (TRef.of (T := ⟨S16x1x512x1, .f32⟩) main_call2_v0) (extractStridedSlice S16x1x512x1 ![0, 0, 0, 511] · slices_S16x1x512x512_S16x1x512x1_0_0_0_511),
    TRef.unary (TRef.of (T := ⟨S16x1x512x512, .f32⟩) main_v5) (TRef.of (T := ⟨S16x1x512x511, .f32⟩) main_call2_v1) (extractStridedSlice S16x1x512x511 ![0, 0, 0, 0] · slices_S16x1x512x512_S16x1x512x511_0_0_0_0),
    TRef.binary (TRef.of (T := ⟨S16x1x512x1, .f32⟩) main_call2_v0) (TRef.of (T := ⟨S16x1x512x511, .f32⟩) main_call2_v1) (TRef.of (T := ⟨S16x1x512x512, .f32⟩) main_v6) (fun a b => cat2 S16x1x512x512 3 S16x1x512x1 S16x1x512x511 concatenates_S16x1x512x1_S16x1x512x511_S16x1x512x512_d3 a b),
    binary main_v4 main_v0 main_v7 (subf : (⟨S16x1x512x512, .f32⟩ : BufTy).Contents (Elt F) → (⟨S16x1x512x512, .f32⟩ : BufTy).Contents (Elt F) → (⟨S16x1x512x512, .f32⟩ : BufTy).Contents (Elt F)),
    nullary main_cst_0 (constant S_ .f32 0x00000000#32),
    unary main_cst_0 main_v8 (broadcastInDim S16x1x512x512 ![] bcast_S_S16x1x512x512 : (⟨S_, .f32⟩ : BufTy).Contents (Elt F) → (⟨S16x1x512x512, .f32⟩ : BufTy).Contents (Elt F)),
    binary main_v7 main_v8 main_v9 (cmpf .oge : (⟨S16x1x512x512, .f32⟩ : BufTy).Contents (Elt F) → (⟨S16x1x512x512, .f32⟩ : BufTy).Contents (Elt F) → (⟨S16x1x512x512, .i1⟩ : BufTy).Contents (Elt F)),
    binary main_v3 main_v9 main_v10 (andi : (⟨S16x1x512x512, .i1⟩ : BufTy).Contents (Elt F) → (⟨S16x1x512x512, .i1⟩ : BufTy).Contents (Elt F) → (⟨S16x1x512x512, .i1⟩ : BufTy).Contents (Elt F)),
    binary main_v5 main_v0 main_v11 (subf : (⟨S16x1x512x512, .f32⟩ : BufTy).Contents (Elt F) → (⟨S16x1x512x512, .f32⟩ : BufTy).Contents (Elt F) → (⟨S16x1x512x512, .f32⟩ : BufTy).Contents (Elt F)),
    nullary main_cst_1 (constant S_ .f32 0x00000000#32),
    unary main_cst_1 main_v12 (broadcastInDim S16x1x512x512 ![] bcast_S_S16x1x512x512 : (⟨S_, .f32⟩ : BufTy).Contents (Elt F) → (⟨S16x1x512x512, .f32⟩ : BufTy).Contents (Elt F)),
    binary main_v11 main_v12 main_v13 (cmpf .olt : (⟨S16x1x512x512, .f32⟩ : BufTy).Contents (Elt F) → (⟨S16x1x512x512, .f32⟩ : BufTy).Contents (Elt F) → (⟨S16x1x512x512, .i1⟩ : BufTy).Contents (Elt F)),
    binary main_v10 main_v13 main_v14 (andi : (⟨S16x1x512x512, .i1⟩ : BufTy).Contents (Elt F) → (⟨S16x1x512x512, .i1⟩ : BufTy).Contents (Elt F) → (⟨S16x1x512x512, .i1⟩ : BufTy).Contents (Elt F)),
    binary main_v6 main_v0 main_v15 (subf : (⟨S16x1x512x512, .f32⟩ : BufTy).Contents (Elt F) → (⟨S16x1x512x512, .f32⟩ : BufTy).Contents (Elt F) → (⟨S16x1x512x512, .f32⟩ : BufTy).Contents (Elt F)),
    nullary main_cst_2 (constant S_ .f32 0x00000000#32),
    unary main_cst_2 main_v16 (broadcastInDim S16x1x512x512 ![] bcast_S_S16x1x512x512 : (⟨S_, .f32⟩ : BufTy).Contents (Elt F) → (⟨S16x1x512x512, .f32⟩ : BufTy).Contents (Elt F)),
    binary main_v15 main_v16 main_v17 (cmpf .olt : (⟨S16x1x512x512, .f32⟩ : BufTy).Contents (Elt F) → (⟨S16x1x512x512, .f32⟩ : BufTy).Contents (Elt F) → (⟨S16x1x512x512, .i1⟩ : BufTy).Contents (Elt F)),
    binary main_v14 main_v17 main_v18 (andi : (⟨S16x1x512x512, .i1⟩ : BufTy).Contents (Elt F) → (⟨S16x1x512x512, .i1⟩ : BufTy).Contents (Elt F) → (⟨S16x1x512x512, .i1⟩ : BufTy).Contents (Elt F)),
    TRef.unary (TRef.of (T := ⟨S16x1x512x512, .i1⟩) main_v18) (TRef.of (T := ⟨S16x1x511x512, .i1⟩) main_call3_v0) (extractStridedSlice S16x1x511x512 ![0, 0, 1, 0] · slices_S16x1x512x512_S16x1x511x512_0_0_1_0),
    TRef.unary (TRef.of (T := ⟨S16x1x512x512, .i1⟩) main_v18) (TRef.of (T := ⟨S16x1x1x512, .i1⟩) main_call3_v1) (extractStridedSlice S16x1x1x512 ![0, 0, 0, 0] · slices_S16x1x512x512_S16x1x1x512_0_0_0_0),
    TRef.binary (TRef.of (T := ⟨S16x1x511x512, .i1⟩) main_call3_v0) (TRef.of (T := ⟨S16x1x1x512, .i1⟩) main_call3_v1) (TRef.of (T := ⟨S16x1x512x512, .i1⟩) main_v19) (fun a b => cat2 S16x1x512x512 2 S16x1x511x512 S16x1x1x512 concatenates_S16x1x511x512_S16x1x1x512_S16x1x512x512_d2 a b),
    TRef.unary (TRef.of (T := ⟨S16x20x512x512, .f32⟩) main_arg0) (TRef.of (T := ⟨S16x20x1x512, .f32⟩) main_call4_v0) (extractStridedSlice S16x20x1x512 ![0, 0, 511, 0] · slices_S16x20x512x512_S16x20x1x512_0_0_511_0),
    TRef.unary (TRef.of (T := ⟨S16x20x512x512, .f32⟩) main_arg0) (TRef.of (T := ⟨S16x20x511x512, .f32⟩) main_call4_v1) (extractStridedSlice S16x20x511x512 ![0, 0, 0, 0] · slices_S16x20x512x512_S16x20x511x512_0_0_0_0),
    TRef.binary (TRef.of (T := ⟨S16x20x1x512, .f32⟩) main_call4_v0) (TRef.of (T := ⟨S16x20x511x512, .f32⟩) main_call4_v1) (TRef.of (T := ⟨S16x20x512x512, .f32⟩) main_v20) (fun a b => cat2 S16x20x512x512 2 S16x20x1x512 S16x20x511x512 concatenates_S16x20x1x512_S16x20x511x512_S16x20x512x512_d2 a b),
    TRef.unary (TRef.of (T := ⟨S16x20x512x512, .f32⟩) main_arg0) (TRef.of (T := ⟨S16x20x511x512, .f32⟩) main_call5_v0) (extractStridedSlice S16x20x511x512 ![0, 0, 1, 0] · slices_S16x20x512x512_S16x20x511x512_0_0_1_0),
    TRef.unary (TRef.of (T := ⟨S16x20x512x512, .f32⟩) main_arg0) (TRef.of (T := ⟨S16x20x1x512, .f32⟩) main_call5_v1) (extractStridedSlice S16x20x1x512 ![0, 0, 0, 0] · slices_S16x20x512x512_S16x20x1x512_0_0_0_0),
    TRef.binary (TRef.of (T := ⟨S16x20x511x512, .f32⟩) main_call5_v0) (TRef.of (T := ⟨S16x20x1x512, .f32⟩) main_call5_v1) (TRef.of (T := ⟨S16x20x512x512, .f32⟩) main_v21) (fun a b => cat2 S16x20x512x512 2 S16x20x511x512 S16x20x1x512 concatenates_S16x20x511x512_S16x20x1x512_S16x20x512x512_d2 a b),
    unary main_v18 main_v22 (uitofp .f32 : (⟨S16x1x512x512, .i1⟩ : BufTy).Contents (Elt F) → (⟨S16x1x512x512, .f32⟩ : BufTy).Contents (Elt F)),
    unary main_v19 main_v23 (uitofp .f32 : (⟨S16x1x512x512, .i1⟩ : BufTy).Contents (Elt F) → (⟨S16x1x512x512, .f32⟩ : BufTy).Contents (Elt F)),
    nullary main_cst_3 (constant S_ .f32 0x3F800000#32),
    unary main_cst_3 main_v24 (broadcastInDim S16x1x512x512 ![] bcast_S_S16x1x512x512 : (⟨S_, .f32⟩ : BufTy).Contents (Elt F) → (⟨S16x1x512x512, .f32⟩ : BufTy).Contents (Elt F)),
    binary main_v24 main_v22 main_v25 (subf : (⟨S16x1x512x512, .f32⟩ : BufTy).Contents (Elt F) → (⟨S16x1x512x512, .f32⟩ : BufTy).Contents (Elt F) → (⟨S16x1x512x512, .f32⟩ : BufTy).Contents (Elt F)),
    nullary main_cst_4 (constant S_ .f32 0x3F800000#32),
    unary main_cst_4 main_v26 (broadcastInDim S16x1x512x512 ![] bcast_S_S16x1x512x512 : (⟨S_, .f32⟩ : BufTy).Contents (Elt F) → (⟨S16x1x512x512, .f32⟩ : BufTy).Contents (Elt F)),
    binary main_v26 main_v23 main_v27 (subf : (⟨S16x1x512x512, .f32⟩ : BufTy).Contents (Elt F) → (⟨S16x1x512x512, .f32⟩ : BufTy).Contents (Elt F) → (⟨S16x1x512x512, .f32⟩ : BufTy).Contents (Elt F)),
    binary main_v25 main_v27 main_v28 (mulf : (⟨S16x1x512x512, .f32⟩ : BufTy).Contents (Elt F) → (⟨S16x1x512x512, .f32⟩ : BufTy).Contents (Elt F) → (⟨S16x1x512x512, .f32⟩ : BufTy).Contents (Elt F)),
    unary main_v28 main_v29 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v29 main_arg0 main_v30 (mulf : (⟨S16x20x512x512, .f32⟩ : BufTy).Contents (Elt F) → (⟨S16x20x512x512, .f32⟩ : BufTy).Contents (Elt F) → (⟨S16x20x512x512, .f32⟩ : BufTy).Contents (Elt F)),
    unary main_v22 main_v31 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v31 main_v20 main_v32 (mulf : (⟨S16x20x512x512, .f32⟩ : BufTy).Contents (Elt F) → (⟨S16x20x512x512, .f32⟩ : BufTy).Contents (Elt F) → (⟨S16x20x512x512, .f32⟩ : BufTy).Contents (Elt F)),
    binary main_v30 main_v32 main_v33 (addf : (⟨S16x20x512x512, .f32⟩ : BufTy).Contents (Elt F) → (⟨S16x20x512x512, .f32⟩ : BufTy).Contents (Elt F) → (⟨S16x20x512x512, .f32⟩ : BufTy).Contents (Elt F)),
    unary main_v23 main_v34 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v34 main_v21 main_v35 (mulf : (⟨S16x20x512x512, .f32⟩ : BufTy).Contents (Elt F) → (⟨S16x20x512x512, .f32⟩ : BufTy).Contents (Elt F) → (⟨S16x20x512x512, .f32⟩ : BufTy).Contents (Elt F)),
    binary main_v33 main_v35 main_v36 (addf : (⟨S16x20x512x512, .f32⟩ : BufTy).Contents (Elt F) → (⟨S16x20x512x512, .f32⟩ : BufTy).Contents (Elt F) → (⟨S16x20x512x512, .f32⟩ : BufTy).Contents (Elt F)) ]

/-- The second step: the operations after `main_v36` is written. Of the earlier buffers they read `main_v36` only. -/
abbrev ops₂ : List (HloOp τ sig (Elt F)) :=
  [ unary main_v36 main_v37 ((extractStridedSlice S16x1x512x512 ![0, 1, 0, 0] · slices_S16x20x512x512_S16x1x512x512_0_1_0_0) : (⟨S16x20x512x512, .f32⟩ : BufTy).Contents (Elt F) → (⟨S16x1x512x512, .f32⟩ : BufTy).Contents (Elt F)),
    unary main_v36 main_v38 ((extractStridedSlice S16x1x512x512 ![0, 0, 0, 0] · slices_S16x20x512x512_S16x1x512x512_0_0_0_0) : (⟨S16x20x512x512, .f32⟩ : BufTy).Contents (Elt F) → (⟨S16x1x512x512, .f32⟩ : BufTy).Contents (Elt F)),
    nullary main_cst_5 (constant S_ .f32 0x40400000#32),
    unary main_cst_5 main_v39 (broadcastInDim S16x1x512x512 ![] bcast_S_S16x1x512x512 : (⟨S_, .f32⟩ : BufTy).Contents (Elt F) → (⟨S16x1x512x512, .f32⟩ : BufTy).Contents (Elt F)),
    binary main_v38 main_v39 main_v40 (cmpf .oeq : (⟨S16x1x512x512, .f32⟩ : BufTy).Contents (Elt F) → (⟨S16x1x512x512, .f32⟩ : BufTy).Contents (Elt F) → (⟨S16x1x512x512, .i1⟩ : BufTy).Contents (Elt F)),
    TRef.unary (TRef.of (T := ⟨S16x1x512x512, .f32⟩) main_v37) (TRef.of (T := ⟨S16x1x512x511, .f32⟩) main_call6_v0) (extractStridedSlice S16x1x512x511 ![0, 0, 0, 1] · slices_S16x1x512x512_S16x1x512x511_0_0_0_1),
    TRef.unary (TRef.of (T := ⟨S16x1x512x512, .f32⟩) main_v37) (TRef.of (T := ⟨S16x1x512x1, .f32⟩) main_call6_v1) (extractStridedSlice S16x1x512x1 ![0, 0, 0, 0] · slices_S16x1x512x512_S16x1x512x1_0_0_0_0),
    TRef.binary (TRef.of (T := ⟨S16x1x512x511, .f32⟩) main_call6_v0) (TRef.of (T := ⟨S16x1x512x1, .f32⟩) main_call6_v1) (TRef.of (T := ⟨S16x1x512x512, .f32⟩) main_v41) (fun a b => cat2 S16x1x512x512 3 S16x1x512x511 S16x1x512x1 concatenates_S16x1x512x511_S16x1x512x1_S16x1x512x512_d3 a b),
    TRef.unary (TRef.of (T := ⟨S16x1x512x512, .f32⟩) main_v37) (TRef.of (T := ⟨S16x1x1x512, .f32⟩) main_call7_v0) (extractStridedSlice S16x1x1x512 ![0, 0, 511, 0] · slices_S16x1x512x512_S16x1x1x512_0_0_511_0),
    TRef.unary (TRef.of (T := ⟨S16x1x512x512, .f32⟩) main_v37) (TRef.of (T := ⟨S16x1x511x512, .f32⟩) main_call7_v1) (extractStridedSlice S16x1x511x512 ![0, 0, 0, 0] · slices_S16x1x512x512_S16x1x511x512_0_0_0_0),
    TRef.binary (TRef.of (T := ⟨S16x1x1x512, .f32⟩) main_call7_v0) (TRef.of (T := ⟨S16x1x511x512, .f32⟩) main_call7_v1) (TRef.of (T := ⟨S16x1x512x512, .f32⟩) main_v42) (fun a b => cat2 S16x1x512x512 2 S16x1x1x512 S16x1x511x512 concatenates_S16x1x1x512_S16x1x511x512_S16x1x512x512_d2 a b),
    TRef.unary (TRef.of (T := ⟨S16x1x512x512, .f32⟩) main_v42) (TRef.of (T := ⟨S16x1x512x511, .f32⟩) main_call8_v0) (extractStridedSlice S16x1x512x511 ![0, 0, 0, 1] · slices_S16x1x512x512_S16x1x512x511_0_0_0_1),
    TRef.unary (TRef.of (T := ⟨S16x1x512x512, .f32⟩) main_v42) (TRef.of (T := ⟨S16x1x512x1, .f32⟩) main_call8_v1) (extractStridedSlice S16x1x512x1 ![0, 0, 0, 0] · slices_S16x1x512x512_S16x1x512x1_0_0_0_0),
    TRef.binary (TRef.of (T := ⟨S16x1x512x511, .f32⟩) main_call8_v0) (TRef.of (T := ⟨S16x1x512x1, .f32⟩) main_call8_v1) (TRef.of (T := ⟨S16x1x512x512, .f32⟩) main_v43) (fun a b => cat2 S16x1x512x512 3 S16x1x512x511 S16x1x512x1 concatenates_S16x1x512x511_S16x1x512x1_S16x1x512x512_d3 a b),
    binary main_v41 main_v37 main_v44 (subf : (⟨S16x1x512x512, .f32⟩ : BufTy).Contents (Elt F) → (⟨S16x1x512x512, .f32⟩ : BufTy).Contents (Elt F) → (⟨S16x1x512x512, .f32⟩ : BufTy).Contents (Elt F)),
    nullary main_cst_6 (constant S_ .f32 0x00000000#32),
    unary main_cst_6 main_v45 (broadcastInDim S16x1x512x512 ![] bcast_S_S16x1x512x512 : (⟨S_, .f32⟩ : BufTy).Contents (Elt F) → (⟨S16x1x512x512, .f32⟩ : BufTy).Contents (Elt F)),
    binary main_v44 main_v45 main_v46 (cmpf .oge : (⟨S16x1x512x512, .f32⟩ : BufTy).Contents (Elt F) → (⟨S16x1x512x512, .f32⟩ : BufTy).Contents (Elt F) → (⟨S16x1x512x512, .i1⟩ : BufTy).Contents (Elt F)),
    binary main_v40 main_v46 main_v47 (andi : (⟨S16x1x512x512, .i1⟩ : BufTy).Contents (Elt F) → (⟨S16x1x512x512, .i1⟩ : BufTy).Contents (Elt F) → (⟨S16x1x512x512, .i1⟩ : BufTy).Contents (Elt F)),
    binary main_v42 main_v37 main_v48 (subf : (⟨S16x1x512x512, .f32⟩ : BufTy).Contents (Elt F) → (⟨S16x1x512x512, .f32⟩ : BufTy).Contents (Elt F) → (⟨S16x1x512x512, .f32⟩ : BufTy).Contents (Elt F)),
    nullary main_cst_7 (constant S_ .f32 0x00000000#32),
    unary main_cst_7 main_v49 (broadcastInDim S16x1x512x512 ![] bcast_S_S16x1x512x512 : (⟨S_, .f32⟩ : BufTy).Contents (Elt F) → (⟨S16x1x512x512, .f32⟩ : BufTy).Contents (Elt F)),
    binary main_v48 main_v49 main_v50 (cmpf .olt : (⟨S16x1x512x512, .f32⟩ : BufTy).Contents (Elt F) → (⟨S16x1x512x512, .f32⟩ : BufTy).Contents (Elt F) → (⟨S16x1x512x512, .i1⟩ : BufTy).Contents (Elt F)),
    binary main_v47 main_v50 main_v51 (andi : (⟨S16x1x512x512, .i1⟩ : BufTy).Contents (Elt F) → (⟨S16x1x512x512, .i1⟩ : BufTy).Contents (Elt F) → (⟨S16x1x512x512, .i1⟩ : BufTy).Contents (Elt F)),
    binary main_v43 main_v37 main_v52 (subf : (⟨S16x1x512x512, .f32⟩ : BufTy).Contents (Elt F) → (⟨S16x1x512x512, .f32⟩ : BufTy).Contents (Elt F) → (⟨S16x1x512x512, .f32⟩ : BufTy).Contents (Elt F)),
    nullary main_cst_8 (constant S_ .f32 0x00000000#32),
    unary main_cst_8 main_v53 (broadcastInDim S16x1x512x512 ![] bcast_S_S16x1x512x512 : (⟨S_, .f32⟩ : BufTy).Contents (Elt F) → (⟨S16x1x512x512, .f32⟩ : BufTy).Contents (Elt F)),
    binary main_v52 main_v53 main_v54 (cmpf .olt : (⟨S16x1x512x512, .f32⟩ : BufTy).Contents (Elt F) → (⟨S16x1x512x512, .f32⟩ : BufTy).Contents (Elt F) → (⟨S16x1x512x512, .i1⟩ : BufTy).Contents (Elt F)),
    binary main_v51 main_v54 main_v55 (andi : (⟨S16x1x512x512, .i1⟩ : BufTy).Contents (Elt F) → (⟨S16x1x512x512, .i1⟩ : BufTy).Contents (Elt F) → (⟨S16x1x512x512, .i1⟩ : BufTy).Contents (Elt F)),
    TRef.unary (TRef.of (T := ⟨S16x1x512x512, .i1⟩) main_v55) (TRef.of (T := ⟨S16x1x511x512, .i1⟩) main_call9_v0) (extractStridedSlice S16x1x511x512 ![0, 0, 1, 0] · slices_S16x1x512x512_S16x1x511x512_0_0_1_0),
    TRef.unary (TRef.of (T := ⟨S16x1x512x512, .i1⟩) main_v55) (TRef.of (T := ⟨S16x1x1x512, .i1⟩) main_call9_v1) (extractStridedSlice S16x1x1x512 ![0, 0, 0, 0] · slices_S16x1x512x512_S16x1x1x512_0_0_0_0),
    TRef.binary (TRef.of (T := ⟨S16x1x511x512, .i1⟩) main_call9_v0) (TRef.of (T := ⟨S16x1x1x512, .i1⟩) main_call9_v1) (TRef.of (T := ⟨S16x1x512x512, .i1⟩) main_v56) (fun a b => cat2 S16x1x512x512 2 S16x1x511x512 S16x1x1x512 concatenates_S16x1x511x512_S16x1x1x512_S16x1x512x512_d2 a b),
    TRef.unary (TRef.of (T := ⟨S16x20x512x512, .f32⟩) main_v36) (TRef.of (T := ⟨S16x20x1x512, .f32⟩) main_call10_v0) (extractStridedSlice S16x20x1x512 ![0, 0, 511, 0] · slices_S16x20x512x512_S16x20x1x512_0_0_511_0),
    TRef.unary (TRef.of (T := ⟨S16x20x512x512, .f32⟩) main_v36) (TRef.of (T := ⟨S16x20x511x512, .f32⟩) main_call10_v1) (extractStridedSlice S16x20x511x512 ![0, 0, 0, 0] · slices_S16x20x512x512_S16x20x511x512_0_0_0_0),
    TRef.binary (TRef.of (T := ⟨S16x20x1x512, .f32⟩) main_call10_v0) (TRef.of (T := ⟨S16x20x511x512, .f32⟩) main_call10_v1) (TRef.of (T := ⟨S16x20x512x512, .f32⟩) main_v57) (fun a b => cat2 S16x20x512x512 2 S16x20x1x512 S16x20x511x512 concatenates_S16x20x1x512_S16x20x511x512_S16x20x512x512_d2 a b),
    TRef.unary (TRef.of (T := ⟨S16x20x512x512, .f32⟩) main_v36) (TRef.of (T := ⟨S16x20x511x512, .f32⟩) main_call11_v0) (extractStridedSlice S16x20x511x512 ![0, 0, 1, 0] · slices_S16x20x512x512_S16x20x511x512_0_0_1_0),
    TRef.unary (TRef.of (T := ⟨S16x20x512x512, .f32⟩) main_v36) (TRef.of (T := ⟨S16x20x1x512, .f32⟩) main_call11_v1) (extractStridedSlice S16x20x1x512 ![0, 0, 0, 0] · slices_S16x20x512x512_S16x20x1x512_0_0_0_0),
    TRef.binary (TRef.of (T := ⟨S16x20x511x512, .f32⟩) main_call11_v0) (TRef.of (T := ⟨S16x20x1x512, .f32⟩) main_call11_v1) (TRef.of (T := ⟨S16x20x512x512, .f32⟩) main_v58) (fun a b => cat2 S16x20x512x512 2 S16x20x511x512 S16x20x1x512 concatenates_S16x20x511x512_S16x20x1x512_S16x20x512x512_d2 a b),
    unary main_v55 main_v59 (uitofp .f32 : (⟨S16x1x512x512, .i1⟩ : BufTy).Contents (Elt F) → (⟨S16x1x512x512, .f32⟩ : BufTy).Contents (Elt F)),
    unary main_v56 main_v60 (uitofp .f32 : (⟨S16x1x512x512, .i1⟩ : BufTy).Contents (Elt F) → (⟨S16x1x512x512, .f32⟩ : BufTy).Contents (Elt F)),
    nullary main_cst_9 (constant S_ .f32 0x3F800000#32),
    unary main_cst_9 main_v61 (broadcastInDim S16x1x512x512 ![] bcast_S_S16x1x512x512 : (⟨S_, .f32⟩ : BufTy).Contents (Elt F) → (⟨S16x1x512x512, .f32⟩ : BufTy).Contents (Elt F)),
    binary main_v61 main_v59 main_v62 (subf : (⟨S16x1x512x512, .f32⟩ : BufTy).Contents (Elt F) → (⟨S16x1x512x512, .f32⟩ : BufTy).Contents (Elt F) → (⟨S16x1x512x512, .f32⟩ : BufTy).Contents (Elt F)),
    nullary main_cst_10 (constant S_ .f32 0x3F800000#32),
    unary main_cst_10 main_v63 (broadcastInDim S16x1x512x512 ![] bcast_S_S16x1x512x512 : (⟨S_, .f32⟩ : BufTy).Contents (Elt F) → (⟨S16x1x512x512, .f32⟩ : BufTy).Contents (Elt F)),
    binary main_v63 main_v60 main_v64 (subf : (⟨S16x1x512x512, .f32⟩ : BufTy).Contents (Elt F) → (⟨S16x1x512x512, .f32⟩ : BufTy).Contents (Elt F) → (⟨S16x1x512x512, .f32⟩ : BufTy).Contents (Elt F)),
    binary main_v62 main_v64 main_v65 (mulf : (⟨S16x1x512x512, .f32⟩ : BufTy).Contents (Elt F) → (⟨S16x1x512x512, .f32⟩ : BufTy).Contents (Elt F) → (⟨S16x1x512x512, .f32⟩ : BufTy).Contents (Elt F)),
    unary main_v65 main_v66 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v66 main_v36 main_v67 (mulf : (⟨S16x20x512x512, .f32⟩ : BufTy).Contents (Elt F) → (⟨S16x20x512x512, .f32⟩ : BufTy).Contents (Elt F) → (⟨S16x20x512x512, .f32⟩ : BufTy).Contents (Elt F)),
    unary main_v59 main_v68 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v68 main_v57 main_v69 (mulf : (⟨S16x20x512x512, .f32⟩ : BufTy).Contents (Elt F) → (⟨S16x20x512x512, .f32⟩ : BufTy).Contents (Elt F) → (⟨S16x20x512x512, .f32⟩ : BufTy).Contents (Elt F)),
    binary main_v67 main_v69 main_v70 (addf : (⟨S16x20x512x512, .f32⟩ : BufTy).Contents (Elt F) → (⟨S16x20x512x512, .f32⟩ : BufTy).Contents (Elt F) → (⟨S16x20x512x512, .f32⟩ : BufTy).Contents (Elt F)),
    unary main_v60 main_v71 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v71 main_v58 main_v72 (mulf : (⟨S16x20x512x512, .f32⟩ : BufTy).Contents (Elt F) → (⟨S16x20x512x512, .f32⟩ : BufTy).Contents (Elt F) → (⟨S16x20x512x512, .f32⟩ : BufTy).Contents (Elt F)),
    binary main_v70 main_v72 main_v73 (addf : (⟨S16x20x512x512, .f32⟩ : BufTy).Contents (Elt F) → (⟨S16x20x512x512, .f32⟩ : BufTy).Contents (Elt F) → (⟨S16x20x512x512, .f32⟩ : BufTy).Contents (Elt F)) ]

set_option maxRecDepth 16384 in
set_option maxHeartbeats 4000000 in
/-- The line is its two steps, one after the other. -/
theorem ops_split : (ops : List (HloOp τ sig (Elt F))) = ops₁ ++ ops₂ := rfl

/-- The fold over a concatenation is the fold over the second list from the fold over the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 16384 in
set_option maxHeartbeats 4000000 in
/-- The first step leaves in `main_v36` the staged value of the argument's contents. -/
theorem after_ops₁_v36 (V : Valuation τ sig (Elt F)) :
    after ops₁ V (Proc.devRef .tc main_v36) = val_main_v36 (F := F) (V (Proc.devRef .tc main_arg0)) := by
  simp (disch := decide) only [after_cons, after_nil, TRef.ofBuf, TRef.toBuf, cast_eq, nullary_result', unary_result', binary_result', nullary_result_ne', unary_result_ne', binary_result_ne']
  rfl

set_option maxRecDepth 16384 in
set_option maxHeartbeats 4000000 in
/-- The second step, from any contents whose `main_v36` holds the first step's staged value of `x0`,
    leaves in `main_v73` the staged value of `x0`: every stage after `main_v36` depends on `x0` through `val_main_v36 x0` only. -/
theorem after_ops₂_v73 (W : Valuation τ sig (Elt F)) (x0 : (⟨S16x20x512x512, .f32⟩ : BufTy).Contents (Elt F))
    (hW : W (Proc.devRef .tc main_v36) = val_main_v36 (F := F) x0) :
    after ops₂ W (Proc.devRef .tc main_v73) = val_main_v73 (F := F) x0 := by
  simp (disch := decide) only [after_cons, after_nil, TRef.ofBuf, TRef.toBuf, cast_eq, nullary_result', unary_result', binary_result', nullary_result_ne', unary_result_ne', binary_result_ne']
  rw [hW]
  rfl

/-- The whole line leaves in `main_v73` the staged value of the argument's contents. -/
theorem after_ops_v73 (V : Valuation τ sig (Elt F)) :
    after ops V (Proc.devRef .tc main_v73) = val_main_v73 (F := F) (V (Proc.devRef .tc main_arg0)) := by
  rw [ops_split, after_append']
  exact after_ops₂_v73 (after ops₁ V) (V (Proc.devRef .tc main_arg0)) (after_ops₁_v36 V)

set_option maxRecDepth 16384 in
set_option maxHeartbeats 4000000 in
/-- On any mesh, from any memory with zero counters: every weakly fair execution of the reference program
    terminates with `main_v73` at the staged value of the argument `main_arg0`'s launch contents, and the
    four arguments unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v73) = Read.val_main_v73 (F := F) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v73).trans (after_ops_v73 (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.Lemming.Ref

end
-- ==== Proof.RefFirst.lean ====
/-
  The reference's first step, read index by index: the world after operations %0 … %36 of the reference program
  is one "fall" step of the world array whose forward neighbour along the width is the cyclic predecessor.

  A roll by +1 along an axis of extent 512 is printed as the last slab of the operand followed by its first 511
  slabs: read at coordinate h it is the operand at (h + 511) % 512, the cyclic predecessor `up h`. A roll by -1 is
  the last 511 slabs followed by the first: read at h it is the operand at (h + 1) % 512, the cyclic successor
  `dn h`. One lemma per roll, over any operand, in two cases: the coordinate falls in the first piece or in the
  second.

  The density plane is plane 1 of the world and the id plane is plane 0, both read as [16,1,512,512] arrays. The
  switch bit at (b, h, w) depends on the id at (h, w) and on the densities at (h, w), (h, up w), (up h, w) and
  (up h, up w) of batch b. The switch as a number is the bit converted unsigned, which at the ideal values is the
  bit widened to a word and converted signed. The blended result at (b, c, h, w) depends on the switch at (h, w),
  the switch at (dn h, w), and plane c at (h, w), (up h, w) and (dn h, w).
-/
import proofs.«122162_j30296699306445_1_alg».proof.Proof.RefRead
import proofs.«122162_j30296699306445_1_alg».proof.Proof.Field
import Idealize.ShloMosaic.Lib.KernelVsHost
import Idealize.ShloMosaic.Lib.ValueIdx
import Idealize.ShloMosaic.Lib.Pipeline.Value

set_option maxRecDepth 16384

noncomputable section

namespace Cert.Lemming.Ref

open Cert.ReferenceIdeal Cert.ReferenceIdeal.Gen Cert.ReferenceIdeal.Read Cert.Lemming Idealize.ShloMosaic Idealize.ShloMosaic.ValueIdx Idealize.ShloMosaic.TcCoe

/-! ## The rolls -/

section Rolls

variable {α : Type}

/-- A roll by +1 along the width of a [16,1,512,512] array: column w is the operand's column `up w`. -/
theorem roll_width_up (y : S16x1x512x512.Idx → α) (b : Fin 16) (c : Fin 1) (h w : Fin 512) :
    concatenate S16x1x512x512 3
      [⟨S16x1x512x1, extractStridedSlice S16x1x512x1 ![0, 0, 0, 511] y slices_S16x1x512x512_S16x1x512x1_0_0_0_511⟩,
       ⟨S16x1x512x511, extractStridedSlice S16x1x512x511 ![0, 0, 0, 0] y slices_S16x1x512x512_S16x1x512x511_0_0_0_0⟩]
      concatenates_S16x1x512x1_S16x1x512x511_S16x1x512x512_d3 (ix4 b c h w) = y (ix4 b c h (up w)) := by
  have hwlt : w.val < 512 := w.isLt
  by_cases hw : w.val = 0
  · -- column 0 is the first piece's only column, the operand's column 511
    refine (concatenate_pair_apply_left (s₁ := S16x1x512x1) (s₂ := S16x1x512x511) (3 : Fin S16x1x512x512.rank) _ _ _ (ix4 b c h w) rfl
      (ix4 b c h (⟨0, by decide⟩ : Fin 1)) (fun a => ?_)).trans ?_
    · match a with
      | ⟨0, _⟩ => rfl
      | ⟨1, _⟩ => rfl
      | ⟨2, _⟩ => rfl
      | ⟨3, _⟩ => exact hw.symm
    · exact extractStridedSlice_apply _ y _ _ (ix4 b c h (up w)) (fun a => by
        match a with
        | ⟨0, _⟩ => show b.val = 0 + b.val; omega
        | ⟨1, _⟩ => show c.val = 0 + c.val; omega
        | ⟨2, _⟩ => show h.val = 0 + h.val; omega
        | ⟨3, _⟩ => show (up w).val = 511 + 0; rw [up_val]; omega)
  · -- column w ≥ 1 is the second piece's column w - 1, the operand's column w - 1
    refine (concatenate_pair_apply_right (s₁ := S16x1x512x1) (s₂ := S16x1x512x511) (3 : Fin S16x1x512x512.rank) _ _ _ (ix4 b c h w) rfl rfl
      (ix4 b c h (⟨w.val - 1, by omega⟩ : Fin 511)) (fun a ha => ?_) ?_).trans ?_
    · match a, ha with
      | ⟨0, _⟩, _ => rfl
      | ⟨1, _⟩, _ => rfl
      | ⟨2, _⟩, _ => rfl
      | ⟨3, _⟩, ha => exact absurd rfl ha
    · show (w.val - 1) + 1 = w.val; omega
    · exact extractStridedSlice_apply _ y _ _ (ix4 b c h (up w)) (fun a => by
        match a with
        | ⟨0, _⟩ => show b.val = 0 + b.val; omega
        | ⟨1, _⟩ => show c.val = 0 + c.val; omega
        | ⟨2, _⟩ => show h.val = 0 + h.val; omega
        | ⟨3, _⟩ => show (up w).val = 0 + (w.val - 1); rw [up_val]; omega)

/-- A roll by +1 along the height of a [16,1,512,512] array: row h is the operand's row `up h`. -/
theorem roll_height_up (y : S16x1x512x512.Idx → α) (b : Fin 16) (c : Fin 1) (h w : Fin 512) :
    concatenate S16x1x512x512 2
      [⟨S16x1x1x512, extractStridedSlice S16x1x1x512 ![0, 0, 511, 0] y slices_S16x1x512x512_S16x1x1x512_0_0_511_0⟩,
       ⟨S16x1x511x512, extractStridedSlice S16x1x511x512 ![0, 0, 0, 0] y slices_S16x1x512x512_S16x1x511x512_0_0_0_0⟩]
      concatenates_S16x1x1x512_S16x1x511x512_S16x1x512x512_d2 (ix4 b c h w) = y (ix4 b c (up h) w) := by
  have hlt : h.val < 512 := h.isLt
  by_cases hh : h.val = 0
  · -- row 0 is the first piece's only row, the operand's row 511
    refine (concatenate_pair_apply_left (s₁ := S16x1x1x512) (s₂ := S16x1x511x512) (2 : Fin S16x1x512x512.rank) _ _ _ (ix4 b c h w) rfl
      (ix4 b c (⟨0, by decide⟩ : Fin 1) w) (fun a => ?_)).trans ?_
    · match a with
      | ⟨0, _⟩ => rfl
      | ⟨1, _⟩ => rfl
      | ⟨2, _⟩ => exact hh.symm
      | ⟨3, _⟩ => rfl
    · exact extractStridedSlice_apply _ y _ _ (ix4 b c (up h) w) (fun a => by
        match a with
        | ⟨0, _⟩ => show b.val = 0 + b.val; omega
        | ⟨1, _⟩ => show c.val = 0 + c.val; omega
        | ⟨2, _⟩ => show (up h).val = 511 + 0; rw [up_val]; omega
        | ⟨3, _⟩ => show w.val = 0 + w.val; omega)
  · -- row h ≥ 1 is the second piece's row h - 1, the operand's row h - 1
    refine (concatenate_pair_apply_right (s₁ := S16x1x1x512) (s₂ := S16x1x511x512) (2 : Fin S16x1x512x512.rank) _ _ _ (ix4 b c h w) rfl rfl
      (ix4 b c (⟨h.val - 1, by omega⟩ : Fin 511) w) (fun a ha => ?_) ?_).trans ?_
    · match a, ha with
      | ⟨0, _⟩, _ => rfl
      | ⟨1, _⟩, _ => rfl
      | ⟨2, _⟩, ha => exact absurd rfl ha
      | ⟨3, _⟩, _ => rfl
    · show (h.val - 1) + 1 = h.val; omega
    · exact extractStridedSlice_apply _ y _ _ (ix4 b c (up h) w) (fun a => by
        match a with
        | ⟨0, _⟩ => show b.val = 0 + b.val; omega
        | ⟨1, _⟩ => show c.val = 0 + c.val; omega
        | ⟨2, _⟩ => show (up h).val = 0 + (h.val - 1); rw [up_val]; omega
        | ⟨3, _⟩ => show w.val = 0 + w.val; omega)

/-- A roll by -1 along the height of a [16,1,512,512] array: row h is the operand's row `dn h`. -/
theorem roll_height_dn (y : S16x1x512x512.Idx → α) (b : Fin 16) (c : Fin 1) (h w : Fin 512) :
    concatenate S16x1x512x512 2
      [⟨S16x1x511x512, extractStridedSlice S16x1x511x512 ![0, 0, 1, 0] y slices_S16x1x512x512_S16x1x511x512_0_0_1_0⟩,
       ⟨S16x1x1x512, extractStridedSlice S16x1x1x512 ![0, 0, 0, 0] y slices_S16x1x512x512_S16x1x1x512_0_0_0_0⟩]
      concatenates_S16x1x511x512_S16x1x1x512_S16x1x512x512_d2 (ix4 b c h w) = y (ix4 b c (dn h) w) := by
  have hlt : h.val < 512 := h.isLt
  by_cases hh : h.val < 511
  · -- row h ≤ 510 is the first piece's row h, the operand's row h + 1
    refine (concatenate_pair_apply_left (s₁ := S16x1x511x512) (s₂ := S16x1x1x512) (2 : Fin S16x1x512x512.rank) _ _ _ (ix4 b c h w) rfl
      (ix4 b c (⟨h.val, hh⟩ : Fin 511) w) (fun a => ?_)).trans ?_
    · match a with
      | ⟨0, _⟩ => rfl
      | ⟨1, _⟩ => rfl
      | ⟨2, _⟩ => rfl
      | ⟨3, _⟩ => rfl
    · exact extractStridedSlice_apply _ y _ _ (ix4 b c (dn h) w) (fun a => by
        match a with
        | ⟨0, _⟩ => show b.val = 0 + b.val; omega
        | ⟨1, _⟩ => show c.val = 0 + c.val; omega
        | ⟨2, _⟩ => show (dn h).val = 1 + h.val; rw [dn_val]; omega
        | ⟨3, _⟩ => show w.val = 0 + w.val; omega)
  · -- row 511 is the second piece's only row, the operand's row 0
    refine (concatenate_pair_apply_right (s₁ := S16x1x511x512) (s₂ := S16x1x1x512) (2 : Fin S16x1x512x512.rank) _ _ _ (ix4 b c h w) rfl rfl
      (ix4 b c (⟨0, by decide⟩ : Fin 1) w) (fun a ha => ?_) ?_).trans ?_
    · match a, ha with
      | ⟨0, _⟩, _ => rfl
      | ⟨1, _⟩, _ => rfl
      | ⟨2, _⟩, ha => exact absurd rfl ha
      | ⟨3, _⟩, _ => rfl
    · show 0 + 511 = h.val; omega
    · exact extractStridedSlice_apply _ y _ _ (ix4 b c (dn h) w) (fun a => by
        match a with
        | ⟨0, _⟩ => show b.val = 0 + b.val; omega
        | ⟨1, _⟩ => show c.val = 0 + c.val; omega
        | ⟨2, _⟩ => show (dn h).val = 0 + 0; rw [dn_val]; omega
        | ⟨3, _⟩ => show w.val = 0 + w.val; omega)

/-- A roll by +1 along the height of the whole world array: row h is the operand's row `up h`. -/
theorem roll_world_up (y : S16x20x512x512.Idx → α) (b : Fin 16) (c : Fin 20) (h w : Fin 512) :
    concatenate S16x20x512x512 2
      [⟨S16x20x1x512, extractStridedSlice S16x20x1x512 ![0, 0, 511, 0] y slices_S16x20x512x512_S16x20x1x512_0_0_511_0⟩,
       ⟨S16x20x511x512, extractStridedSlice S16x20x511x512 ![0, 0, 0, 0] y slices_S16x20x512x512_S16x20x511x512_0_0_0_0⟩]
      concatenates_S16x20x1x512_S16x20x511x512_S16x20x512x512_d2 (ix4 b c h w) = y (ix4 b c (up h) w) := by
  have hlt : h.val < 512 := h.isLt
  by_cases hh : h.val = 0
  · -- row 0 is the first piece's only row, the operand's row 511
    refine (concatenate_pair_apply_left (s₁ := S16x20x1x512) (s₂ := S16x20x511x512) (2 : Fin S16x20x512x512.rank) _ _ _ (ix4 b c h w) rfl
      (ix4 b c (⟨0, by decide⟩ : Fin 1) w) (fun a => ?_)).trans ?_
    · match a with
      | ⟨0, _⟩ => rfl
      | ⟨1, _⟩ => rfl
      | ⟨2, _⟩ => exact hh.symm
      | ⟨3, _⟩ => rfl
    · exact extractStridedSlice_apply _ y _ _ (ix4 b c (up h) w) (fun a => by
        match a with
        | ⟨0, _⟩ => show b.val = 0 + b.val; omega
        | ⟨1, _⟩ => show c.val = 0 + c.val; omega
        | ⟨2, _⟩ => show (up h).val = 511 + 0; rw [up_val]; omega
        | ⟨3, _⟩ => show w.val = 0 + w.val; omega)
  · -- row h ≥ 1 is the second piece's row h - 1, the operand's row h - 1
    refine (concatenate_pair_apply_right (s₁ := S16x20x1x512) (s₂ := S16x20x511x512) (2 : Fin S16x20x512x512.rank) _ _ _ (ix4 b c h w) rfl rfl
      (ix4 b c (⟨h.val - 1, by omega⟩ : Fin 511) w) (fun a ha => ?_) ?_).trans ?_
    · match a, ha with
      | ⟨0, _⟩, _ => rfl
      | ⟨1, _⟩, _ => rfl
      | ⟨2, _⟩, ha => exact absurd rfl ha
      | ⟨3, _⟩, _ => rfl
    · show (h.val - 1) + 1 = h.val; omega
    · exact extractStridedSlice_apply _ y _ _ (ix4 b c (up h) w) (fun a => by
        match a with
        | ⟨0, _⟩ => show b.val = 0 + b.val; omega
        | ⟨1, _⟩ => show c.val = 0 + c.val; omega
        | ⟨2, _⟩ => show (up h).val = 0 + (h.val - 1); rw [up_val]; omega
        | ⟨3, _⟩ => show w.val = 0 + w.val; omega)

/-- A roll by -1 along the height of the whole world array: row h is the operand's row `dn h`. -/
theorem roll_world_dn (y : S16x20x512x512.Idx → α) (b : Fin 16) (c : Fin 20) (h w : Fin 512) :
    concatenate S16x20x512x512 2
      [⟨S16x20x511x512, extractStridedSlice S16x20x511x512 ![0, 0, 1, 0] y slices_S16x20x512x512_S16x20x511x512_0_0_1_0⟩,
       ⟨S16x20x1x512, extractStridedSlice S16x20x1x512 ![0, 0, 0, 0] y slices_S16x20x512x512_S16x20x1x512_0_0_0_0⟩]
      concatenates_S16x20x511x512_S16x20x1x512_S16x20x512x512_d2 (ix4 b c h w) = y (ix4 b c (dn h) w) := by
  have hlt : h.val < 512 := h.isLt
  by_cases hh : h.val < 511
  · -- row h ≤ 510 is the first piece's row h, the operand's row h + 1
    refine (concatenate_pair_apply_left (s₁ := S16x20x511x512) (s₂ := S16x20x1x512) (2 : Fin S16x20x512x512.rank) _ _ _ (ix4 b c h w) rfl
      (ix4 b c (⟨h.val, hh⟩ : Fin 511) w) (fun a => ?_)).trans ?_
    · match a with
      | ⟨0, _⟩ => rfl
      | ⟨1, _⟩ => rfl
      | ⟨2, _⟩ => rfl
      | ⟨3, _⟩ => rfl
    · exact extractStridedSlice_apply _ y _ _ (ix4 b c (dn h) w) (fun a => by
        match a with
        | ⟨0, _⟩ => show b.val = 0 + b.val; omega
        | ⟨1, _⟩ => show c.val = 0 + c.val; omega
        | ⟨2, _⟩ => show (dn h).val = 1 + h.val; rw [dn_val]; omega
        | ⟨3, _⟩ => show w.val = 0 + w.val; omega)
  · -- row 511 is the second piece's only row, the operand's row 0
    refine (concatenate_pair_apply_right (s₁ := S16x20x511x512) (s₂ := S16x20x1x512) (2 : Fin S16x20x512x512.rank) _ _ _ (ix4 b c h w) rfl rfl
      (ix4 b c (⟨0, by decide⟩ : Fin 1) w) (fun a ha => ?_) ?_).trans ?_
    · match a, ha with
      | ⟨0, _⟩, _ => rfl
      | ⟨1, _⟩, _ => rfl
      | ⟨2, _⟩, ha => exact absurd rfl ha
      | ⟨3, _⟩, _ => rfl
    · show 0 + 511 = h.val; omega
    · exact extractStridedSlice_apply _ y _ _ (ix4 b c (dn h) w) (fun a => by
        match a with
        | ⟨0, _⟩ => show b.val = 0 + b.val; omega
        | ⟨1, _⟩ => show c.val = 0 + c.val; omega
        | ⟨2, _⟩ => show (dn h).val = 0 + 0; rw [dn_val]; omega
        | ⟨3, _⟩ => show w.val = 0 + w.val; omega)

end Rolls

/-! ## The planes and the switch -/

section Stages

variable {F : FTy → Type} [FloatOps F]

/-- The density plane read as a [16,1,512,512] array is plane 1 of the world. -/
theorem density_apply (x0 : (⟨S16x20x512x512, .f32⟩ : BufTy).Contents (Elt F)) (b : Fin 16) (h w : Fin 512) :
    val_main_v0 (F := F) x0 (ix4 b 0 h w) = pairOf x0 b 1 h w := by
  rw [val_main_v0_apply]
  exact congrArg x0 (funext fun a => by
    match a with
    | ⟨0, _⟩ => rfl
    | ⟨1, _⟩ => rfl
    | ⟨2, _⟩ => rfl
    | ⟨3, _⟩ => rfl)

/-- The id plane read as a [16,1,512,512] array is plane 0 of the world. -/
theorem ident_apply (x0 : (⟨S16x20x512x512, .f32⟩ : BufTy).Contents (Elt F)) (b : Fin 16) (h w : Fin 512) :
    val_main_v1 (F := F) x0 (ix4 b 0 h w) = pairOf x0 b 0 h w := by
  rw [val_main_v1_apply]
  exact congrArg x0 (funext fun a => by
    match a with
    | ⟨0, _⟩ => rfl
    | ⟨1, _⟩ => rfl
    | ⟨2, _⟩ => rfl
    | ⟨3, _⟩ => rfl)

/-- The density of the forward neighbour: the density plane rolled by +1 along the width. -/
theorem density_forward_apply (x0 : (⟨S16x20x512x512, .f32⟩ : BufTy).Contents (Elt F)) (b : Fin 16) (h w : Fin 512) :
    val_main_v4 (F := F) x0 (ix4 b 0 h w) = pairOf x0 b 1 h (up w) :=
  (roll_width_up (val_main_v0 (F := F) x0) b 0 h w).trans (density_apply x0 b h (up w))

/-- The density of the cell above: the density plane rolled by +1 along the height. -/
theorem density_above_apply (x0 : (⟨S16x20x512x512, .f32⟩ : BufTy).Contents (Elt F)) (b : Fin 16) (h w : Fin 512) :
    val_main_v5 (F := F) x0 (ix4 b 0 h w) = pairOf x0 b 1 (up h) w :=
  (roll_height_up (val_main_v0 (F := F) x0) b 0 h w).trans (density_apply x0 b (up h) w)

/-- The density of the forward neighbour of the cell above: the plane above rolled by +1 along the width. -/
theorem density_forward_above_apply (x0 : (⟨S16x20x512x512, .f32⟩ : BufTy).Contents (Elt F)) (b : Fin 16) (h w : Fin 512) :
    val_main_v6 (F := F) x0 (ix4 b 0 h w) = pairOf x0 b 1 (up h) (up w) :=
  (roll_width_up (val_main_v5 (F := F) x0) b 0 h w).trans (density_above_apply x0 b h (up w))

/-- The switch bit at a cell, from the cell's id and the four densities around it. -/
theorem switch_bit_apply (x0 : (⟨S16x20x512x512, .f32⟩ : BufTy).Contents (Elt F)) (b : Fin 16) (h w : Fin 512) :
    val_main_v18 (F := F) x0 (ix4 b 0 h w) =
      switchBit (pairOf x0 b 0 h w) (pairOf x0 b 1 h w) (pairOf x0 b 1 h (up w)) (pairOf x0 b 1 (up h) w)
        (pairOf x0 b 1 (up h) (up w)) := by
  rw [val_main_v18_apply, val_main_v14_apply, val_main_v10_apply, val_main_v3_apply, val_main_v9_apply,
    val_main_v13_apply, val_main_v17_apply, val_main_v7_apply, val_main_v11_apply, val_main_v15_apply,
    val_main_v2_apply, val_main_v8_apply, val_main_v12_apply, val_main_v16_apply,
    val_main_cst_apply, val_main_cst_0_apply, val_main_cst_1_apply, val_main_cst_2_apply,
    density_apply, ident_apply, density_forward_apply, density_above_apply, density_forward_above_apply]
  rfl

/-- The switch bit of the cell below: the bit plane rolled by -1 along the height. -/
theorem switch_bit_below_apply (x0 : (⟨S16x20x512x512, .f32⟩ : BufTy).Contents (Elt F)) (b : Fin 16) (h w : Fin 512) :
    val_main_v19 (F := F) x0 (ix4 b 0 h w) = val_main_v18 (F := F) x0 (ix4 b 0 (dn h) w) :=
  roll_height_dn (val_main_v18 (F := F) x0) b 0 h w

/-- The world rolled by +1 along the height: the cell above. -/
theorem world_above_apply (x0 : (⟨S16x20x512x512, .f32⟩ : BufTy).Contents (Elt F)) (b : Fin 16) (c : Fin 20) (h w : Fin 512) :
    val_main_v20 (F := F) x0 (ix4 b c h w) = x0 (ix4 b c (up h) w) :=
  roll_world_up x0 b c h w

/-- The world rolled by -1 along the height: the cell below. -/
theorem world_below_apply (x0 : (⟨S16x20x512x512, .f32⟩ : BufTy).Contents (Elt F)) (b : Fin 16) (c : Fin 20) (h w : Fin 512) :
    val_main_v21 (F := F) x0 (ix4 b c h w) = x0 (ix4 b c (dn h) w) :=
  roll_world_dn x0 b c h w

/-- A [16,1,512,512] plane repeated over the twenty channels is read at channel 0 of the plane. -/
theorem over_channels_idx (b : Fin 16) (c : Fin 20) (h w : Fin 512) :
    idx_main_v29 (ix4 b c h w) = ix4 b 0 h w := funext fun a => by
  match a with
  | ⟨0, _⟩ => rfl
  | ⟨1, _⟩ => rfl
  | ⟨2, _⟩ => rfl
  | ⟨3, _⟩ => rfl
theorem over_channels_idx' (b : Fin 16) (c : Fin 20) (h w : Fin 512) :
    idx_main_v31 (ix4 b c h w) = ix4 b 0 h w := over_channels_idx b c h w
theorem over_channels_idx'' (b : Fin 16) (c : Fin 20) (h w : Fin 512) :
    idx_main_v34 (ix4 b c h w) = ix4 b 0 h w := over_channels_idx b c h w

end Stages

/-! ## The switch as a number, and the step -/

/-- One bit converted unsigned is the bit widened to a word and converted signed, at the ideal values. -/
theorem uitofp_bit (q : BitVec 1) :
    (FloatOps.uitofp .f32 q : Ideal .f32) = FloatOps.sitofp .f32 (q.setWidth 32) :=
  (congrFun (sitofp_extui_eq_uitofp (s := S_) (φ := .f32) (fun _ => q) (by decide)) ix0).symm

/-- The switch of a cell as a number. -/
theorem switch_apply (x0 : (⟨S16x20x512x512, .f32⟩ : BufTy).Contents (Elt Ideal)) (b : Fin 16) (h w : Fin 512) :
    val_main_v22 (F := Ideal) x0 (ix4 b 0 h w) = switch (F := Ideal) up (pairOf x0 b 0) (pairOf x0 b 1) h w := by
  rw [val_main_v22_apply, switch_bit_apply, uitofp_bit]
  rfl

/-- The switch of the cell below as a number. -/
theorem switch_below_apply (x0 : (⟨S16x20x512x512, .f32⟩ : BufTy).Contents (Elt Ideal)) (b : Fin 16) (h w : Fin 512) :
    val_main_v23 (F := Ideal) x0 (ix4 b 0 h w) = switch (F := Ideal) up (pairOf x0 b 0) (pairOf x0 b 1) (dn h) w := by
  rw [val_main_v23_apply, switch_bit_below_apply, switch_bit_apply, uitofp_bit]
  rfl

/-- The world after operations %0 … %36 is one step with the cyclic predecessor as forward neighbour. -/
theorem first_step (x0 : (⟨S16x20x512x512, .f32⟩ : BufTy).Contents (Elt Ideal)) : Read.val_main_v36 x0 = stepOnce (F := Ideal) up x0 := by
  funext j
  obtain ⟨b, c, h, w, rfl⟩ : ∃ (b : Fin 16) (c : Fin 20) (h w : Fin 512), j = ix4 b c h w :=
    ⟨j 0, j 1, j 2, j 3, eq_ix4 j⟩
  rw [stepOnce_apply, val_main_v36_apply, val_main_v33_apply, val_main_v35_apply, val_main_v30_apply,
    val_main_v32_apply, val_main_v29_apply, val_main_v31_apply, val_main_v34_apply,
    over_channels_idx, over_channels_idx', over_channels_idx'',
    val_main_v28_apply, val_main_v25_apply, val_main_v27_apply, val_main_v24_apply, val_main_v26_apply,
    val_main_cst_3_apply, val_main_cst_4_apply,
    switch_apply, switch_below_apply, world_above_apply, world_below_apply]
  rfl

end Cert.Lemming.Ref

end
-- ==== Proof.RefSecond.lean ====
/-
  The reference's second step, read index by index: operations %37 … %73 of the host program apply one "fall"
  step, whose forward neighbour along the width is the cyclic successor, to the array operation %36 wrote.
-/
import proofs.«122162_j30296699306445_1_alg».proof.Proof.RefRead
import proofs.«122162_j30296699306445_1_alg».proof.Proof.Field
import Idealize.ShloMosaic.Lib.KernelVsHost
import Idealize.ShloMosaic.Lib.ValueIdx
import Idealize.ShloMosaic.Lib.Pipeline.Value

set_option maxRecDepth 16384

noncomputable section

namespace Cert.Lemming.Ref

open Cert.ReferenceIdeal Cert.ReferenceIdeal.Gen Cert.ReferenceIdeal.Read Cert.Lemming Idealize.ShloMosaic Idealize.ShloMosaic.ValueIdx Idealize.ShloMosaic.TcCoe

namespace Second

/-! ## The rolls

A roll by one along an axis of extent 512 is written as two slices joined: a roll by -1 joins the slice from
position 1 on with the slice holding position 0, so position p of the result is position p + 1 of the operand,
cyclically (the successor `dn p`); a roll by +1 joins the slice holding position 511 with the slice of the first
511 positions, so position p of the result is position p + 511 of the operand, cyclically (the predecessor
`up p`). Each lemma has two cases: the coordinate falls in the first piece or in the second. -/

/-- A one-plane array rolled by -1 along the width reads the operand at the successor column. -/
theorem roll_width_dn {α : Type} (y : S16x1x512x512.Idx → α) (b : Fin 16) (c : Fin 1) (h w : Fin 512) :
    concatenate S16x1x512x512 3
      [⟨S16x1x512x511, extractStridedSlice S16x1x512x511 ![0, 0, 0, 1] y slices_S16x1x512x512_S16x1x512x511_0_0_0_1⟩,
       ⟨S16x1x512x1, extractStridedSlice S16x1x512x1 ![0, 0, 0, 0] y slices_S16x1x512x512_S16x1x512x1_0_0_0_0⟩]
      concatenates_S16x1x512x511_S16x1x512x1_S16x1x512x512_d3 (ix4 b c h w) = y (ix4 b c h (dn w)) := by
  by_cases hp : w.val < 511
  · refine (concatenate_pair_apply_left (s₁ := S16x1x512x511) (s₂ := S16x1x512x1) 3 _ _ _ (ix4 b c h w) rfl (ix4 b c h ⟨w.val, hp⟩) (fun a => by
      match a with
      | ⟨0, _⟩ => rfl
      | ⟨1, _⟩ => rfl
      | ⟨2, _⟩ => rfl
      | ⟨3, _⟩ => rfl)).trans ?_
    exact extractStridedSlice_apply _ y _ _ (ix4 b c h (dn w)) (fun a => by
      match a with
      | ⟨0, _⟩ => show b.val = 0 + b.val; omega
      | ⟨1, _⟩ => show c.val = 0 + c.val; omega
      | ⟨2, _⟩ => show h.val = 0 + h.val; omega
      | ⟨3, _⟩ => show (w.val + 1) % 512 = 1 + w.val; omega)
  · have hp' : w.val = 511 := by have := w.isLt; omega
    refine (concatenate_pair_apply_right (s₁ := S16x1x512x511) (s₂ := S16x1x512x1) 3 _ _ _ (ix4 b c h w) rfl rfl (ix4 b c h ⟨0, by decide⟩) (fun a ha => by
      match a with
      | ⟨0, _⟩ => rfl
      | ⟨1, _⟩ => rfl
      | ⟨2, _⟩ => rfl
      | ⟨3, _⟩ => exact absurd rfl ha) (by show 0 + 511 = w.val; omega)).trans ?_
    exact extractStridedSlice_apply _ y _ _ (ix4 b c h (dn w)) (fun a => by
      match a with
      | ⟨0, _⟩ => show b.val = 0 + b.val; omega
      | ⟨1, _⟩ => show c.val = 0 + c.val; omega
      | ⟨2, _⟩ => show h.val = 0 + h.val; omega
      | ⟨3, _⟩ => show (w.val + 1) % 512 = 0 + 0; omega)

/-- A one-plane array rolled by +1 along the height reads the operand at the predecessor row. -/
theorem roll_height_up {α : Type} (y : S16x1x512x512.Idx → α) (b : Fin 16) (c : Fin 1) (h w : Fin 512) :
    concatenate S16x1x512x512 2
      [⟨S16x1x1x512, extractStridedSlice S16x1x1x512 ![0, 0, 511, 0] y slices_S16x1x512x512_S16x1x1x512_0_0_511_0⟩,
       ⟨S16x1x511x512, extractStridedSlice S16x1x511x512 ![0, 0, 0, 0] y slices_S16x1x512x512_S16x1x511x512_0_0_0_0⟩]
      concatenates_S16x1x1x512_S16x1x511x512_S16x1x512x512_d2 (ix4 b c h w) = y (ix4 b c (up h) w) := by
  by_cases hp : h.val < 1
  · refine (concatenate_pair_apply_left (s₁ := S16x1x1x512) (s₂ := S16x1x511x512) 2 _ _ _ (ix4 b c h w) rfl (ix4 b c ⟨0, by decide⟩ w) (fun a => by
      match a with
      | ⟨0, _⟩ => rfl
      | ⟨1, _⟩ => rfl
      | ⟨2, _⟩ => show 0 = h.val; omega
      | ⟨3, _⟩ => rfl)).trans ?_
    exact extractStridedSlice_apply _ y _ _ (ix4 b c (up h) w) (fun a => by
      match a with
      | ⟨0, _⟩ => show b.val = 0 + b.val; omega
      | ⟨1, _⟩ => show c.val = 0 + c.val; omega
      | ⟨2, _⟩ => show (h.val + 511) % 512 = 511 + 0; omega
      | ⟨3, _⟩ => show w.val = 0 + w.val; omega)
  · have hp' : h.val - 1 < 511 := by have := h.isLt; omega
    refine (concatenate_pair_apply_right (s₁ := S16x1x1x512) (s₂ := S16x1x511x512) 2 _ _ _ (ix4 b c h w) rfl rfl (ix4 b c ⟨h.val - 1, hp'⟩ w) (fun a ha => by
      match a with
      | ⟨0, _⟩ => rfl
      | ⟨1, _⟩ => rfl
      | ⟨2, _⟩ => exact absurd rfl ha
      | ⟨3, _⟩ => rfl) (by show (h.val - 1) + 1 = h.val; omega)).trans ?_
    exact extractStridedSlice_apply _ y _ _ (ix4 b c (up h) w) (fun a => by
      match a with
      | ⟨0, _⟩ => show b.val = 0 + b.val; omega
      | ⟨1, _⟩ => show c.val = 0 + c.val; omega
      | ⟨2, _⟩ => show (h.val + 511) % 512 = 0 + (h.val - 1); omega
      | ⟨3, _⟩ => show w.val = 0 + w.val; omega)

/-- A one-plane array (of any entries: the switch bits are rolled this way) rolled by -1 along the height reads the operand at the successor row. -/
theorem roll_height_dn {α : Type} (y : S16x1x512x512.Idx → α) (b : Fin 16) (c : Fin 1) (h w : Fin 512) :
    concatenate S16x1x512x512 2
      [⟨S16x1x511x512, extractStridedSlice S16x1x511x512 ![0, 0, 1, 0] y slices_S16x1x512x512_S16x1x511x512_0_0_1_0⟩,
       ⟨S16x1x1x512, extractStridedSlice S16x1x1x512 ![0, 0, 0, 0] y slices_S16x1x512x512_S16x1x1x512_0_0_0_0⟩]
      concatenates_S16x1x511x512_S16x1x1x512_S16x1x512x512_d2 (ix4 b c h w) = y (ix4 b c (dn h) w) := by
  by_cases hp : h.val < 511
  · refine (concatenate_pair_apply_left (s₁ := S16x1x511x512) (s₂ := S16x1x1x512) 2 _ _ _ (ix4 b c h w) rfl (ix4 b c ⟨h.val, hp⟩ w) (fun a => by
      match a with
      | ⟨0, _⟩ => rfl
      | ⟨1, _⟩ => rfl
      | ⟨2, _⟩ => rfl
      | ⟨3, _⟩ => rfl)).trans ?_
    exact extractStridedSlice_apply _ y _ _ (ix4 b c (dn h) w) (fun a => by
      match a with
      | ⟨0, _⟩ => show b.val = 0 + b.val; omega
      | ⟨1, _⟩ => show c.val = 0 + c.val; omega
      | ⟨2, _⟩ => show (h.val + 1) % 512 = 1 + h.val; omega
      | ⟨3, _⟩ => show w.val = 0 + w.val; omega)
  · have hp' : h.val = 511 := by have := h.isLt; omega
    refine (concatenate_pair_apply_right (s₁ := S16x1x511x512) (s₂ := S16x1x1x512) 2 _ _ _ (ix4 b c h w) rfl rfl (ix4 b c ⟨0, by decide⟩ w) (fun a ha => by
      match a with
      | ⟨0, _⟩ => rfl
      | ⟨1, _⟩ => rfl
      | ⟨2, _⟩ => exact absurd rfl ha
      | ⟨3, _⟩ => rfl) (by show 0 + 511 = h.val; omega)).trans ?_
    exact extractStridedSlice_apply _ y _ _ (ix4 b c (dn h) w) (fun a => by
      match a with
      | ⟨0, _⟩ => show b.val = 0 + b.val; omega
      | ⟨1, _⟩ => show c.val = 0 + c.val; omega
      | ⟨2, _⟩ => show (h.val + 1) % 512 = 0 + 0; omega
      | ⟨3, _⟩ => show w.val = 0 + w.val; omega)

/-- The world array rolled by +1 along the height reads the operand at the predecessor row. -/
theorem roll_world_up {α : Type} (y : S16x20x512x512.Idx → α) (b : Fin 16) (c : Fin 20) (h w : Fin 512) :
    concatenate S16x20x512x512 2
      [⟨S16x20x1x512, extractStridedSlice S16x20x1x512 ![0, 0, 511, 0] y slices_S16x20x512x512_S16x20x1x512_0_0_511_0⟩,
       ⟨S16x20x511x512, extractStridedSlice S16x20x511x512 ![0, 0, 0, 0] y slices_S16x20x512x512_S16x20x511x512_0_0_0_0⟩]
      concatenates_S16x20x1x512_S16x20x511x512_S16x20x512x512_d2 (ix4 b c h w) = y (ix4 b c (up h) w) := by
  by_cases hp : h.val < 1
  · refine (concatenate_pair_apply_left (s₁ := S16x20x1x512) (s₂ := S16x20x511x512) 2 _ _ _ (ix4 b c h w) rfl (ix4 b c ⟨0, by decide⟩ w) (fun a => by
      match a with
      | ⟨0, _⟩ => rfl
      | ⟨1, _⟩ => rfl
      | ⟨2, _⟩ => show 0 = h.val; omega
      | ⟨3, _⟩ => rfl)).trans ?_
    exact extractStridedSlice_apply _ y _ _ (ix4 b c (up h) w) (fun a => by
      match a with
      | ⟨0, _⟩ => show b.val = 0 + b.val; omega
      | ⟨1, _⟩ => show c.val = 0 + c.val; omega
      | ⟨2, _⟩ => show (h.val + 511) % 512 = 511 + 0; omega
      | ⟨3, _⟩ => show w.val = 0 + w.val; omega)
  · have hp' : h.val - 1 < 511 := by have := h.isLt; omega
    refine (concatenate_pair_apply_right (s₁ := S16x20x1x512) (s₂ := S16x20x511x512) 2 _ _ _ (ix4 b c h w) rfl rfl (ix4 b c ⟨h.val - 1, hp'⟩ w) (fun a ha => by
      match a with
      | ⟨0, _⟩ => rfl
      | ⟨1, _⟩ => rfl
      | ⟨2, _⟩ => exact absurd rfl ha
      | ⟨3, _⟩ => rfl) (by show (h.val - 1) + 1 = h.val; omega)).trans ?_
    exact extractStridedSlice_apply _ y _ _ (ix4 b c (up h) w) (fun a => by
      match a with
      | ⟨0, _⟩ => show b.val = 0 + b.val; omega
      | ⟨1, _⟩ => show c.val = 0 + c.val; omega
      | ⟨2, _⟩ => show (h.val + 511) % 512 = 0 + (h.val - 1); omega
      | ⟨3, _⟩ => show w.val = 0 + w.val; omega)

/-- The world array rolled by -1 along the height reads the operand at the successor row. -/
theorem roll_world_dn {α : Type} (y : S16x20x512x512.Idx → α) (b : Fin 16) (c : Fin 20) (h w : Fin 512) :
    concatenate S16x20x512x512 2
      [⟨S16x20x511x512, extractStridedSlice S16x20x511x512 ![0, 0, 1, 0] y slices_S16x20x512x512_S16x20x511x512_0_0_1_0⟩,
       ⟨S16x20x1x512, extractStridedSlice S16x20x1x512 ![0, 0, 0, 0] y slices_S16x20x512x512_S16x20x1x512_0_0_0_0⟩]
      concatenates_S16x20x511x512_S16x20x1x512_S16x20x512x512_d2 (ix4 b c h w) = y (ix4 b c (dn h) w) := by
  by_cases hp : h.val < 511
  · refine (concatenate_pair_apply_left (s₁ := S16x20x511x512) (s₂ := S16x20x1x512) 2 _ _ _ (ix4 b c h w) rfl (ix4 b c ⟨h.val, hp⟩ w) (fun a => by
      match a with
      | ⟨0, _⟩ => rfl
      | ⟨1, _⟩ => rfl
      | ⟨2, _⟩ => rfl
      | ⟨3, _⟩ => rfl)).trans ?_
    exact extractStridedSlice_apply _ y _ _ (ix4 b c (dn h) w) (fun a => by
      match a with
      | ⟨0, _⟩ => show b.val = 0 + b.val; omega
      | ⟨1, _⟩ => show c.val = 0 + c.val; omega
      | ⟨2, _⟩ => show (h.val + 1) % 512 = 1 + h.val; omega
      | ⟨3, _⟩ => show w.val = 0 + w.val; omega)
  · have hp' : h.val = 511 := by have := h.isLt; omega
    refine (concatenate_pair_apply_right (s₁ := S16x20x511x512) (s₂ := S16x20x1x512) 2 _ _ _ (ix4 b c h w) rfl rfl (ix4 b c ⟨0, by decide⟩ w) (fun a ha => by
      match a with
      | ⟨0, _⟩ => rfl
      | ⟨1, _⟩ => rfl
      | ⟨2, _⟩ => exact absurd rfl ha
      | ⟨3, _⟩ => rfl) (by show 0 + 511 = h.val; omega)).trans ?_
    exact extractStridedSlice_apply _ y _ _ (ix4 b c (dn h) w) (fun a => by
      match a with
      | ⟨0, _⟩ => show b.val = 0 + b.val; omega
      | ⟨1, _⟩ => show c.val = 0 + c.val; omega
      | ⟨2, _⟩ => show (h.val + 1) % 512 = 0 + 0; omega
      | ⟨3, _⟩ => show w.val = 0 + w.val; omega)

/-! ## The second step's operands at a cell

`val_main_v36 x0` is the array the second step starts from, an arbitrary world array here. Its plane 1
(densities) is operation %37, its plane 0 (element ids) is operation %38. -/

variable {F : FTy → Type} [FloatOps F]

/-- The density plane at a cell is plane 1 of the array at that cell. -/
theorem density_at (x0 : WorldS.Idx → F .f32) (b : Fin 16) (c : Fin 1) (h w : Fin 512) :
    val_main_v37 x0 (ix4 b c h w) = val_main_v36 x0 (ix4 b 1 h w) := by
  rw [val_main_v37_apply]
  exact congrArg (val_main_v36 x0) (funext fun a => match a with
    | ⟨0, _⟩ => rfl
    | ⟨1, _⟩ => Fin.ext (by show 1 + c.val = 1; omega)
    | ⟨2, _⟩ => rfl
    | ⟨3, _⟩ => rfl)

/-- The id plane at a cell is plane 0 of the array at that cell. -/
theorem id_at (x0 : WorldS.Idx → F .f32) (b : Fin 16) (c : Fin 1) (h w : Fin 512) :
    val_main_v38 x0 (ix4 b c h w) = val_main_v36 x0 (ix4 b 0 h w) := by
  rw [val_main_v38_apply]
  exact congrArg (val_main_v36 x0) (funext fun a => match a with
    | ⟨0, _⟩ => rfl
    | ⟨1, _⟩ => Fin.ext (by show c.val = 0; omega)
    | ⟨2, _⟩ => rfl
    | ⟨3, _⟩ => rfl)

/-- The densities rolled by -1 along the width: the forward neighbour's density. -/
theorem v41_at (x0 : WorldS.Idx → F .f32) (b : Fin 16) (c : Fin 1) (h w : Fin 512) :
    val_main_v41 x0 (ix4 b c h w) = val_main_v37 x0 (ix4 b c h (dn w)) :=
  roll_width_dn (val_main_v37 x0) b c h w

/-- The densities rolled by +1 along the height: the density of the cell above. -/
theorem v42_at (x0 : WorldS.Idx → F .f32) (b : Fin 16) (c : Fin 1) (h w : Fin 512) :
    val_main_v42 x0 (ix4 b c h w) = val_main_v37 x0 (ix4 b c (up h) w) :=
  roll_height_up (val_main_v37 x0) b c h w

/-- That plane rolled by -1 along the width: the density of the forward neighbour of the cell above. -/
theorem v43_at (x0 : WorldS.Idx → F .f32) (b : Fin 16) (c : Fin 1) (h w : Fin 512) :
    val_main_v43 x0 (ix4 b c h w) = val_main_v42 x0 (ix4 b c h (dn w)) :=
  roll_width_dn (val_main_v42 x0) b c h w

/-- The switch bits rolled by -1 along the height: the bit of the cell below. -/
theorem v56_at (x0 : WorldS.Idx → F .f32) (b : Fin 16) (c : Fin 1) (h w : Fin 512) :
    val_main_v56 x0 (ix4 b c h w) = val_main_v55 x0 (ix4 b c (dn h) w) :=
  roll_height_dn (val_main_v55 x0) b c h w

/-- The whole array rolled by +1 along the height: every plane's cell above. -/
theorem v57_at (x0 : WorldS.Idx → F .f32) (b : Fin 16) (c : Fin 20) (h w : Fin 512) :
    val_main_v57 x0 (ix4 b c h w) = val_main_v36 x0 (ix4 b c (up h) w) :=
  roll_world_up (val_main_v36 x0) b c h w

/-- The whole array rolled by -1 along the height: every plane's cell below. -/
theorem v58_at (x0 : WorldS.Idx → F .f32) (b : Fin 16) (c : Fin 20) (h w : Fin 512) :
    val_main_v58 x0 (ix4 b c h w) = val_main_v36 x0 (ix4 b c (dn h) w) :=
  roll_world_dn (val_main_v36 x0) b c h w

/-- The switch bit at a cell: the four conditions on the cell's id and density and on the densities of its
    forward neighbour, of the cell above and of that cell's forward neighbour, conjoined in the order the
    specification conjoins them. -/
theorem bit_at (x0 : WorldS.Idx → F .f32) (b : Fin 16) (c : Fin 1) (h w : Fin 512) :
    val_main_v55 x0 (ix4 b c h w) =
      switchBit (val_main_v36 x0 (ix4 b 0 h w)) (val_main_v36 x0 (ix4 b 1 h w)) (val_main_v36 x0 (ix4 b 1 h (dn w)))
        (val_main_v36 x0 (ix4 b 1 (up h) w)) (val_main_v36 x0 (ix4 b 1 (up h) (dn w))) := by
  simp only [val_main_v55_apply, val_main_v51_apply, val_main_v47_apply, val_main_v40_apply, val_main_v46_apply,
    val_main_v50_apply, val_main_v54_apply, val_main_v44_apply, val_main_v48_apply, val_main_v52_apply,
    v41_at, v42_at, v43_at, val_main_v39_apply, val_main_v45_apply, val_main_v49_apply, val_main_v53_apply,
    val_main_cst_5_apply, val_main_cst_6_apply, val_main_cst_7_apply, val_main_cst_8_apply, density_at, id_at]
  rfl

/-- A plane broadcast over the twenty channels reads the plane at the cell, whatever the channel. -/
theorem v66_at (x0 : WorldS.Idx → F .f32) (b : Fin 16) (c : Fin 20) (h w : Fin 512) :
    val_main_v66 x0 (ix4 b c h w) = val_main_v65 x0 (ix4 b 0 h w) := by
  rw [val_main_v66_apply]
  exact congrArg (val_main_v65 x0) (funext fun a => match a with
    | ⟨0, _⟩ => rfl
    | ⟨1, _⟩ => rfl
    | ⟨2, _⟩ => rfl
    | ⟨3, _⟩ => rfl)
theorem v68_at (x0 : WorldS.Idx → F .f32) (b : Fin 16) (c : Fin 20) (h w : Fin 512) :
    val_main_v68 x0 (ix4 b c h w) = val_main_v59 x0 (ix4 b 0 h w) := by
  rw [val_main_v68_apply]
  exact congrArg (val_main_v59 x0) (funext fun a => match a with
    | ⟨0, _⟩ => rfl
    | ⟨1, _⟩ => rfl
    | ⟨2, _⟩ => rfl
    | ⟨3, _⟩ => rfl)
theorem v71_at (x0 : WorldS.Idx → F .f32) (b : Fin 16) (c : Fin 20) (h w : Fin 512) :
    val_main_v71 x0 (ix4 b c h w) = val_main_v60 x0 (ix4 b 0 h w) := by
  rw [val_main_v71_apply]
  exact congrArg (val_main_v60 x0) (funext fun a => match a with
    | ⟨0, _⟩ => rfl
    | ⟨1, _⟩ => rfl
    | ⟨2, _⟩ => rfl
    | ⟨3, _⟩ => rfl)

/-- At the ideal values a bit converted unsigned is the bit widened to a word and converted signed. -/
theorem uitofp_bit (v : BitVec 1) :
    (FloatOps.uitofp .f32 v : Ideal .f32) = FloatOps.sitofp .f32 (v.setWidth 32) :=
  (congrFun (sitofp_extui_eq_uitofp (s := S_) (φ := .f32) (fun _ => v) (by decide)) ix0).symm

/-- The switch as a float at a cell. -/
theorem switch_at (x0 : WorldS.Idx → Ideal .f32) (b : Fin 16) (c : Fin 1) (h w : Fin 512) :
    val_main_v59 (F := Ideal) x0 (ix4 b c h w) =
      switchVal (F := Ideal) (val_main_v36 (F := Ideal) x0 (ix4 b 0 h w)) (val_main_v36 (F := Ideal) x0 (ix4 b 1 h w)) (val_main_v36 (F := Ideal) x0 (ix4 b 1 h (dn w)))
        (val_main_v36 (F := Ideal) x0 (ix4 b 1 (up h) w)) (val_main_v36 (F := Ideal) x0 (ix4 b 1 (up h) (dn w))) := by
  rw [val_main_v59_apply, bit_at, uitofp_bit]
  rfl

/-- The switch of the cell below, as a float. -/
theorem switch_below_at (x0 : WorldS.Idx → Ideal .f32) (b : Fin 16) (c : Fin 1) (h w : Fin 512) :
    val_main_v60 (F := Ideal) x0 (ix4 b c h w) =
      switchVal (F := Ideal) (val_main_v36 (F := Ideal) x0 (ix4 b 0 (dn h) w)) (val_main_v36 (F := Ideal) x0 (ix4 b 1 (dn h) w)) (val_main_v36 (F := Ideal) x0 (ix4 b 1 (dn h) (dn w)))
        (val_main_v36 (F := Ideal) x0 (ix4 b 1 (up (dn h)) w)) (val_main_v36 (F := Ideal) x0 (ix4 b 1 (up (dn h)) (dn w))) := by
  rw [val_main_v60_apply, v56_at, bit_at, uitofp_bit]
  rfl

end Second

open Second

/-- Operations %37 … %73 are one step, forward to the cyclic successor along the width, of the array operation %36
    wrote: the same float operations on the same entries as the specification's step, cell by cell. -/
theorem second_step (x0 : (⟨S16x20x512x512, .f32⟩ : BufTy).Contents (Elt Ideal)) :
    Read.val_main_v73 x0 = stepOnce (F := Ideal) dn (Read.val_main_v36 x0) := by
  funext j
  obtain ⟨b, c, h, w, rfl⟩ : ∃ (b : Fin 16) (c : Fin 20) (h w : Fin 512), j = ix4 b c h w := ⟨j 0, j 1, j 2, j 3, eq_ix4 j⟩
  rw [stepOnce_apply]
  simp only [val_main_v73_apply, val_main_v70_apply, val_main_v72_apply, val_main_v67_apply, val_main_v69_apply,
    v66_at, v68_at, v71_at, val_main_v65_apply, val_main_v62_apply, val_main_v64_apply, val_main_v61_apply,
    val_main_v63_apply, val_main_cst_9_apply, val_main_cst_10_apply, v57_at, v58_at, switch_at, switch_below_at]
  generalize val_main_v36 (F := Ideal) x0 = A
  rfl

end Cert.Lemming.Ref

end
-- ==== Proof.lean ====
/-
  The certificate's claim: a two-step cellular update of a world of sixteen batches of twenty 512 x 512 planes,
  computed by one pipelined kernel and by a reference that applies the step twice to the whole array.

  One step lets a cell switch with the cell above it (Proof/Field.lean: `switch`, `blend`); both programs apply
  the same float operations to the same entries in the same order, so no law of arithmetic joins them: the kernel's
  rotations of a block's rows and columns and the reference's slices and concatenations of the whole array read the
  same cyclic neighbours, and the kernel's widening of a switch bit before converting it is the reference's direct
  conversion of the bit. The precondition (finite inputs) is never opened.

  * The kernel hands ONE array, the world, to two input windows (the point's pair of planes, and the batch's planes
    0 and 1 from which the first point of a batch computes the switches it parks in scratch). Its frame is the
    library's launch for windows that share an array (Proof/LibSharedWindows.lean) over the body's two runs
    (Proof/KernelIdeal/Body.lean) and the pipeline's proof data (Proof/KernelIdeal/Data.lean), stated for any float
    instance: at the word-level instance it is `frame_Kernel`, at the ideal one `frame_KernelIdeal`.
  * What the kernel's output array holds, block by block and then as a whole array, is `evolve` of the world
    (Proof/KernelIdeal/BlockValue.lean, Proof/KernelIdeal/ArrayValue.lean).
  * The reference's run, stretch by stretch, ends at the staged values of its operations (Proof/RefRun.lean), and its
    two steps read at an index are two steps of `evolve` (Proof/RefFirst.lean, Proof/RefSecond.lean).
-/
import proofs.«122162_j30296699306445_1_alg».proof.Defs
import proofs.«122162_j30296699306445_1_alg».proof.Proof.Gen.Kernel
import proofs.«122162_j30296699306445_1_alg».proof.Proof.Gen.KernelIdeal
import proofs.«122162_j30296699306445_1_alg».proof.Proof.Gen.ReferenceIdeal
import proofs.«122162_j30296699306445_1_alg».proof.Proof.Gen.Pre_finite_inputs
import proofs.«122162_j30296699306445_1_alg».proof.Proof.Kernel.Data
import proofs.«122162_j30296699306445_1_alg».proof.Proof.KernelIdeal.ArrayValue
import proofs.«122162_j30296699306445_1_alg».proof.Proof.RefRun
import proofs.«122162_j30296699306445_1_alg».proof.Proof.RefFirst
import proofs.«122162_j30296699306445_1_alg».proof.Proof.RefSecond

noncomputable section

namespace Cert.Proof

open Idealize.ShloMosaic Idealize.SL.Sem Cert.Lemming

/-- The reference's result is the world after both steps: its second step after its first. -/
theorem reference_evolves (x0 : (⟨Cert.ReferenceIdeal.S16x20x512x512, .f32⟩ : BufTy).Contents (Elt Ideal)) :
    Cert.ReferenceIdeal.Read.val_main_v73 x0 = evolve (F := Ideal) x0 := by
  rw [Cert.Lemming.Ref.second_step, Cert.Lemming.Ref.first_step, evolve_eq_steps]

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ =>
  (θ_run Cert.ReferenceIdeal.defs _ _).mono (fun _ h c => (h c).2) (Cert.Lemming.Ref.run (F := Ideal) m ρ)

/-- Both idealized programs end with the world after both steps in their result array. -/
theorem algebraic : Cert.algebraic_KernelIdeal_ReferenceIdeal := by
  intro m ρ m' ρ' _ hagree
  refine ⟨fun c => evolve (F := Ideal) (m ((c.tc : Thread Cert.KernelIdeal.nD Cert.KernelIdeal.τ).loc Cert.KernelIdeal.main_arg0)),
    Cert.KernelIdeal.Hand.run_value (F := Ideal) m ρ, ?_⟩
  refine (θ_run Cert.ReferenceIdeal.defs _ _).mono (fun _ h c => ⟨(h c).1.trans ?_, (h c).2⟩)
    (Cert.Lemming.Ref.run (F := Ideal) m' ρ')
  rw [reference_evolves, (hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
